-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel

variable [Facts]

def fn {F : FTy → Type} [FloatOps F] (main_arg0 : FVec F S128x1024 .f32) (main_arg1 : IVec S128x1024 32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  main_v3
-- ==== Kernel.lean ====
abbrev S128x1024 : Shape := ⟨2, ![128, 1024]⟩
abbrev S8x1x128 : Shape := ⟨3, ![8, 1, 128]⟩
abbrev S16x256 : Shape := ⟨2, ![16, 256]⟩
abbrev S1x1x128 : Shape := ⟨3, ![1, 1, 128]⟩
abbrev S1x1 : Shape := ⟨2, ![1, 1]⟩
abbrev S16 : Shape := ⟨1, ![16]⟩
abbrev S16x1 : Shape := ⟨2, ![16, 1]⟩
abbrev S1 : Shape := ⟨1, ![1]⟩
abbrev S16x256x1 : Shape := ⟨3, ![16, 256, 1]⟩
abbrev S16x1x256 : Shape := ⟨3, ![16, 1, 256]⟩
abbrev S16x256x256 : Shape := ⟨3, ![16, 256, 256]⟩
abbrev S16x1x1 : Shape := ⟨3, ![16, 1, 1]⟩
abbrev S1x1x1 : Shape := ⟨3, ![1, 1, 1]⟩
abbrev S8x128 : Shape := ⟨2, ![8, 128]⟩
abbrev S8x1 : Shape := ⟨2, ![8, 1]⟩
abbrev S8 : Shape := ⟨1, ![8]⟩
abbrev S_ : Shape := ⟨0, ![]⟩

abbrev nBuf : Space → Nat
  | .hbm => 19
  | .vmem => 12
  | .smem => 0
  | _ => 0

abbrev bufTy : (tb : Table) → Fin (tcTables nBuf tb) → BufTy
  | .hbm, ⟨0, _⟩ => ⟨S128x1024, .f32⟩
  | .hbm, ⟨1, _⟩ => ⟨S128x1024, .i32⟩
  | .hbm, ⟨2, _⟩ => ⟨S8x1x128, .f32⟩
  | .hbm, ⟨3, _⟩ => ⟨S8x128, .f32⟩
  | .hbm, ⟨4, _⟩ => ⟨S8x1, .f32⟩
  | .hbm, ⟨5, _⟩ => ⟨S8, .f32⟩
  | .hbm, ⟨6, _⟩ => ⟨S_, .f32⟩
  | .hbm, ⟨7, _⟩ => ⟨S_, .f32⟩
  | .hbm, ⟨8, _⟩ => ⟨S8x1, .f32⟩
  | .hbm, ⟨9, _⟩ => ⟨S8, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .i1⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .i32⟩
  | .local _ .vmem, ⟨5, _⟩ => ⟨S16x256, .i32⟩
  | .local _ .vmem, ⟨6, _⟩ => ⟨S16x256, .i32⟩
  | .local _ .vmem, ⟨7, _⟩ => ⟨S16x256, .i32⟩
  | .local _ .vmem, ⟨8, _⟩ => ⟨S1x1x128, .f32⟩
  | .local _ .vmem, ⟨9, _⟩ => ⟨S1x1x128, .f32⟩
  | .local _ .vmem, ⟨10, _⟩ => ⟨S1x1, .f32⟩
  | .local _ .vmem, ⟨11, _⟩ => ⟨S1x1, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg1 : BitVec 32 := BitVec.ofNat 32 (i 1).val
  let c3_i32 : BitVec 32 := 3#32
  let v3 : BitVec 1 := Scalar.cmpi .eq arg1 c3_i32
  let arg2 : BitVec 32 := BitVec.ofNat 32 (i 2).val
  let c3_i32_1 : BitVec 32 := 3#32
  let v4 : BitVec 1 := Scalar.cmpi .eq arg2 c3_i32_1
  let v5 : BitVec 1 := Scalar.andi v3 v4
  let v70 : BitVec 32 := Scalar.extui v5
  let c0_i32_27 : BitVec 32 := 0#32
  let v71 : BitVec 1 := Scalar.cmpi .ne v70 c0_i32_27
  v71

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S16x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16x256_S16x256_0_0 : ∀ a, (![0, 0] : Fin 2 → Nat) a + S16x256.size a ≤ S16x256.size a
  h_S16x256 : 0 < S16x256.numel
  natLt_1_32 : 1 < 32
  reduces_S16x256_S16 : S16x256.Reduces [1] S16
  shapeCasts_S16_S16x1 : S16.ShapeCasts S16x1
  reduces_S16x1_S1 : S16x1.Reduces [0] S1
  shapeCasts_S1_S1x1 : S1.ShapeCasts S1x1
  shapeCasts_S16x256_S16x256x1 : S16x256.ShapeCasts S16x256x1
  shapeCasts_S16x256_S16x1x256 : S16x256.ShapeCasts S16x1x256
  broadcasts_S16x256x1_S16x256x256 : S16x256x1.Broadcasts S16x256x256
  broadcasts_S16x1x256_S16x256x256 : S16x1x256.Broadcasts S16x256x256
  reduces_S16x256x256_S16x256 : S16x256x256.Reduces [2] S16x256
  reduces_S16x256x1_S16x1 : S16x256x1.Reduces [1] S16x1
  shapeCasts_S16x1_S16x1x1 : S16x1.ShapeCasts S16x1x1
  reduces_S16x1x1_S1x1 : S16x1x1.Reduces [0] S1x1
  shapeCasts_S1x1_S1x1x1 : S1x1.ShapeCasts S1x1x1
  shapeCasts_S1x1x1_S1x1 : S1x1x1.ShapeCasts S1x1
  iota_S1x1x128_d2_w32 : S1x1x128.Iotas .tc 32 [2]
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  shapeCasts_S8x1x128_S8x128 : S8x1x128.ShapeCasts S8x128
  slices_S8x128_S8x1_0_0 : S8x128.Slices ![0, 0] S8x1
  shapeCasts_S8x1_S8 : S8x1.ShapeCasts S8
  reducesTo_S8_S_d0 : S8.ReducesTo [0] S_
  h_S_ : 0 < S_.numel
  slices_S8x128_S8x1_0_1 : S8x128.Slices ![0, 1] S8x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S128x1024.size a
  hwx0_0 : ∀ i : grid0.Coords, EltTy.bits .f32 = 32 ∨ (Rect.block (s := S128x1024) S16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S128x1024.size a
  hwx0_1 : ∀ i : grid0.Coords, EltTy.bits .f32 = 32 ∨ (Rect.block (s := S128x1024) S16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S128x1024.size a
  hwx0_2 : ∀ i : grid0.Coords, EltTy.bits .i32 = 32 ∨ (Rect.block (s := S128x1024) S16x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S128x1024.size a
  hwx0_3 : ∀ i : grid0.Coords, EltTy.bits .i32 = 32 ∨ (Rect.block (s := S128x1024) S16x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S8x1x128.size a
  hwx0_4 : ∀ i : grid0.Coords, EltTy.bits .f32 = 32 ∨ (Rect.block (s := S8x1x128) S1x1x128.size (cc0_transform_4 i) (hinb0_4 i)).WholeWords (EltTy.packing .f32)

variable [Facts₀]

abbrev win0_0 : Pipeline.Window sig grid0 :=
  Pipeline.Window.ofSpec (Memref.whole main_arg0) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S16x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S128x1024 : Shape := ⟨2, ![128, 1024]⟩
abbrev S_ : Shape := ⟨0, ![]⟩
abbrev S128x1024x1 : Shape := ⟨3, ![128, 1024, 1]⟩
abbrev S128x1x1024 : Shape := ⟨3, ![128, 1, 1024]⟩
abbrev S128x1024x1024 : Shape := ⟨3, ![128, 1024, 1024]⟩

abbrev nBuf : Space → Nat
  | .hbm => 52
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .i32⟩
  | .hbm, ⟨2, _⟩ => ⟨S_, .i32⟩
  | .hbm, ⟨3, _⟩ => ⟨S128x1024, .i32⟩
  | .hbm, ⟨4, _⟩ => ⟨S128x1024, .i1⟩
  | .hbm, ⟨5, _⟩ => ⟨S_, .i32⟩
  | .hbm, ⟨6, _⟩ => ⟨S128x1024, .i32⟩
  | .hbm, ⟨7, _⟩ => ⟨S128x1024, .i1⟩
  | .hbm, ⟨8, _⟩ => ⟨S128x1024x1, .i1⟩
  | .hbm, ⟨9, _⟩ => ⟨S128x1x1024, .i1⟩
  | .hbm, ⟨10, _⟩ => ⟨S128x1024x1024, .i1⟩
  | .hbm, ⟨11, _⟩ => ⟨S128x1024x1024, .i1⟩
  | .hbm, ⟨12, _⟩ => ⟨S128x1024x1024, .i1⟩
  | .hbm, ⟨13, _⟩ => ⟨S128x1024x1, .f32⟩
  | .hbm, ⟨14, _⟩ => ⟨S128x1x1024, .f32⟩
  | .hbm, ⟨15, _⟩ => ⟨S128x1024x1024, .f32⟩
  | .hbm, ⟨16, _⟩ => ⟨S128x1024x1024, .f32⟩
  | .hbm, ⟨17, _⟩ => ⟨S128x1024x1024, .f32⟩
  | .hbm, ⟨18, _⟩ => ⟨S_, .f32⟩
  | .hbm, ⟨19, _⟩ => ⟨S128x1024x1024, .f32⟩
  | .hbm, ⟨20, _⟩ => ⟨S128x1024x1024, .f32⟩
  | .hbm, ⟨21, _⟩ => ⟨S_, .f32⟩
  | .hbm, ⟨22, _⟩ => ⟨S128x1024x1024, .f32⟩
  | .hbm, ⟨23, _⟩ => ⟨S128x1024x1024, .f32⟩
  | .hbm, ⟨24, _⟩ => ⟨S128x1024x1024, .f32⟩
  | .hbm, ⟨25, _⟩ => ⟨S128x1024x1024, .f32⟩
  | .hbm, ⟨26, _⟩ => ⟨S128x1024x1024, .i1⟩
  | .hbm, ⟨27, _⟩ => ⟨S128x1024x1024, .f32⟩
  | .hbm, ⟨28, _⟩ => ⟨S128x1024x1024, .f32⟩
  | .hbm, ⟨29, _⟩ => ⟨S128x1024x1024, .f32⟩
  | .hbm, ⟨30, _⟩ => ⟨S128x1024x1024, .f32⟩
  | .hbm, ⟨31, _⟩ => ⟨S128x1024x1024, .f32⟩
  | .hbm, ⟨32, _⟩ => ⟨S128x1024x1024, .f32⟩
  | .hbm, ⟨33, _⟩ => ⟨S128x1024x1024, .f32⟩
  | .hbm, ⟨34, _⟩ => ⟨S128x1024x1024, .f32⟩
  | .hbm, ⟨35, _⟩ => ⟨S_, .f32⟩
  | .hbm, ⟨36, _⟩ => ⟨S_, .f32⟩
  | .hbm, ⟨37, _⟩ => ⟨S128x1024x1024, .f32⟩
  | .hbm, ⟨38, _⟩ => ⟨S128x1024x1024, .f32⟩
  | .hbm, ⟨39, _⟩ => ⟨S_, .f32⟩
  | .hbm, ⟨40, _⟩ => ⟨S_, .f32⟩
  | .hbm, ⟨41, _⟩ => ⟨S128x1024x1024, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v16 : Ref sig .tc := ⟨.hbm, 34, rfl⟩
abbrev main_cst_1 : Ref sig .tc := ⟨.hbm, 35, rfl⟩
abbrev main_call1_v0 : Ref sig .tc := ⟨.hbm, 36, rfl⟩
abbrev main_call1_v1 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_c_3 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_6 : Ref sig .tc := ⟨.hbm, 50, rfl⟩
abbrev main_v25 : Ref sig .tc := ⟨.hbm, 51, rfl⟩

abbrev nD : Nat := 1
abbrev τ : Topo := Topo.v7x

variable {F : FTy → Type} [FloatOps F]

class Facts₀ : Prop where
  bcast_S_S128x1024 : S_.BroadcastsInDim S128x1024 (![] : Fin 0 → Fin S128x1024.rank)
  bcast_S128x1024_S128x1024x1_0_1 : S128x1024.BroadcastsInDim S128x1024x1 (![0, 1] : Fin 2 → Fin S128x1024x1.rank)
  bcast_S128x1024_S128x1x1024_0_2 : S128x1024.BroadcastsInDim S128x1x1024 (![0, 2] : Fin 2 → Fin S128x1x1024.rank)
  bcast_S128x1024x1_S128x1024x1024_0_1_2 : S128x1024x1.BroadcastsInDim S128x1024x1024 (![0, 1, 2] : Fin 3 → Fin S128x1024x1024.rank)
  bcast_S128x1x1024_S128x1024x1024_0_1_2 : S128x1x1024.BroadcastsInDim S128x1024x1024 (![0, 1, 2] : Fin 3 → Fin S128x1024x1024.rank)
  bcast_S_S128x1024x1024 : S_.BroadcastsInDim S128x1024x1024 (![] : Fin 0 → Fin S128x1024x1024.rank)
  reducesTo_S128x1024x1024_S_d0_1_2 : S128x1024x1024.ReducesTo [0, 1, 2] S_
  h_S_ : 0 < S_.numel
  natLt_1_32 : 1 < 32

variable [Facts₀]

class Facts : Prop extends Facts₀ where

variable [Facts]
-- ==== Proof.KernelFrame.Runs.lean ====
/-
  The pairwise ranking loss kernel, one grid point at a time: what the runs of its body share.

  The grid is 8 × 4 × 4, walked in row-major order, so a point's position `t` has row group `t / 16` and
  tile pair `(t % 16 / 4, t % 4)`. The body resets its two accumulators (the loss sum and the pair count)
  where the tile pair is `(0, 0)`, i.e. `t % 16 = 0`; adds the tile pair's contribution to both at every
  point; and writes the row group's output row where the tile pair is `(3, 3)`, i.e. `t % 16 = 15`.
  Here: the two conditions in closed form over the grid, where the output window is idle, the memrefs the
  body is called with, and the region invariant with the two accumulators spelled out.
-/
import proofs.«409428_j40355512713957_3_alg».proof.Proof.Gen.Kernel.Launch
import proofs.«409428_j40355512713957_3_alg».proof.Proof.Gen.Kernel.Skeleton
import proofs.«409428_j40355512713957_3_alg».proof.Proof.Gen.Kernel.Points
import Idealize.ShloMosaic.Lib.Pipeline.FrameBody
import Idealize.ShloMosaic.Lib.Ring
import Idealize.ShloMosaic.Lib.Tactic

-- membership in a literal rectangle recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays and the windows' blocks -/

/-- Core `c`'s buffer contents when the region is entered: the initial memory (nothing runs before the region). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it
    is not fetched the block index has not moved since the point before, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The reset's condition: the tile pair is the row group's first, `(i 1, i 2) = (0, 0)`, as the body computes it. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the positions ≡ 0 (mod 16): checked at each of the 128 points. -/
theorem hcond0_0 : ∀ t : Fin cfg0.N, cond0_0 (grid0.coords t) ↔ t.val % 16 = 0 :=
  (by decide +kernel : ∀ t : Fin grid0.N, cond0_0 (grid0.coords t) ↔ t.val % 16 = 0)

/-- The output's condition: the tile pair is the row group's last, `(i 1, i 2) = (3, 3)`. -/
abbrev cond0_1 (i : grid0.Coords) : Prop := k0_cond2 i = 1#1
/-- It holds at the positions ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The four input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Where the output's condition fails the output window is idle (the body stores nothing into it) and is not
    written back: a row group's row leaves only after its last tile pair. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- Where it holds the window is live. -/
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated (the choice does not matter). -/
abbrev VO0_4 : View sig .tc .vmem S1x1x128 .f32 := (Memref.whole cc0_stg4_0 : Memref sig .tc .vmem S1x1x128 .f32).view
/-- Each window's current staging memref at point `t`, as the pipeline passes it, and its wholeness. -/
abbrev ms0_0 (t : Fin cfg0.N) : Memref sig .tc .vmem S16x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)
/-- The two accumulators: whole scoped buffers of the kernel's own, the loss sum and the pair count. -/
abbrev scM0_0 : Memref sig .tc .vmem S1x1 .f32 := Memref.whole cc0_scratch0
abbrev scM0_1 : Memref sig .tc .vmem S1x1 .f32 := Memref.whole cc0_scratch1
/-- As views: what they hold is stated through these. -/
abbrev VS0_0 : View sig .tc .vmem S1x1 .f32 := scM0_0.view
abbrev VS0_1 : View sig .tc .vmem S1x1 .f32 := scM0_1.view

/-- The region invariant before the first point, with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.KernelFrame.RunA.lean ====
/-
  The body at a row group's FIRST tile pair (position ≡ 0 mod 16): both accumulators are reset to zero, then the
  tile pair's loss and count are added to them; the output row is not written. The run is found by symbolic
  execution of the body's memory operations; the lists of writes each accumulator ends with are its witness.
-/
import proofs.«409428_j40355512713957_3_alg».proof.Proof.KernelFrame.Runs

-- membership in a literal rectangle recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- On whole memrefs — the four inputs at their contents, the output's buffer at contents `xi4` handed back
    untouched, the two accumulators at anything — the body, with the reset taken and the output not written, runs
    to the continuation holding the inputs and the output's buffer as they were and each accumulator with its
    writes (the reset, then the update) laid over what it held. -/
noncomputable def kernelRun0_A (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S16x256 .f32) (x1 : Vec F S16x256 .f32) (x2 : Vec F S16x256 .i32) (x3 : Vec F S16x256 .i32) :
    Σ' (L4 : List (View.Piece (Elt F) S1x1x128 .f32)) (LS0 : List (View.Piece (Elt F) S1x1 .f32)), { LS1 : List (View.Piece (Elt F) S1x1 .f32) //
      ∀ (xi4 : Vec F S1x1x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__lambdarank_kernel i arg3 harg3 arg4 harg4 arg5 harg5 arg6 harg6 arg7 harg7 arg8 harg8 arg9 harg9) K } := by
  refine ⟨[], ?_, ?_, fun xi4 E K => ?run⟩
  case run =>
    simp only [cc0__lambdarank_kernel_eq_skeleton]; unfold cc0__lambdarank_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.Kernel.Hand

end
-- ==== Proof.KernelFrame.RunB.lean ====
/-
  The body at a tile pair that is neither a row group's first nor its last (positions ≢ 0, 15 mod 16): the tile
  pair's loss and count are added to the accumulators as the point before left them; nothing is reset and the
  output row is not written.
-/
import proofs.«409428_j40355512713957_3_alg».proof.Proof.KernelFrame.RunA

-- membership in a literal rectangle recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- On whole memrefs — the four inputs at their contents, the output's buffer at contents `xi4` handed back
    untouched, the two accumulators at the contents `xs0`, `xs1` the point before left — the body, with neither
    conditional taken, runs to the continuation holding the inputs and the output's buffer as they were and each
    accumulator with its one write (the update) laid over what it held. -/
noncomputable def kernelRun0_B (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 : Vec F S16x256 .f32) (x1 : Vec F S16x256 .f32) (x2 : Vec F S16x256 .i32) (x3 : Vec F S16x256 .i32) (xs0 : Vec F S1x1 .f32) (xs1 : Vec F S1x1 .f32) :
    Σ' (L4 : List (View.Piece (Elt F) S1x1x128 .f32)) (LS0 : List (View.Piece (Elt F) S1x1 .f32)), { LS1 : List (View.Piece (Elt F) S1x1 .f32) //
      ∀ (xi4 : Vec F S1x1x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__lambdarank_kernel i arg3 harg3 arg4 harg4 arg5 harg5 arg6 harg6 arg7 harg7 arg8 harg8 arg9 harg9) K } := by
  refine ⟨[], ?_, ?_, fun xi4 E K => ?run⟩
  case run =>
    simp only [cc0__lambdarank_kernel_eq_skeleton]; unfold cc0__lambdarank_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.Kernel.Hand

end
-- ==== Proof.KernelFrame.RunC.lean ====
/-
  The body at a row group's LAST tile pair (position ≡ 15 mod 16): the tile pair's loss and count are added to the
  accumulators as the point before left them, and the output row is written from the two totals — the loss in
  lane 0, the count in lane 1, zero elsewhere.
-/
import proofs.«409428_j40355512713957_3_alg».proof.Proof.KernelFrame.RunB

-- membership in a literal rectangle recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- On whole memrefs — the four inputs at their contents, the output's buffer at anything, the two accumulators
    at the contents `xs0`, `xs1` the point before left — the body, with the reset not taken and the output
    written, runs to the continuation holding the inputs as they were and the output's buffer and each
    accumulator with its writes laid over what it held. -/
noncomputable def kernelRun0_C (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S16x256 .f32) (x1 : Vec F S16x256 .f32) (x2 : Vec F S16x256 .i32) (x3 : Vec F S16x256 .i32) (xs0 : Vec F S1x1 .f32) (xs1 : Vec F S1x1 .f32) :
    Σ' (L4 : List (View.Piece (Elt F) S1x1x128 .f32)) (LS0 : List (View.Piece (Elt F) S1x1 .f32)), { LS1 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__lambdarank_kernel i arg3 harg3 arg4 harg4 arg5 harg5 arg6 harg6 arg7 harg7 arg8 harg8 arg9 harg9) K } := by
  refine ⟨?_, ?_, ?_, fun E K => ?run⟩
  case run =>
    simp only [cc0__lambdarank_kernel_eq_skeleton]; unfold cc0__lambdarank_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    iexists _; iexact HS1

end Cert.Kernel.Hand

end
-- ==== Proof.KernelFrame.Outs.lean ====
/-
  What the body leaves, case by case and point by point: the writes each run found, read back; the recursion
  over the grid positions that carries the two accumulators from one tile pair to the next within a row group
  (reset at the first, read out at the last); the region invariant that holds them between points; and the
  pipeline's proof data over these.
-/
import proofs.«409428_j40355512713957_3_alg».proof.Proof.KernelFrame.RunC

-- membership in a literal rectangle recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At a row group's first tile pair nothing is stored into the output's buffer: no writes — a placeholder that nothing consults,
    since at these points the window is neither written back nor read at the next point. -/
def out0_A_4 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S16x256 .f32) (x1 : Vec F S16x256 .f32) (x2 : Vec F S16x256 .i32) (x3 : Vec F S16x256 .i32) : Vec F S1x1x128 .f32 :=
  VO0_4.read (Elt F) (VO0_4.writes (Elt F) VO0_4.junk (kernelRun0_A c i arg3 harg3 arg4 harg4 arg5 harg5 arg6 harg6 arg7 harg7 arg8 harg8 arg9 harg9 hc0 hc1 x0 x1 x2 x3).1)

/-- At a row group's first tile pair the writes into the loss accumulator cover its one cell. -/
theorem scover0_A_0 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S16x256 .f32) (x1 : Vec F S16x256 .f32) (x2 : Vec F S16x256 .i32) (x3 : Vec F S16x256 .i32) (y : S1x1.Idx) :
    ∃ pc ∈ (kernelRun0_A c i arg3 harg3 arg4 harg4 arg5 harg5 arg6 harg6 arg7 harg7 arg8 harg8 arg9 harg9 hc0 hc1 x0 x1 x2 x3).2.1, y ∈ pc.1.set :=
  View.cover_of_tiledL (kernelRun0_A c i arg3 harg3 arg4 harg4 arg5 harg5 arg6 harg6 arg7 harg7 arg8 harg8 arg9 harg9 hc0 hc1 x0 x1 x2 x3).2.1 S1x1.size (by sl_kernel_rfl) y

/-- What the body leaves in the loss accumulator there: its writes read back. -/
def sout0_A_0 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S16x256 .f32) (x1 : Vec F S16x256 .f32) (x2 : Vec F S16x256 .i32) (x3 : Vec F S16x256 .i32) : Vec F S1x1 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3).2.1)

/-- At a row group's first tile pair the writes into the count accumulator cover its one cell. -/
theorem scover0_A_1 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S16x256 .f32) (x1 : Vec F S16x256 .f32) (x2 : Vec F S16x256 .i32) (x3 : Vec F S16x256 .i32) (y : S1x1.Idx) :
    ∃ pc ∈ (kernelRun0_A c i arg3 harg3 arg4 harg4 arg5 harg5 arg6 harg6 arg7 harg7 arg8 harg8 arg9 harg9 hc0 hc1 x0 x1 x2 x3).2.2.1, y ∈ pc.1.set :=
  View.cover_of_tiledL (kernelRun0_A c i arg3 harg3 arg4 harg4 arg5 harg5 arg6 harg6 arg7 harg7 arg8 harg8 arg9 harg9 hc0 hc1 x0 x1 x2 x3).2.2.1 S1x1.size (by sl_kernel_rfl) y

/-- What the body leaves in the count accumulator there: its writes read back. -/
def sout0_A_1 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S16x256 .f32) (x1 : Vec F S16x256 .f32) (x2 : Vec F S16x256 .i32) (x3 : Vec F S16x256 .i32) : Vec F S1x1 .f32 :=
  VS0_1.read (Elt F) (VS0_1.writes (Elt F) VS0_1.junk (kernelRun0_A c i arg3 harg3 arg4 harg4 arg5 harg5 arg6 harg6 arg7 harg7 arg8 harg8 arg9 harg9 hc0 hc1 x0 x1 x2 x3).2.2.1)

/-- At a middle tile pair nothing is stored into the output's buffer: no writes — a placeholder that nothing consults,
    since at these points the window is neither written back nor read at the next point. -/
def out0_B_4 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 : Vec F S16x256 .f32) (x1 : Vec F S16x256 .f32) (x2 : Vec F S16x256 .i32) (x3 : Vec F S16x256 .i32) (xs0 : Vec F S1x1 .f32) (xs1 : Vec F S1x1 .f32) : Vec F S1x1x128 .f32 :=
  VO0_4.read (Elt F) (VO0_4.writes (Elt F) VO0_4.junk (kernelRun0_B c i arg3 harg3 arg4 harg4 arg5 harg5 arg6 harg6 arg7 harg7 arg8 harg8 arg9 harg9 hc0 hc1 x0 x1 x2 x3 xs0 xs1).1)

/-- At a middle tile pair the writes into the loss accumulator cover its one cell. -/
theorem scover0_B_0 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 : Vec F S16x256 .f32) (x1 : Vec F S16x256 .f32) (x2 : Vec F S16x256 .i32) (x3 : Vec F S16x256 .i32) (xs0 : Vec F S1x1 .f32) (xs1 : Vec F S1x1 .f32) (y : S1x1.Idx) :
    ∃ pc ∈ (kernelRun0_B c i arg3 harg3 arg4 harg4 arg5 harg5 arg6 harg6 arg7 harg7 arg8 harg8 arg9 harg9 hc0 hc1 x0 x1 x2 x3 xs0 xs1).2.1, y ∈ pc.1.set :=
  View.cover_of_tiledL (kernelRun0_B c i arg3 harg3 arg4 harg4 arg5 harg5 arg6 harg6 arg7 harg7 arg8 harg8 arg9 harg9 hc0 hc1 x0 x1 x2 x3 xs0 xs1).2.1 S1x1.size (by sl_kernel_rfl) y

/-- What the body leaves in the loss accumulator there: its writes read back. -/
def sout0_B_0 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 : Vec F S16x256 .f32) (x1 : Vec F S16x256 .f32) (x2 : Vec F S16x256 .i32) (x3 : Vec F S16x256 .i32) (xs0 : Vec F S1x1 .f32) (xs1 : Vec F S1x1 .f32) : Vec F S1x1 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 xs0 xs1).2.1)

/-- At a middle tile pair the writes into the count accumulator cover its one cell. -/
theorem scover0_B_1 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 : Vec F S16x256 .f32) (x1 : Vec F S16x256 .f32) (x2 : Vec F S16x256 .i32) (x3 : Vec F S16x256 .i32) (xs0 : Vec F S1x1 .f32) (xs1 : Vec F S1x1 .f32) (y : S1x1.Idx) :
    ∃ pc ∈ (kernelRun0_B c i arg3 harg3 arg4 harg4 arg5 harg5 arg6 harg6 arg7 harg7 arg8 harg8 arg9 harg9 hc0 hc1 x0 x1 x2 x3 xs0 xs1).2.2.1, y ∈ pc.1.set :=
  View.cover_of_tiledL (kernelRun0_B c i arg3 harg3 arg4 harg4 arg5 harg5 arg6 harg6 arg7 harg7 arg8 harg8 arg9 harg9 hc0 hc1 x0 x1 x2 x3 xs0 xs1).2.2.1 S1x1.size (by sl_kernel_rfl) y

/-- What the body leaves in the count accumulator there: its writes read back. -/
def sout0_B_1 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 : Vec F S16x256 .f32) (x1 : Vec F S16x256 .f32) (x2 : Vec F S16x256 .i32) (x3 : Vec F S16x256 .i32) (xs0 : Vec F S1x1 .f32) (xs1 : Vec F S1x1 .f32) : Vec F S1x1 .f32 :=
  VS0_1.read (Elt F) (VS0_1.writes (Elt F) VS0_1.junk (kernelRun0_B c i arg3 harg3 arg4 harg4 arg5 harg5 arg6 harg6 arg7 harg7 arg8 harg8 arg9 harg9 hc0 hc1 x0 x1 x2 x3 xs0 xs1).2.2.1)

/-- At a row group's last tile pair the one store into the output's buffer covers its block. -/
theorem cover0_C_4 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S16x256 .f32) (x1 : Vec F S16x256 .f32) (x2 : Vec F S16x256 .i32) (x3 : Vec F S16x256 .i32) (xs0 : Vec F S1x1 .f32) (xs1 : Vec F S1x1 .f32) (y : S1x1x128.Idx) :
    ∃ pc ∈ (kernelRun0_C c i arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg3 harg3 arg4 harg4 arg5 harg5 arg6 harg6 arg7 harg7 arg8 harg8 arg9 harg9 hc0 hc1 x0 x1 x2 x3 xs0 xs1).1 S1x1x128.size (by sl_kernel_rfl) y

/-- What the body leaves in the output's buffer there: its write read back. -/
def out0_C_4 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S16x256 .f32) (x1 : Vec F S16x256 .f32) (x2 : Vec F S16x256 .i32) (x3 : Vec F S16x256 .i32) (xs0 : Vec F S1x1 .f32) (xs1 : Vec F S1x1 .f32) : Vec F S1x1x128 .f32 :=
  VO0_4.read (Elt F) (VO0_4.writes (Elt F) VO0_4.junk (kernelRun0_C c i arg3 harg3 arg4 harg4 arg5 harg5 arg6 harg6 arg7 harg7 arg8 harg8 arg9 harg9 hc0 hc1 x0 x1 x2 x3 xs0 xs1).1)

/-- At a row group's last tile pair the writes into the loss accumulator cover its one cell. -/
theorem scover0_C_0 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S16x256 .f32) (x1 : Vec F S16x256 .f32) (x2 : Vec F S16x256 .i32) (x3 : Vec F S16x256 .i32) (xs0 : Vec F S1x1 .f32) (xs1 : Vec F S1x1 .f32) (y : S1x1.Idx) :
    ∃ pc ∈ (kernelRun0_C c i arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg3 harg3 arg4 harg4 arg5 harg5 arg6 harg6 arg7 harg7 arg8 harg8 arg9 harg9 hc0 hc1 x0 x1 x2 x3 xs0 xs1).2.1 S1x1.size (by sl_kernel_rfl) y

/-- What the body leaves in the loss accumulator there: its writes read back. -/
def sout0_C_0 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S16x256 .f32) (x1 : Vec F S16x256 .f32) (x2 : Vec F S16x256 .i32) (x3 : Vec F S16x256 .i32) (xs0 : Vec F S1x1 .f32) (xs1 : Vec F S1x1 .f32) : Vec F S1x1 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 xs0 xs1).2.1)

/-- At a row group's last tile pair the writes into the count accumulator cover its one cell. -/
theorem scover0_C_1 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S16x256 .f32) (x1 : Vec F S16x256 .f32) (x2 : Vec F S16x256 .i32) (x3 : Vec F S16x256 .i32) (xs0 : Vec F S1x1 .f32) (xs1 : Vec F S1x1 .f32) (y : S1x1.Idx) :
    ∃ pc ∈ (kernelRun0_C c i arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg3 harg3 arg4 harg4 arg5 harg5 arg6 harg6 arg7 harg7 arg8 harg8 arg9 harg9 hc0 hc1 x0 x1 x2 x3 xs0 xs1).2.2.1 S1x1.size (by sl_kernel_rfl) y

/-- What the body leaves in the count accumulator there: its writes read back. -/
def sout0_C_1 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S16x256 .f32) (x1 : Vec F S16x256 .f32) (x2 : Vec F S16x256 .i32) (x3 : Vec F S16x256 .i32) (xs0 : Vec F S1x1 .f32) (xs1 : Vec F S1x1 .f32) : Vec F S1x1 .f32 :=
  VS0_1.read (Elt F) (VS0_1.writes (Elt F) VS0_1.junk (kernelRun0_C c i arg3 harg3 arg4 harg4 arg5 harg5 arg6 harg6 arg7 harg7 arg8 harg8 arg9 harg9 hc0 hc1 x0 x1 x2 x3 xs0 xs1).2.2.1)

/-! ## What the output's buffer and the accumulators hold after each point -/

/-- THE ACCUMULATION. What the output's staging buffer, the loss accumulator and the count accumulator hold after
    the body at position `n`: the case the position selects (`n % 16 = 0` the reset, `n % 16 = 15` the output,
    else the plain update), run at the point's memrefs and input blocks, the accumulators taken at what the
    position before left. No position is both ≡ 0 and ≡ 15 (mod 16). -/
def outsAt0 (c : Dev nD) : (n : ℕ) → n < cfg0.N → Vec F S1x1x128 .f32 × Vec F S1x1 .f32 × Vec F S1x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 16 = 0 then
      if h1 : (n + 1) % 16 = 15 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

/-- `outsAt0` at a row group's first tile pair. -/
theorem outsAt0_A (c : Dev nD) (t : Fin cfg0.N) (h0 : t.val % 16 = 0) (h1 : ¬t.val % 16 = 15) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a middle tile pair: over what the position before left. -/
theorem outsAt0_B (c : Dev nD) (t : Fin cfg0.N) (h0 : ¬t.val % 16 = 0) (h1 : ¬t.val % 16 = 15) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a row group's last tile pair: over what the position before left. -/
theorem outsAt0_C (c : Dev nD) (t : Fin cfg0.N) (h0 : ¬t.val % 16 = 0) (h1 : t.val % 16 = 15) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The invariant before position `n`: before the first point the two accumulators at anything (the class's
    invariant); afterwards each accumulator at what the position before left in it; the generator register at
    some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After position `n`: the accumulators at that position's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a position that is not the first: the accumulators at what the position before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them; after the body at
    point `t` each input's buffer at its block and the output's at `outsAt0`'s first component; the invariant
    `PhiS`; nothing owed. The scores feed windows 0 and 1 and the relevances windows 2 and 3: each pair holds
    its array by the two halves of the full share; the output's array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.Kernel.Hand

end
-- ==== Proof.KernelFrame.Body.lean ====
/-
  The body obligation of the one pipeline: at every grid point, from the region invariant and the windows'
  current buffers, the body runs to the invariant at the next point and the buffers at what the proof data
  says. By the position's residue mod 16 — the reset case, the output case, the plain update — each leaf is
  that case's run: the inputs' buffers hold their blocks, the accumulators what the position before left (at
  a row group's first tile pair: anything, they are reset), and the writes found cover each accumulator's one
  cell and, at the last tile pair, the output's block.
-/
import proofs.«409428_j40355512713957_3_alg».proof.Proof.KernelFrame.Outs

-- membership in a literal rectangle recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases h1 : t.val % 16 = 15
    · exfalso; omega
    · -- a row group's first tile pair: the accumulators are reset, whatever they held
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t))
            · unfold owns; iexists _; isplitr
              swap; · iexact HS1
              ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t))
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t))
            · unfold owns; iexists _; isplitr
              swap; · iexact HS1
              ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t))
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · -- a row group's last tile pair: the output row is written from the two totals
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_4 sout0_C_0 sout0_C_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
          · unfold owns; iexists _; isplitr
            swap; · iexact HS1
            ipureintro; exact View.read_writes_of_cover _ _ _ _ _ (scover0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
    · -- a middle tile pair: the plain update
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0 sout0_B_1; (try dsimp only)
      have hz : t.val ≠ 0 := by omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
            · unfold owns; iexists _; isplitr
              swap; · iexact HS1
              ipureintro; exact View.read_writes_of_cover _ _ _ _ _ (scover0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

end Cert.Kernel.Hand

end
-- ==== Proof.LibSharedArrays.lean ====
import Idealize.ShloMosaic.Lib.Pipeline.FrameSuffix

/-!
# The frame run of a kernel whose input windows share arrays, with host lines after the region

One pallas_call, no prefetched table, a body that uses no semaphore of its own; several INPUT windows may stage
blocks of one array (a kernel handed `x` twice, once blocked by rows `(b, i)` and once by `(b, j)`). The arrays behind the
windows are then not pairwise distinct, so each shared array's full share is dealt among the windows on it — the
proof data's `q` — and joined again at the region's exit: `hdeal` states the dealing as an equation, at any contents,
between the buffers behind the arrays held whole (`arrBufs`) and the proof data's `arrays`.

The host lines after the region run within all the unscoped buffers, held whole again: the arrays at what the
library computes from the proof data (`W₁` on the arrays), the bypassing buffers at their entry contents. The post
reads every array at `Dat.arrAt … N` and every bypassing buffer at the lines' `StableHlo.after`.
-/

noncomputable section

namespace Idealize.ShloMosaic

open Idealize.SL
open Idealize.SL.BI (sProp bigSep bigSep_map bigSep_union bigSep_congr bigSep_sdiff_split)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section SharedFrame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

omit [Fintype P] [DecidableEq P] [∀ e, Nonempty (Val e)] in
/-- A core's unscoped buffers at contents `V` are the buffers behind the windows' arrays and the rest, the arrays
    distinct or not. -/
theorem unscopedBufs_arrBufs_rest (c : Dev nD) (hunscoped : ∀ w, (arrRef (cfg).spec w).isScoped = false)
    (V : (b : Ref sig .tc) → Buf Val ((c.tc : Thread nD τ).loc b)) :
    (unscopedBufs (Ix := Unit) (Name := ℕ) (U := UR sig nD τ) (Lvl := ℕ) c V : sProp 𝕄)
      = iprop((arrBufs (cfg).spec c V : sProp 𝕄) ∗ unscopedRest (cfg).spec c V) := by
  classical
  have hA : Finset.univ.image (arrRef (cfg).spec) ⊆ Finset.univ.filter fun b : Ref sig .tc => ¬ b.isScoped := fun b hb => by
    obtain ⟨w, -, rfl⟩ := Finset.mem_image.mp hb
    exact Finset.mem_filter.mpr ⟨Finset.mem_univ _, by simp [hunscoped w]⟩
  unfold unscopedBufs unscopedRest arrBufs
  rw [bigSep_sdiff_split hA]
  rfl

/-- THE FRAME RUN with a tracking invariant, for windows that may SHARE ARRAYS, of an @main that continues after
    the region with the host lines `opss`. -/
theorem θ_run_frame_around_track_shared
    (hcell : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hdeal : ∀ (c : Dev nD) (W : (b : Ref sig .tc) → Buf Val ((c.tc : Thread nD τ).loc b))
      (F : (w : Fin (cfg).W) → Buf Val (((cfg).win w).arr.view.loc (c.tc : Thread nD τ))),
      (∀ w, F w = W (arrRef (cfg).spec w)) → (arrBufs (cfg).spec c W : sProp 𝕄) = (dats p c).arrays F)
    (hA : ∀ c w, (dats p c).A w = V₀ c (Proc.devRef .tc (arrRef (cfg).spec w)))
    (W₁ : Dev nD → Valuation τ sig Val)
    (hW₁arr : ∀ c w, (dats p c).arrAt w (cfg).N = W₁ c (Proc.devRef .tc (arrRef (cfg).spec w)))
    (hW₁rest : ∀ c, ∀ b ∈ restRefs sig (cfg).spec, W₁ c (Proc.devRef .tc b) = V₀ c (Proc.devRef .tc b))
    (hin : ∀ c, ΦA (cfg).spec c ⊢ (dats p c).Φ 0) (hout : ∀ c, (dats p c).Φ (Fin.last (cfg).N) ⊢ ΦA (cfg).spec c) :
    θ_run 𝔻 (onTc main) (s₀ m g) (fun r => ∀ c : Dev nD,
      (∀ w, r.2.mem (((cfg).spec w).arr.view.loc (c.tc : Thread nD τ)) = (dats p c).arrAt w (cfg).N)
      ∧ ∀ b ∈ restRefs sig (cfg).spec, r.2.mem ((c.tc : Thread nD τ).loc b) = StableHlo.after opss.flatten (W₁ c) (Proc.devRef .tc b)) := by
  classical
  -- the arrays keep their contents through the lines
  have hW₂arr : ∀ c w, (dats p c).arrAt w (cfg).N = StableHlo.after opss.flatten (W₁ c) (Proc.devRef .tc (arrRef (cfg).spec w)) := fun c w => by
    rw [StableHlo.after_of_forall_not_mem _ _ fun op hop => ?_, hW₁arr]
    obtain ⟨ops, hops, hop'⟩ := List.mem_flatten.mp hop
    exact hkeep ops hops op hop' w
  exact θ_run_region_pf_tail (fun q => (cfgs q).toPCfg (Val := Val)) (fun q => (cfgs q).toPCfg_adm) dats () hcell p hw (OwnSemFacts.none (cfg).spec) (PreFacts.none _) emb₁ defs₀ 𝒱₀ m g main
    (fun _ => chain (opss.map StableHlo.seq)) hbody
    hne harr hstage howed
    (G := fun _ => iprop(emp)) (u₀ := initOf (cells cfgs hcell) (launchToks cfgs hcell))
    (hu₀ := by
      iintro Hu; imodintro
      isplitl [Hu]; · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := fun c => Entails.of_eq (hdeal c _ _ fun w => hA c w))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c (fun b => StableHlo.after opss.flatten (W₁ c) (Proc.devRef .tc b)))
    (hX := fun c => by
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      rw [unscopedRestP_none, unscopedRestP_none]
      -- at the exit: the arrays and the bypassing buffers are all the unscoped buffers, at `W₁`
      have e₁ : iprop((dats p c).arrays ((dats p c).arrAt · (cfg).N) ∗ unscopedRest (cfg).spec c (fun b => V₀ c (Proc.devRef .tc b)))
          = (StableHlo.held (c.tc : Thread nD τ) (ucRefs τ sig) (W₁ c) : sProp 𝕄) := by
        rw [← unscopedBufs_held (Ix := Unit) (Name := ℕ) (U := UR sig nD τ) (Lvl := ℕ) c (W₁ c),
          unscopedBufs_arrBufs_rest cfgs p c hw.arr_unscoped, hdeal c _ _ fun w => hW₁arr c w]
        congr 1
        unfold unscopedRest
        exact bigSep_congr fun b hb => by dsimp only; rw [hW₁rest c b hb]
      -- after the lines: the same, at the lines' contents
      have e₂ : iprop((dats p c).arrays ((dats p c).arrAt · (cfg).N) ∗ unscopedRest (cfg).spec c (fun b => StableHlo.after opss.flatten (W₁ c) (Proc.devRef .tc b)))
          = (StableHlo.held (c.tc : Thread nD τ) (ucRefs τ sig) (StableHlo.after opss.flatten (W₁ c)) : sProp 𝕄) := by
        rw [← unscopedBufs_held (Ix := Unit) (Name := ℕ) (U := UR sig nD τ) (Lvl := ℕ) c (StableHlo.after opss.flatten (W₁ c)),
          unscopedBufs_arrBufs_rest cfgs p c hw.arr_unscoped, hdeal c _ _ fun w => hW₂arr c w]
      rw [e₂, ← List.append_nil (opss.map StableHlo.seq)]
      iintro ⟨Hk, Hb, Ha, HZ⟩
      ihave Hh := (Entails.of_eq e₁) $$ [Ha HZ]
      · isplitl [Ha] <;> iassumption
      iapply (wp_seqs_then (fun q => (cfgs q).toPCfg (Val := Val)) defs₀ 𝒱₀ c (ucRefs τ sig) [] opss
        (fun ops ho op h => sub_ucRefs op (hsub ops ho op h)) hfresh (W₁ c)) $$ [Hb Hh]
      · isplitl [Hb] <;> iassumption
      iintro Hb
      rw [chain_nil, wp_pure]
      imodintro
      iapply Hk
      icases Hb with ⟨-, H⟩
      iexact H)
    (QY := fun c s => ∀ b ∈ restRefsP sig Prefetch.none (cfg).spec, s.mem ((c.tc : Thread nD τ).loc b) = StableHlo.after opss.flatten (W₁ c) (Proc.devRef .tc b))
    (hY := fun c s' => by
      iintro ⟨-, HU, HSI⟩
      unfold unscopedRestP
      imodintro
      iapply (pointsTo_read_all (restRefsP sig Prefetch.none (cfg).spec) (fun b => (c.tc : Thread nD τ).loc b) (fun b => StableHlo.after opss.flatten (W₁ c) (Proc.devRef .tc b)) s')
      isplitl [HU] <;> iassumption)
    (hQ := fun s h c => ⟨(h c).1, rest_of_restP Prefetch.none (cfg).spec Prefetch.Contents.none c (fun b => StableHlo.after opss.flatten (W₁ c) (Proc.devRef .tc b)) s (fun k => k.elim0) (fun k => k.elim0) (h c).2.2⟩)

end SharedFrame

end Pipeline

end Idealize.ShloMosaic

end
-- ==== Proof.KernelWordShares.lean ====
import proofs.«409428_j40355512713957_3_alg».proof.Proof.Gen.Kernel.Launch
import proofs.«409428_j40355512713957_3_alg».proof.Proof.LibSharedArrays

/-!
The scores array is read by two input windows (blocked by `(b, i)` and by `(b, j)`), and so is the relevance array.
Each array's full share is dealt in halves to its two windows; the output array is held whole. Here: the equation
between the three buffers held whole and the five windows' arrays at those shares, at any contents.
-/

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-- The buffers behind the five windows' arrays are three: the scores, the relevances and the output. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
  unfold Pipeline.arrBufs
  exact bigSep_eq_bigSepL_of_eq [main_arg0, main_arg1, main_v0] (by decide) (by decide) _

/-- A buffer held whole is its two halves. -/
theorem halves (ℓ : Loc nD τ sig) (f : Buf (Elt F) ℓ) :
    (ℓ ↦{fullShare} f : sProp 𝕄) = iprop((ℓ ↦{fullShare.left} f) ∗ ℓ ↦{fullShare.right} f) :=
  BI.Entails.antisymm (pointsTo_share (PosShare.mem_left_op_right fullShare)).1 (pointsTo_share (PosShare.mem_left_op_right fullShare)).2

/-- Two pairs and a fifth, regrouped as a chain of five. -/
theorem regroup (A B C D E : sProp 𝕄) : iprop((A ∗ B) ∗ (C ∗ D) ∗ E) = iprop(A ∗ B ∗ C ∗ D ∗ E) := by
  have d1 : iprop((A ∗ B) ∗ (C ∗ D) ∗ E) ⊢ iprop(A ∗ B ∗ C ∗ D ∗ E) := by
    iintro ⟨⟨Ha, Hb⟩, ⟨Hc, Hd⟩, He⟩
    isplitl [Ha]; · iexact Ha
    isplitl [Hb]; · iexact Hb
    isplitl [Hc]; · iexact Hc
    isplitl [Hd]; · iexact Hd
    iexact He
  have d2 : iprop(A ∗ B ∗ C ∗ D ∗ E) ⊢ iprop((A ∗ B) ∗ (C ∗ D) ∗ E) := by
    iintro ⟨Ha, Hb, Hc, Hd, He⟩
    isplitl [Ha Hb]
    · isplitl [Ha] <;> iassumption
    isplitl [Hc Hd]
    · isplitl [Hc] <;> iassumption
    iexact He
  exact BI.Entails.antisymm d1 d2

/-- THE DEALING: for proof data whose input windows hold the left and right halves of the two shared arrays,
    the three buffers held whole at contents `W` are the five windows' arrays at those contents. -/
theorem deal (c : Dev nD) (dat : Dat τ (Elt F) Unit ℕ (UR sig nD τ) ℕ cfg0 c)
    (hq0 : dat.q 0 = fullShare.left) (hq1 : dat.q 1 = fullShare.right) (hq2 : dat.q 2 = fullShare.left) (hq3 : dat.q 3 = fullShare.right)
    (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (Pipeline.arrBufs (Ix := Unit) (Name := ℕ) (U := UR sig nD τ) (Lvl := ℕ) spec0 c W : sProp 𝕄) = dat.arrays G := by
  rw [arrBufs_eq]
  unfold Pipeline.Dat.arrays
  rw [bigSep_W0]
  have h0 : (((cfg0.win 0).arr.view.loc (c : Thread nD τ)) ↦[(cfg0.win 0).arr.view.set]{dat.share 0} G 0 : sProp 𝕄)
      = (((c : Thread nD τ).loc main_arg0) ↦{fullShare.left} W main_arg0) := by
    rw [(arr_whole0 0).set_eq_univ, hG 0, show dat.share 0 = dat.q 0 from rfl, hq0]
  have h1 : (((cfg0.win 1).arr.view.loc (c : Thread nD τ)) ↦[(cfg0.win 1).arr.view.set]{dat.share 1} G 1 : sProp 𝕄)
      = (((c : Thread nD τ).loc main_arg0) ↦{fullShare.right} W main_arg0) := by
    rw [(arr_whole0 1).set_eq_univ, hG 1, show dat.share 1 = dat.q 1 from rfl, hq1]
  have h2 : (((cfg0.win 2).arr.view.loc (c : Thread nD τ)) ↦[(cfg0.win 2).arr.view.set]{dat.share 2} G 2 : sProp 𝕄)
      = (((c : Thread nD τ).loc main_arg1) ↦{fullShare.left} W main_arg1) := by
    rw [(arr_whole0 2).set_eq_univ, hG 2, show dat.share 2 = dat.q 2 from rfl, hq2]
  have h3 : (((cfg0.win 3).arr.view.loc (c : Thread nD τ)) ↦[(cfg0.win 3).arr.view.set]{dat.share 3} G 3 : sProp 𝕄)
      = (((c : Thread nD τ).loc main_arg1) ↦{fullShare.right} W main_arg1) := by
    rw [(arr_whole0 3).set_eq_univ, hG 3, show dat.share 3 = dat.q 3 from rfl, hq3]
  have h4 : (((cfg0.win 4).arr.view.loc (c : Thread nD τ)) ↦[(cfg0.win 4).arr.view.set]{dat.share 4} G 4 : sProp 𝕄)
      = (((c : Thread nD τ).loc main_v0) ↦{fullShare} W main_v0) := by
    rw [(arr_whole0 4).set_eq_univ, hG 4, show dat.share 4 = fullShare from rfl]
  rw [h0, h1, h2, h3, h4, halves (F := F) ((c : Thread nD τ).loc main_arg0), halves (F := F) ((c : Thread nD τ).loc main_arg1)]
  exact regroup _ _ _ _ _

end Cert.Kernel.Hand

end
-- ==== Proof.KernelWordLaunch.lean ====
import proofs.«409428_j40355512713957_3_alg».proof.Proof.KernelWordShares

/-!
The launch of the one pallas_call and the host lines after it, for ANY proof data of the pipeline whose two
pairs of input windows hold the halves of the scores and of the relevances: every weakly fair execution of @main
terminates; the arrays end at what the library computes from the proof data (the two arguments unchanged), and every
other buffer at what the host lines compute from the output array.
-/

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the launch contents (no host line precedes the region). -/
abbrev V0 (c : Dev nD) : Valuation τ sig (Elt F) := StableHlo.after (List.flatten []) (fun b => m (c, b))

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; rfl

/-- @main is the region continued by the two stretches of host lines. -/
theorem hmain (𝒱₀ : Variants) : Pipeline.HMainK (Ix := Unit) (Name := ℕ) (U := UR sig nD τ) (Lvl := ℕ) cfgs 0 defs₀ 𝒱₀ m (main (F := F))
      (fun c b => V0 m c (Proc.devRef .tc b)) (fun _ => Pipeline.chain ([hostOps1, hostOps1_1].map StableHlo.seq)) :=
  Pipeline.hmain_around cfgs 0 defs₀ 𝒱₀ m main [] [hostOps1, hostOps1_1] (by simp only [List.Forall])
    (by simp only [List.Forall]) main_chain

/-- The lines after the region touch TensorCore references only, -/
theorem sfx_sub : ∀ ops ∈ ([hostOps1, hostOps1_1] : List (List (HloOp τ sig (Elt F)))), ∀ op ∈ ops,
    op.bufs ⊆ StableHlo.tcRefs τ sig := by
  intro ops hops op hop
  simp only [List.mem_cons, List.mem_nil_iff, or_false] at hops
  rcases hops with rfl | rfl
  · exact (List.forall_iff_forall_mem.mp hostOps1_sub) op hop
  · exact (List.forall_iff_forall_mem.mp hostOps1_1_sub) op hop
/-- allocate nothing, -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
/-- and write no array of the pipeline (each writes its own result buffer). -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_1, List.mem_cons, List.mem_nil_iff, or_false] at hop
    rcases hop with rfl
    intro w; fin_cases w <;> simp only [StableHlo.ternary_writes, Finset.mem_singleton] <;> exact StableHlo.devRef_ne_of_ne (by decide)

section Run

variable (dats : (p : Fin 1) → (c : Dev nD) → Dat τ (Elt F) Unit ℕ (UR sig nD τ) ℕ (cfgs p) c)

open Classical in
/-- The contents at the region's exit: the output array at what the proof data's write-backs leave, every other buffer
    as at the entry. -/
def W1 (c : Dev nD) : Valuation τ sig (Elt F) :=
  Function.update (V0 m c) (Proc.devRef .tc main_v0) ((dats 0 c).arrAt 4 cfg0.N)

theorem W1_out (c : Dev nD) : W1 m dats c (Proc.devRef .tc main_v0) = (dats 0 c).arrAt 4 cfg0.N := by
  unfold W1; exact Function.update_self ..

theorem W1_ne (c : Dev nD) (b : Ref sig .tc) (hb : b ≠ main_v0) : W1 m dats c (Proc.devRef .tc b) = V0 m c (Proc.devRef .tc b) := by
  unfold W1; exact Function.update_of_ne (StableHlo.devRef_ne_of_ne hb) ..

-- the launch theorem's implicit arguments are found by unifying its conclusion with this one, which takes unfolding plain
-- definitions in a metavariable's type
set_option backward.isDefEq.respectTransparency.types false in
/-- THE RUN, for proof data dealing the two shared arrays in halves. -/
theorem run_of
    (hq0 : ∀ c, (dats 0 c).q 0 = fullShare.left) (hq1 : ∀ c, (dats 0 c).q 1 = fullShare.right)
    (hq2 : ∀ c, (dats 0 c).q 2 = fullShare.left) (hq3 : ∀ c, (dats 0 c).q 3 = fullShare.right)
    (hA : ∀ c w, (dats 0 c).A w = V0 m c (Proc.devRef .tc (Pipeline.arrRef spec0 w)))
    (hbody : ∀ c, BodyObligation (dats 0 c) (defs₀ (F := F)) Variants.none () Set.univ)
    (howed : ∀ c t, (dats 0 c).owed t = 0)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ Pipeline.restRefs sig spec0, r.2.mem ((c.tc : Thread nD τ).loc b)
          = StableHlo.after ([hostOps1, hostOps1_1] : List (List (HloOp τ sig (Elt F)))).flatten (W1 m dats c) (Proc.devRef .tc b)) :=
  Pipeline.θ_run_frame_around_track_shared cfgs dats (0 : Fin 1) defs₀ Variants.none cellOf_inj winFacts₀0 block_pos0 arr_whole0 stage_whole0
    m ρ main (fun c => (hbody c).loose) howed (V0 m) [hostOps1, hostOps1_1] sfx_sub sfx_fresh sfx_keeps (hmain m Variants.none)
    (fun c W G hG => deal c (dats 0 c) (hq0 c) (hq1 c) (hq2 c) (hq3 c) W G hG) hA (W1 m dats)
    (fun c w => by
      fin_cases w
      · exact (((dats 0 c).arrAt_in 0 rfl _).trans (hA c 0)).trans (W1_ne m dats c main_arg0 (by decide)).symm
      · exact (((dats 0 c).arrAt_in 1 rfl _).trans (hA c 1)).trans (W1_ne m dats c main_arg0 (by decide)).symm
      · exact (((dats 0 c).arrAt_in 2 rfl _).trans (hA c 2)).trans (W1_ne m dats c main_arg1 (by decide)).symm
      · exact (((dats 0 c).arrAt_in 3 rfl _).trans (hA c 3)).trans (W1_ne m dats c main_arg1 (by decide)).symm
      · exact (W1_out m dats c).symm)
    (fun c b hb => W1_ne m dats c b (fun e => by
      subst e
      exact (Finset.mem_sdiff.mp hb).2 (Finset.mem_image.mpr ⟨4, Finset.mem_univ _, rfl⟩)))
    hin hout

end Run

end Cert.Kernel.Hand

end
-- ==== Proof.KernelFrame.Frame.lean ====
/-
  The frame of the whole program: every weakly fair execution of @main terminates, and the scores and the
  relevances end as they began. From the launch for proof data that deals each shared array between its two
  windows in halves, at this kernel's proof data and body obligation: an input window's array ends at what it
  held at entry, window 0's array is the scores and window 2's the relevances.
-/
import proofs.«409428_j40355512713957_3_alg».proof.Proof.KernelFrame.Body
import proofs.«409428_j40355512713957_3_alg».proof.Proof.KernelWordLaunch

-- membership in a literal rectangle recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (ρ : Dev nD → PrngReg)

/-- The run: the pipeline's arrays end at what the library computes from the proof data, every other unscoped
    buffer at what the host lines after the region compute from the output array. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after ([hostOps1, hostOps1_1] : List (List (HloOp τ sig (Elt F)))).flatten (W1 m (dats m) c) (Proc.devRef .tc b)) :=
  run_of m ρ (dats m) (fun _ => rfl) (fun _ => rfl) (fun _ => rfl) (fun _ => rfl) (fun c w => A_eq m c w)
    (body_obligation m) (fun _ _ => rfl) (hin m) (hout m)

/-- THE FRAME: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans (A_eq m c 0)),
     ((h c).1 2).trans (((dats m 0 c).arrAt_in 2 rfl _).trans (A_eq m c 2))⟩) (run_main m ρ)

end Cert.Kernel.Hand

end
-- ==== Proof.KernelIdealFrame.Runs.lean ====
/-
  The pairwise ranking loss kernel, one grid point at a time: what the runs of its body share.

  The grid is 8 × 4 × 4, walked in row-major order, so a point's position `t` has row group `t / 16` and
  tile pair `(t % 16 / 4, t % 4)`. The body resets its two accumulators (the loss sum and the pair count)
  where the tile pair is `(0, 0)`, i.e. `t % 16 = 0`; adds the tile pair's contribution to both at every
  point; and writes the row group's output row where the tile pair is `(3, 3)`, i.e. `t % 16 = 15`.
  Here: the two conditions in closed form over the grid, where the output window is idle, the memrefs the
  body is called with, and the region invariant with the two accumulators spelled out.
-/
import proofs.«409428_j40355512713957_3_alg».proof.Proof.Gen.KernelIdeal.Launch
import proofs.«409428_j40355512713957_3_alg».proof.Proof.Gen.KernelIdeal.Skeleton
import proofs.«409428_j40355512713957_3_alg».proof.Proof.Gen.KernelIdeal.Points
import Idealize.ShloMosaic.Lib.Pipeline.FrameBody
import Idealize.ShloMosaic.Lib.Ring
import Idealize.ShloMosaic.Lib.Tactic

-- membership in a literal rectangle recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays and the windows' blocks -/

/-- Core `c`'s buffer contents when the region is entered: the initial memory (nothing runs before the region). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it
    is not fetched the block index has not moved since the point before, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The reset's condition: the tile pair is the row group's first, `(i 1, i 2) = (0, 0)`, as the body computes it. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the positions ≡ 0 (mod 16): checked at each of the 128 points. -/
theorem hcond0_0 : ∀ t : Fin cfg0.N, cond0_0 (grid0.coords t) ↔ t.val % 16 = 0 :=
  (by decide +kernel : ∀ t : Fin grid0.N, cond0_0 (grid0.coords t) ↔ t.val % 16 = 0)

/-- The output's condition: the tile pair is the row group's last, `(i 1, i 2) = (3, 3)`. -/
abbrev cond0_1 (i : grid0.Coords) : Prop := k0_cond2 i = 1#1
/-- It holds at the positions ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The four input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Where the output's condition fails the output window is idle (the body stores nothing into it) and is not
    written back: a row group's row leaves only after its last tile pair. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- Where it holds the window is live. -/
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated (the choice does not matter). -/
abbrev VO0_4 : View sig .tc .vmem S1x1x128 .f32 := (Memref.whole cc0_stg4_0 : Memref sig .tc .vmem S1x1x128 .f32).view
/-- Each window's current staging memref at point `t`, as the pipeline passes it, and its wholeness. -/
abbrev ms0_0 (t : Fin cfg0.N) : Memref sig .tc .vmem S16x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)
/-- The two accumulators: whole scoped buffers of the kernel's own, the loss sum and the pair count. -/
abbrev scM0_0 : Memref sig .tc .vmem S1x1 .f32 := Memref.whole cc0_scratch0
abbrev scM0_1 : Memref sig .tc .vmem S1x1 .f32 := Memref.whole cc0_scratch1
/-- As views: what they hold is stated through these. -/
abbrev VS0_0 : View sig .tc .vmem S1x1 .f32 := scM0_0.view
abbrev VS0_1 : View sig .tc .vmem S1x1 .f32 := scM0_1.view

/-- The region invariant before the first point, with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KernelIdealFrame.RunA.lean ====
/-
  The body at a row group's FIRST tile pair (position ≡ 0 mod 16): both accumulators are reset to zero, then the
  tile pair's loss and count are added to them; the output row is not written. The run is found by symbolic
  execution of the body's memory operations; the lists of writes each accumulator ends with are its witness.
-/
import proofs.«409428_j40355512713957_3_alg».proof.Proof.KernelIdealFrame.Runs

-- membership in a literal rectangle recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- On whole memrefs — the four inputs at their contents, the output's buffer at contents `xi4` handed back
    untouched, the two accumulators at anything — the body, with the reset taken and the output not written, runs
    to the continuation holding the inputs and the output's buffer as they were and each accumulator with its
    writes (the reset, then the update) laid over what it held. -/
noncomputable def kernelRun0_A (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S16x256 .f32) (x1 : Vec F S16x256 .f32) (x2 : Vec F S16x256 .i32) (x3 : Vec F S16x256 .i32) :
    Σ' (L4 : List (View.Piece (Elt F) S1x1x128 .f32)) (LS0 : List (View.Piece (Elt F) S1x1 .f32)), { LS1 : List (View.Piece (Elt F) S1x1 .f32) //
      ∀ (xi4 : Vec F S1x1x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__lambdarank_kernel i arg3 harg3 arg4 harg4 arg5 harg5 arg6 harg6 arg7 harg7 arg8 harg8 arg9 harg9) K } := by
  refine ⟨[], ?_, ?_, fun xi4 E K => ?run⟩
  case run =>
    simp only [cc0__lambdarank_kernel_eq_skeleton]; unfold cc0__lambdarank_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.KernelIdeal.Hand

end
-- ==== Proof.KernelIdealFrame.RunB.lean ====
/-
  The body at a tile pair that is neither a row group's first nor its last (positions ≢ 0, 15 mod 16): the tile
  pair's loss and count are added to the accumulators as the point before left them; nothing is reset and the
  output row is not written.
-/
import proofs.«409428_j40355512713957_3_alg».proof.Proof.KernelIdealFrame.RunA

-- membership in a literal rectangle recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- On whole memrefs — the four inputs at their contents, the output's buffer at contents `xi4` handed back
    untouched, the two accumulators at the contents `xs0`, `xs1` the point before left — the body, with neither
    conditional taken, runs to the continuation holding the inputs and the output's buffer as they were and each
    accumulator with its one write (the update) laid over what it held. -/
noncomputable def kernelRun0_B (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 : Vec F S16x256 .f32) (x1 : Vec F S16x256 .f32) (x2 : Vec F S16x256 .i32) (x3 : Vec F S16x256 .i32) (xs0 : Vec F S1x1 .f32) (xs1 : Vec F S1x1 .f32) :
    Σ' (L4 : List (View.Piece (Elt F) S1x1x128 .f32)) (LS0 : List (View.Piece (Elt F) S1x1 .f32)), { LS1 : List (View.Piece (Elt F) S1x1 .f32) //
      ∀ (xi4 : Vec F S1x1x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__lambdarank_kernel i arg3 harg3 arg4 harg4 arg5 harg5 arg6 harg6 arg7 harg7 arg8 harg8 arg9 harg9) K } := by
  refine ⟨[], ?_, ?_, fun xi4 E K => ?run⟩
  case run =>
    simp only [cc0__lambdarank_kernel_eq_skeleton]; unfold cc0__lambdarank_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.KernelIdeal.Hand

end
-- ==== Proof.KernelIdealFrame.RunC.lean ====
/-
  The body at a row group's LAST tile pair (position ≡ 15 mod 16): the tile pair's loss and count are added to the
  accumulators as the point before left them, and the output row is written from the two totals — the loss in
  lane 0, the count in lane 1, zero elsewhere.
-/
import proofs.«409428_j40355512713957_3_alg».proof.Proof.KernelIdealFrame.RunB

-- membership in a literal rectangle recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- On whole memrefs — the four inputs at their contents, the output's buffer at anything, the two accumulators
    at the contents `xs0`, `xs1` the point before left — the body, with the reset not taken and the output
    written, runs to the continuation holding the inputs as they were and the output's buffer and each
    accumulator with its writes laid over what it held. -/
noncomputable def kernelRun0_C (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S16x256 .f32) (x1 : Vec F S16x256 .f32) (x2 : Vec F S16x256 .i32) (x3 : Vec F S16x256 .i32) (xs0 : Vec F S1x1 .f32) (xs1 : Vec F S1x1 .f32) :
    Σ' (L4 : List (View.Piece (Elt F) S1x1x128 .f32)) (LS0 : List (View.Piece (Elt F) S1x1 .f32)), { LS1 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__lambdarank_kernel i arg3 harg3 arg4 harg4 arg5 harg5 arg6 harg6 arg7 harg7 arg8 harg8 arg9 harg9) K } := by
  refine ⟨?_, ?_, ?_, fun E K => ?run⟩
  case run =>
    simp only [cc0__lambdarank_kernel_eq_skeleton]; unfold cc0__lambdarank_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    iexists _; iexact HS1

end Cert.KernelIdeal.Hand

end
-- ==== Proof.KernelIdealFrame.Outs.lean ====
/-
  What the body leaves, case by case and point by point: the writes each run found, read back; the recursion
  over the grid positions that carries the two accumulators from one tile pair to the next within a row group
  (reset at the first, read out at the last); the region invariant that holds them between points; and the
  pipeline's proof data over these.
-/
import proofs.«409428_j40355512713957_3_alg».proof.Proof.KernelIdealFrame.RunC

-- membership in a literal rectangle recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At a row group's first tile pair nothing is stored into the output's buffer: no writes — a placeholder that nothing consults,
    since at these points the window is neither written back nor read at the next point. -/
def out0_A_4 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S16x256 .f32) (x1 : Vec F S16x256 .f32) (x2 : Vec F S16x256 .i32) (x3 : Vec F S16x256 .i32) : Vec F S1x1x128 .f32 :=
  VO0_4.read (Elt F) (VO0_4.writes (Elt F) VO0_4.junk (kernelRun0_A c i arg3 harg3 arg4 harg4 arg5 harg5 arg6 harg6 arg7 harg7 arg8 harg8 arg9 harg9 hc0 hc1 x0 x1 x2 x3).1)

/-- At a row group's first tile pair the writes into the loss accumulator cover its one cell. -/
theorem scover0_A_0 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S16x256 .f32) (x1 : Vec F S16x256 .f32) (x2 : Vec F S16x256 .i32) (x3 : Vec F S16x256 .i32) (y : S1x1.Idx) :
    ∃ pc ∈ (kernelRun0_A c i arg3 harg3 arg4 harg4 arg5 harg5 arg6 harg6 arg7 harg7 arg8 harg8 arg9 harg9 hc0 hc1 x0 x1 x2 x3).2.1, y ∈ pc.1.set :=
  View.cover_of_tiledL (kernelRun0_A c i arg3 harg3 arg4 harg4 arg5 harg5 arg6 harg6 arg7 harg7 arg8 harg8 arg9 harg9 hc0 hc1 x0 x1 x2 x3).2.1 S1x1.size (by sl_kernel_rfl) y

/-- What the body leaves in the loss accumulator there: its writes read back. -/
def sout0_A_0 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S16x256 .f32) (x1 : Vec F S16x256 .f32) (x2 : Vec F S16x256 .i32) (x3 : Vec F S16x256 .i32) : Vec F S1x1 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3).2.1)

/-- At a row group's first tile pair the writes into the count accumulator cover its one cell. -/
theorem scover0_A_1 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S16x256 .f32) (x1 : Vec F S16x256 .f32) (x2 : Vec F S16x256 .i32) (x3 : Vec F S16x256 .i32) (y : S1x1.Idx) :
    ∃ pc ∈ (kernelRun0_A c i arg3 harg3 arg4 harg4 arg5 harg5 arg6 harg6 arg7 harg7 arg8 harg8 arg9 harg9 hc0 hc1 x0 x1 x2 x3).2.2.1, y ∈ pc.1.set :=
  View.cover_of_tiledL (kernelRun0_A c i arg3 harg3 arg4 harg4 arg5 harg5 arg6 harg6 arg7 harg7 arg8 harg8 arg9 harg9 hc0 hc1 x0 x1 x2 x3).2.2.1 S1x1.size (by sl_kernel_rfl) y

/-- What the body leaves in the count accumulator there: its writes read back. -/
def sout0_A_1 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S16x256 .f32) (x1 : Vec F S16x256 .f32) (x2 : Vec F S16x256 .i32) (x3 : Vec F S16x256 .i32) : Vec F S1x1 .f32 :=
  VS0_1.read (Elt F) (VS0_1.writes (Elt F) VS0_1.junk (kernelRun0_A c i arg3 harg3 arg4 harg4 arg5 harg5 arg6 harg6 arg7 harg7 arg8 harg8 arg9 harg9 hc0 hc1 x0 x1 x2 x3).2.2.1)

/-- At a middle tile pair nothing is stored into the output's buffer: no writes — a placeholder that nothing consults,
    since at these points the window is neither written back nor read at the next point. -/
def out0_B_4 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 : Vec F S16x256 .f32) (x1 : Vec F S16x256 .f32) (x2 : Vec F S16x256 .i32) (x3 : Vec F S16x256 .i32) (xs0 : Vec F S1x1 .f32) (xs1 : Vec F S1x1 .f32) : Vec F S1x1x128 .f32 :=
  VO0_4.read (Elt F) (VO0_4.writes (Elt F) VO0_4.junk (kernelRun0_B c i arg3 harg3 arg4 harg4 arg5 harg5 arg6 harg6 arg7 harg7 arg8 harg8 arg9 harg9 hc0 hc1 x0 x1 x2 x3 xs0 xs1).1)

/-- At a middle tile pair the writes into the loss accumulator cover its one cell. -/
theorem scover0_B_0 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 : Vec F S16x256 .f32) (x1 : Vec F S16x256 .f32) (x2 : Vec F S16x256 .i32) (x3 : Vec F S16x256 .i32) (xs0 : Vec F S1x1 .f32) (xs1 : Vec F S1x1 .f32) (y : S1x1.Idx) :
    ∃ pc ∈ (kernelRun0_B c i arg3 harg3 arg4 harg4 arg5 harg5 arg6 harg6 arg7 harg7 arg8 harg8 arg9 harg9 hc0 hc1 x0 x1 x2 x3 xs0 xs1).2.1, y ∈ pc.1.set :=
  View.cover_of_tiledL (kernelRun0_B c i arg3 harg3 arg4 harg4 arg5 harg5 arg6 harg6 arg7 harg7 arg8 harg8 arg9 harg9 hc0 hc1 x0 x1 x2 x3 xs0 xs1).2.1 S1x1.size (by sl_kernel_rfl) y

/-- What the body leaves in the loss accumulator there: its writes read back. -/
def sout0_B_0 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 : Vec F S16x256 .f32) (x1 : Vec F S16x256 .f32) (x2 : Vec F S16x256 .i32) (x3 : Vec F S16x256 .i32) (xs0 : Vec F S1x1 .f32) (xs1 : Vec F S1x1 .f32) : Vec F S1x1 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 xs0 xs1).2.1)

/-- At a middle tile pair the writes into the count accumulator cover its one cell. -/
theorem scover0_B_1 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 : Vec F S16x256 .f32) (x1 : Vec F S16x256 .f32) (x2 : Vec F S16x256 .i32) (x3 : Vec F S16x256 .i32) (xs0 : Vec F S1x1 .f32) (xs1 : Vec F S1x1 .f32) (y : S1x1.Idx) :
    ∃ pc ∈ (kernelRun0_B c i arg3 harg3 arg4 harg4 arg5 harg5 arg6 harg6 arg7 harg7 arg8 harg8 arg9 harg9 hc0 hc1 x0 x1 x2 x3 xs0 xs1).2.2.1, y ∈ pc.1.set :=
  View.cover_of_tiledL (kernelRun0_B c i arg3 harg3 arg4 harg4 arg5 harg5 arg6 harg6 arg7 harg7 arg8 harg8 arg9 harg9 hc0 hc1 x0 x1 x2 x3 xs0 xs1).2.2.1 S1x1.size (by sl_kernel_rfl) y

/-- What the body leaves in the count accumulator there: its writes read back. -/
def sout0_B_1 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 : Vec F S16x256 .f32) (x1 : Vec F S16x256 .f32) (x2 : Vec F S16x256 .i32) (x3 : Vec F S16x256 .i32) (xs0 : Vec F S1x1 .f32) (xs1 : Vec F S1x1 .f32) : Vec F S1x1 .f32 :=
  VS0_1.read (Elt F) (VS0_1.writes (Elt F) VS0_1.junk (kernelRun0_B c i arg3 harg3 arg4 harg4 arg5 harg5 arg6 harg6 arg7 harg7 arg8 harg8 arg9 harg9 hc0 hc1 x0 x1 x2 x3 xs0 xs1).2.2.1)

/-- At a row group's last tile pair the one store into the output's buffer covers its block. -/
theorem cover0_C_4 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S16x256 .f32) (x1 : Vec F S16x256 .f32) (x2 : Vec F S16x256 .i32) (x3 : Vec F S16x256 .i32) (xs0 : Vec F S1x1 .f32) (xs1 : Vec F S1x1 .f32) (y : S1x1x128.Idx) :
    ∃ pc ∈ (kernelRun0_C c i arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg3 harg3 arg4 harg4 arg5 harg5 arg6 harg6 arg7 harg7 arg8 harg8 arg9 harg9 hc0 hc1 x0 x1 x2 x3 xs0 xs1).1 S1x1x128.size (by sl_kernel_rfl) y

/-- What the body leaves in the output's buffer there: its write read back. -/
def out0_C_4 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S16x256 .f32) (x1 : Vec F S16x256 .f32) (x2 : Vec F S16x256 .i32) (x3 : Vec F S16x256 .i32) (xs0 : Vec F S1x1 .f32) (xs1 : Vec F S1x1 .f32) : Vec F S1x1x128 .f32 :=
  VO0_4.read (Elt F) (VO0_4.writes (Elt F) VO0_4.junk (kernelRun0_C c i arg3 harg3 arg4 harg4 arg5 harg5 arg6 harg6 arg7 harg7 arg8 harg8 arg9 harg9 hc0 hc1 x0 x1 x2 x3 xs0 xs1).1)

/-- At a row group's last tile pair the writes into the loss accumulator cover its one cell. -/
theorem scover0_C_0 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S16x256 .f32) (x1 : Vec F S16x256 .f32) (x2 : Vec F S16x256 .i32) (x3 : Vec F S16x256 .i32) (xs0 : Vec F S1x1 .f32) (xs1 : Vec F S1x1 .f32) (y : S1x1.Idx) :
    ∃ pc ∈ (kernelRun0_C c i arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg3 harg3 arg4 harg4 arg5 harg5 arg6 harg6 arg7 harg7 arg8 harg8 arg9 harg9 hc0 hc1 x0 x1 x2 x3 xs0 xs1).2.1 S1x1.size (by sl_kernel_rfl) y

/-- What the body leaves in the loss accumulator there: its writes read back. -/
def sout0_C_0 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S16x256 .f32) (x1 : Vec F S16x256 .f32) (x2 : Vec F S16x256 .i32) (x3 : Vec F S16x256 .i32) (xs0 : Vec F S1x1 .f32) (xs1 : Vec F S1x1 .f32) : Vec F S1x1 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 xs0 xs1).2.1)

/-- At a row group's last tile pair the writes into the count accumulator cover its one cell. -/
theorem scover0_C_1 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S16x256 .f32) (x1 : Vec F S16x256 .f32) (x2 : Vec F S16x256 .i32) (x3 : Vec F S16x256 .i32) (xs0 : Vec F S1x1 .f32) (xs1 : Vec F S1x1 .f32) (y : S1x1.Idx) :
    ∃ pc ∈ (kernelRun0_C c i arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg3 harg3 arg4 harg4 arg5 harg5 arg6 harg6 arg7 harg7 arg8 harg8 arg9 harg9 hc0 hc1 x0 x1 x2 x3 xs0 xs1).2.2.1 S1x1.size (by sl_kernel_rfl) y

/-- What the body leaves in the count accumulator there: its writes read back. -/
def sout0_C_1 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S16x256 .f32) (x1 : Vec F S16x256 .f32) (x2 : Vec F S16x256 .i32) (x3 : Vec F S16x256 .i32) (xs0 : Vec F S1x1 .f32) (xs1 : Vec F S1x1 .f32) : Vec F S1x1 .f32 :=
  VS0_1.read (Elt F) (VS0_1.writes (Elt F) VS0_1.junk (kernelRun0_C c i arg3 harg3 arg4 harg4 arg5 harg5 arg6 harg6 arg7 harg7 arg8 harg8 arg9 harg9 hc0 hc1 x0 x1 x2 x3 xs0 xs1).2.2.1)

/-! ## What the output's buffer and the accumulators hold after each point -/

/-- THE ACCUMULATION. What the output's staging buffer, the loss accumulator and the count accumulator hold after
    the body at position `n`: the case the position selects (`n % 16 = 0` the reset, `n % 16 = 15` the output,
    else the plain update), run at the point's memrefs and input blocks, the accumulators taken at what the
    position before left. No position is both ≡ 0 and ≡ 15 (mod 16). -/
def outsAt0 (c : Dev nD) : (n : ℕ) → n < cfg0.N → Vec F S1x1x128 .f32 × Vec F S1x1 .f32 × Vec F S1x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 16 = 0 then
      if h1 : (n + 1) % 16 = 15 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

/-- `outsAt0` at a row group's first tile pair. -/
theorem outsAt0_A (c : Dev nD) (t : Fin cfg0.N) (h0 : t.val % 16 = 0) (h1 : ¬t.val % 16 = 15) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a middle tile pair: over what the position before left. -/
theorem outsAt0_B (c : Dev nD) (t : Fin cfg0.N) (h0 : ¬t.val % 16 = 0) (h1 : ¬t.val % 16 = 15) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a row group's last tile pair: over what the position before left. -/
theorem outsAt0_C (c : Dev nD) (t : Fin cfg0.N) (h0 : ¬t.val % 16 = 0) (h1 : t.val % 16 = 15) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The invariant before position `n`: before the first point the two accumulators at anything (the class's
    invariant); afterwards each accumulator at what the position before left in it; the generator register at
    some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After position `n`: the accumulators at that position's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a position that is not the first: the accumulators at what the position before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them; after the body at
    point `t` each input's buffer at its block and the output's at `outsAt0`'s first component; the invariant
    `PhiS`; nothing owed. The scores feed windows 0 and 1 and the relevances windows 2 and 3: each pair holds
    its array by the two halves of the full share; the output's array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.KernelIdeal.Hand

end
-- ==== Proof.KernelIdealFrame.Body.lean ====
/-
  The body obligation of the one pipeline: at every grid point, from the region invariant and the windows'
  current buffers, the body runs to the invariant at the next point and the buffers at what the proof data
  says. By the position's residue mod 16 — the reset case, the output case, the plain update — each leaf is
  that case's run: the inputs' buffers hold their blocks, the accumulators what the position before left (at
  a row group's first tile pair: anything, they are reset), and the writes found cover each accumulator's one
  cell and, at the last tile pair, the output's block.
-/
import proofs.«409428_j40355512713957_3_alg».proof.Proof.KernelIdealFrame.Outs

-- membership in a literal rectangle recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases h1 : t.val % 16 = 15
    · exfalso; omega
    · -- a row group's first tile pair: the accumulators are reset, whatever they held
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t))
            · unfold owns; iexists _; isplitr
              swap; · iexact HS1
              ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t))
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t))
            · unfold owns; iexists _; isplitr
              swap; · iexact HS1
              ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t))
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · -- a row group's last tile pair: the output row is written from the two totals
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_4 sout0_C_0 sout0_C_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
          · unfold owns; iexists _; isplitr
            swap; · iexact HS1
            ipureintro; exact View.read_writes_of_cover _ _ _ _ _ (scover0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
    · -- a middle tile pair: the plain update
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0 sout0_B_1; (try dsimp only)
      have hz : t.val ≠ 0 := by omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
            · unfold owns; iexists _; isplitr
              swap; · iexact HS1
              ipureintro; exact View.read_writes_of_cover _ _ _ _ _ (scover0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

end Cert.KernelIdeal.Hand

end
-- ==== Proof.KernelShares.lean ====
import proofs.«409428_j40355512713957_3_alg».proof.Proof.Gen.KernelIdeal.Launch
import proofs.«409428_j40355512713957_3_alg».proof.Proof.LibSharedArrays

/-!
The scores array is read by two input windows (blocked by `(b, i)` and by `(b, j)`), and so is the relevance array.
Each array's full share is dealt in halves to its two windows; the output array is held whole. Here: the equation
between the three buffers held whole and the five windows' arrays at those shares, at any contents.
-/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-- The buffers behind the five windows' arrays are three: the scores, the relevances and the output. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
  unfold Pipeline.arrBufs
  exact bigSep_eq_bigSepL_of_eq [main_arg0, main_arg1, main_v0] (by decide) (by decide) _

/-- A buffer held whole is its two halves. -/
theorem halves (ℓ : Loc nD τ sig) (f : Buf (Elt F) ℓ) :
    (ℓ ↦{fullShare} f : sProp 𝕄) = iprop((ℓ ↦{fullShare.left} f) ∗ ℓ ↦{fullShare.right} f) :=
  BI.Entails.antisymm (pointsTo_share (PosShare.mem_left_op_right fullShare)).1 (pointsTo_share (PosShare.mem_left_op_right fullShare)).2

/-- Two pairs and a fifth, regrouped as a chain of five. -/
theorem regroup (A B C D E : sProp 𝕄) : iprop((A ∗ B) ∗ (C ∗ D) ∗ E) = iprop(A ∗ B ∗ C ∗ D ∗ E) := by
  have d1 : iprop((A ∗ B) ∗ (C ∗ D) ∗ E) ⊢ iprop(A ∗ B ∗ C ∗ D ∗ E) := by
    iintro ⟨⟨Ha, Hb⟩, ⟨Hc, Hd⟩, He⟩
    isplitl [Ha]; · iexact Ha
    isplitl [Hb]; · iexact Hb
    isplitl [Hc]; · iexact Hc
    isplitl [Hd]; · iexact Hd
    iexact He
  have d2 : iprop(A ∗ B ∗ C ∗ D ∗ E) ⊢ iprop((A ∗ B) ∗ (C ∗ D) ∗ E) := by
    iintro ⟨Ha, Hb, Hc, Hd, He⟩
    isplitl [Ha Hb]
    · isplitl [Ha] <;> iassumption
    isplitl [Hc Hd]
    · isplitl [Hc] <;> iassumption
    iexact He
  exact BI.Entails.antisymm d1 d2

/-- THE DEALING: for proof data whose input windows hold the left and right halves of the two shared arrays,
    the three buffers held whole at contents `W` are the five windows' arrays at those contents. -/
theorem deal (c : Dev nD) (dat : Dat τ (Elt F) Unit ℕ (UR sig nD τ) ℕ cfg0 c)
    (hq0 : dat.q 0 = fullShare.left) (hq1 : dat.q 1 = fullShare.right) (hq2 : dat.q 2 = fullShare.left) (hq3 : dat.q 3 = fullShare.right)
    (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (Pipeline.arrBufs (Ix := Unit) (Name := ℕ) (U := UR sig nD τ) (Lvl := ℕ) spec0 c W : sProp 𝕄) = dat.arrays G := by
  rw [arrBufs_eq]
  unfold Pipeline.Dat.arrays
  rw [bigSep_W0]
  have h0 : (((cfg0.win 0).arr.view.loc (c : Thread nD τ)) ↦[(cfg0.win 0).arr.view.set]{dat.share 0} G 0 : sProp 𝕄)
      = (((c : Thread nD τ).loc main_arg0) ↦{fullShare.left} W main_arg0) := by
    rw [(arr_whole0 0).set_eq_univ, hG 0, show dat.share 0 = dat.q 0 from rfl, hq0]
  have h1 : (((cfg0.win 1).arr.view.loc (c : Thread nD τ)) ↦[(cfg0.win 1).arr.view.set]{dat.share 1} G 1 : sProp 𝕄)
      = (((c : Thread nD τ).loc main_arg0) ↦{fullShare.right} W main_arg0) := by
    rw [(arr_whole0 1).set_eq_univ, hG 1, show dat.share 1 = dat.q 1 from rfl, hq1]
  have h2 : (((cfg0.win 2).arr.view.loc (c : Thread nD τ)) ↦[(cfg0.win 2).arr.view.set]{dat.share 2} G 2 : sProp 𝕄)
      = (((c : Thread nD τ).loc main_arg1) ↦{fullShare.left} W main_arg1) := by
    rw [(arr_whole0 2).set_eq_univ, hG 2, show dat.share 2 = dat.q 2 from rfl, hq2]
  have h3 : (((cfg0.win 3).arr.view.loc (c : Thread nD τ)) ↦[(cfg0.win 3).arr.view.set]{dat.share 3} G 3 : sProp 𝕄)
      = (((c : Thread nD τ).loc main_arg1) ↦{fullShare.right} W main_arg1) := by
    rw [(arr_whole0 3).set_eq_univ, hG 3, show dat.share 3 = dat.q 3 from rfl, hq3]
  have h4 : (((cfg0.win 4).arr.view.loc (c : Thread nD τ)) ↦[(cfg0.win 4).arr.view.set]{dat.share 4} G 4 : sProp 𝕄)
      = (((c : Thread nD τ).loc main_v0) ↦{fullShare} W main_v0) := by
    rw [(arr_whole0 4).set_eq_univ, hG 4, show dat.share 4 = fullShare from rfl]
  rw [h0, h1, h2, h3, h4, halves (F := F) ((c : Thread nD τ).loc main_arg0), halves (F := F) ((c : Thread nD τ).loc main_arg1)]
  exact regroup _ _ _ _ _

end Cert.KernelIdeal.Hand

end
-- ==== Proof.KernelLaunch.lean ====
import proofs.«409428_j40355512713957_3_alg».proof.Proof.KernelShares

/-!
The launch of the one pallas_call and the host lines after it, for ANY proof data of the pipeline whose two
pairs of input windows hold the halves of the scores and of the relevances: every weakly fair execution of @main
terminates; the arrays end at what the library computes from the proof data (the two arguments unchanged), and every
other buffer at what the host lines compute from the output array.
-/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the launch contents (no host line precedes the region). -/
abbrev V0 (c : Dev nD) : Valuation τ sig (Elt F) := StableHlo.after (List.flatten []) (fun b => m (c, b))

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; rfl

/-- @main is the region continued by the two stretches of host lines. -/
theorem hmain (𝒱₀ : Variants) : Pipeline.HMainK (Ix := Unit) (Name := ℕ) (U := UR sig nD τ) (Lvl := ℕ) cfgs 0 defs₀ 𝒱₀ m (main (F := F))
      (fun c b => V0 m c (Proc.devRef .tc b)) (fun _ => Pipeline.chain ([hostOps1, hostOps1_1].map StableHlo.seq)) :=
  Pipeline.hmain_around cfgs 0 defs₀ 𝒱₀ m main [] [hostOps1, hostOps1_1] (by simp only [List.Forall])
    (by simp only [List.Forall]) main_chain

/-- The lines after the region touch TensorCore references only, -/
theorem sfx_sub : ∀ ops ∈ ([hostOps1, hostOps1_1] : List (List (HloOp τ sig (Elt F)))), ∀ op ∈ ops,
    op.bufs ⊆ StableHlo.tcRefs τ sig := by
  intro ops hops op hop
  simp only [List.mem_cons, List.mem_nil_iff, or_false] at hops
  rcases hops with rfl | rfl
  · exact (List.forall_iff_forall_mem.mp hostOps1_sub) op hop
  · exact (List.forall_iff_forall_mem.mp hostOps1_1_sub) op hop
/-- allocate nothing, -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
/-- and write no array of the pipeline (each writes its own result buffer). -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_1, List.mem_cons, List.mem_nil_iff, or_false] at hop
    rcases hop with rfl
    intro w; fin_cases w <;> simp only [StableHlo.ternary_writes, Finset.mem_singleton] <;> exact StableHlo.devRef_ne_of_ne (by decide)

section Run

variable (dats : (p : Fin 1) → (c : Dev nD) → Dat τ (Elt F) Unit ℕ (UR sig nD τ) ℕ (cfgs p) c)

open Classical in
/-- The contents at the region's exit: the output array at what the proof data's write-backs leave, every other buffer
    as at the entry. -/
def W1 (c : Dev nD) : Valuation τ sig (Elt F) :=
  Function.update (V0 m c) (Proc.devRef .tc main_v0) ((dats 0 c).arrAt 4 cfg0.N)

theorem W1_out (c : Dev nD) : W1 m dats c (Proc.devRef .tc main_v0) = (dats 0 c).arrAt 4 cfg0.N := by
  unfold W1; exact Function.update_self ..

theorem W1_ne (c : Dev nD) (b : Ref sig .tc) (hb : b ≠ main_v0) : W1 m dats c (Proc.devRef .tc b) = V0 m c (Proc.devRef .tc b) := by
  unfold W1; exact Function.update_of_ne (StableHlo.devRef_ne_of_ne hb) ..

-- the launch theorem's implicit arguments are found by unifying its conclusion with this one, which takes unfolding plain
-- definitions in a metavariable's type
set_option backward.isDefEq.respectTransparency.types false in
/-- THE RUN, for proof data dealing the two shared arrays in halves. -/
theorem run_of
    (hq0 : ∀ c, (dats 0 c).q 0 = fullShare.left) (hq1 : ∀ c, (dats 0 c).q 1 = fullShare.right)
    (hq2 : ∀ c, (dats 0 c).q 2 = fullShare.left) (hq3 : ∀ c, (dats 0 c).q 3 = fullShare.right)
    (hA : ∀ c w, (dats 0 c).A w = V0 m c (Proc.devRef .tc (Pipeline.arrRef spec0 w)))
    (hbody : ∀ c, BodyObligation (dats 0 c) (defs₀ (F := F)) Variants.none () Set.univ)
    (howed : ∀ c t, (dats 0 c).owed t = 0)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ Pipeline.restRefs sig spec0, r.2.mem ((c.tc : Thread nD τ).loc b)
          = StableHlo.after ([hostOps1, hostOps1_1] : List (List (HloOp τ sig (Elt F)))).flatten (W1 m dats c) (Proc.devRef .tc b)) :=
  Pipeline.θ_run_frame_around_track_shared cfgs dats (0 : Fin 1) defs₀ Variants.none cellOf_inj winFacts₀0 block_pos0 arr_whole0 stage_whole0
    m ρ main (fun c => (hbody c).loose) howed (V0 m) [hostOps1, hostOps1_1] sfx_sub sfx_fresh sfx_keeps (hmain m Variants.none)
    (fun c W G hG => deal c (dats 0 c) (hq0 c) (hq1 c) (hq2 c) (hq3 c) W G hG) hA (W1 m dats)
    (fun c w => by
      fin_cases w
      · exact (((dats 0 c).arrAt_in 0 rfl _).trans (hA c 0)).trans (W1_ne m dats c main_arg0 (by decide)).symm
      · exact (((dats 0 c).arrAt_in 1 rfl _).trans (hA c 1)).trans (W1_ne m dats c main_arg0 (by decide)).symm
      · exact (((dats 0 c).arrAt_in 2 rfl _).trans (hA c 2)).trans (W1_ne m dats c main_arg1 (by decide)).symm
      · exact (((dats 0 c).arrAt_in 3 rfl _).trans (hA c 3)).trans (W1_ne m dats c main_arg1 (by decide)).symm
      · exact (W1_out m dats c).symm)
    (fun c b hb => W1_ne m dats c b (fun e => by
      subst e
      exact (Finset.mem_sdiff.mp hb).2 (Finset.mem_image.mpr ⟨4, Finset.mem_univ _, rfl⟩)))
    hin hout

end Run

end Cert.KernelIdeal.Hand

end
-- ==== Proof.KernelIdealFrame.Frame.lean ====
/-
  The frame of the whole program: every weakly fair execution of @main terminates, and the scores and the
  relevances end as they began. From the launch for proof data that deals each shared array between its two
  windows in halves, at this kernel's proof data and body obligation: an input window's array ends at what it
  held at entry, window 0's array is the scores and window 2's the relevances.
-/
import proofs.«409428_j40355512713957_3_alg».proof.Proof.KernelIdealFrame.Body
import proofs.«409428_j40355512713957_3_alg».proof.Proof.KernelLaunch

-- membership in a literal rectangle recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (ρ : Dev nD → PrngReg)

/-- The run: the pipeline's arrays end at what the library computes from the proof data, every other unscoped
    buffer at what the host lines after the region compute from the output array. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after ([hostOps1, hostOps1_1] : List (List (HloOp τ sig (Elt F)))).flatten (W1 m (dats m) c) (Proc.devRef .tc b)) :=
  run_of m ρ (dats m) (fun _ => rfl) (fun _ => rfl) (fun _ => rfl) (fun _ => rfl) (fun c w => A_eq m c w)
    (body_obligation m) (fun _ _ => rfl) (hin m) (hout m)

/-- THE FRAME: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans (A_eq m c 0)),
     ((h c).1 2).trans (((dats m 0 c).arrAt_in 2 rfl _).trans (A_eq m c 2))⟩) (run_main m ρ)

end Cert.KernelIdeal.Hand

end
-- ==== Proof.Spec.lean ====
import Idealize.ShloMosaic.PureOps.Ideal
import Idealize.ShloMosaic.Lib.ValueIdx

/-!
The pairwise ranking loss, as mathematics on the extended reals.

For scores `s : Fin 128 → Fin 1024 → EReal` and integer relevances `r`, a pair `(i, j)` of one row `b`
counts when `r b i = 1` (a positive) and `r b j = 0` (a negative); its loss is the softplus of
`(-1) · (s b i - s b j)`. The result is the mean loss over the counted pairs, and `0` when there is none.

Two arrangements of the same sums are stated: the plain triple sum over `(b, i, j)`, and the tiled one — rows
in 8 groups of 16, columns in 4 tiles of 256 on each side, the positive mask applied after the inner sum and
the pair count taken as a product of two row counts.
-/

noncomputable section

open scoped BigOperators

namespace Cert.PairLoss

open Idealize.ShloMosaic

/-- The scale of the margin, the float word of `-1` read as an extended real (never evaluated: both sides carry the same word). -/
abbrev negOne : EReal := Ideal.ofBits .f32 0xBF800000#32

/-- The margin of a pair: `(-1) · (sᵢ - sⱼ)`. -/
def margin (si sj : EReal) : EReal := negOne * (si - sj)

/-- Softplus in its stable form: `max x 0 + log (1 + exp (-|x|))`, with `|x| = max x (-x)`. -/
def softplus (x : EReal) : EReal := max x 0 + Ideal.log1p (Ideal.exp (-(max x (-x))))

/-- The loss of a pair of scores. -/
def pairLoss (si sj : EReal) : EReal := softplus (margin si sj)

/-- `1` on a positive (relevance word `1`), else `0`. -/
def posf (r : BitVec 32) : EReal := if r = 1#32 then 1 else 0
/-- `1` on a negative (relevance word `0`), else `0`. -/
def negf (r : BitVec 32) : EReal := if r = 0#32 then 1 else 0

/-! ## The plain arrangement -/

/-- The summed loss over every counted pair. -/
def lossTotal (s : Fin 128 → Fin 1024 → EReal) (r : Fin 128 → Fin 1024 → BitVec 32) : EReal :=
  ∑ b : Fin 128, ∑ i : Fin 1024, ∑ j : Fin 1024,
    if r b i = 1#32 ∧ r b j = 0#32 then pairLoss (s b i) (s b j) else 0

/-- The number of counted pairs. -/
def pairCount (r : Fin 128 → Fin 1024 → BitVec 32) : ℕ :=
  ∑ b : Fin 128, ∑ i : Fin 1024, ∑ j : Fin 1024, if r b i = 1#32 ∧ r b j = 0#32 then 1 else 0

/-- The mean loss over the counted pairs; `0` when no pair counts. -/
def result (s : Fin 128 → Fin 1024 → EReal) (r : Fin 128 → Fin 1024 → BitVec 32) : EReal :=
  if 0 < pairCount r then Ideal.div (lossTotal s r) (((max (pairCount r) 1 : ℕ) : ℝ) : EReal) else 0

/-! ## The tiled arrangement -/

/-- Rows `16·g … 16·g + 15` and columns `256·k … 256·k + 255` of an array of 128 × 1024. -/
def tile {α : Type} (x : Fin 128 → Fin 1024 → α) (g : Fin 8) (k : Fin 4) : Fin 16 → Fin 256 → α :=
  fun m a => x ⟨16 * g.val + m.val, by omega⟩ ⟨256 * k.val + a.val, by omega⟩

/-- One tile pair's loss: per row, per left column the masked inner sum over the right columns, times the left mask. -/
def blockLoss (si sj : Fin 16 → Fin 256 → EReal) (pm nm : Fin 16 → Fin 256 → EReal) : EReal :=
  ∑ m : Fin 16, ∑ a : Fin 256, (∑ c : Fin 256, pairLoss (si m a) (sj m c) * nm m c) * pm m a

/-- One tile pair's count: per row, positives on the left times negatives on the right. -/
def blockCount (pm nm : Fin 16 → Fin 256 → EReal) : EReal :=
  ∑ m : Fin 16, (∑ a : Fin 256, pm m a) * (∑ c : Fin 256, nm m c)

/-- The loss of tile pair `(k, l)` of row group `g`. -/
def tileLoss (s : Fin 128 → Fin 1024 → EReal) (r : Fin 128 → Fin 1024 → BitVec 32) (g : Fin 8) (k l : Fin 4) : EReal :=
  blockLoss (tile s g k) (tile s g l) (fun m a => posf (tile r g k m a)) (fun m c => negf (tile r g l m c))

/-- The count of tile pair `(k, l)` of row group `g`. -/
def tileCount (r : Fin 128 → Fin 1024 → BitVec 32) (g : Fin 8) (k l : Fin 4) : EReal :=
  blockCount (fun m a => posf (tile r g k m a)) (fun m c => negf (tile r g l m c))

/-- Row group `g`'s accumulated loss over its 16 tile pairs. -/
def groupLoss (s : Fin 128 → Fin 1024 → EReal) (r : Fin 128 → Fin 1024 → BitVec 32) (g : Fin 8) : EReal :=
  ∑ k : Fin 4, ∑ l : Fin 4, tileLoss s r g k l

/-- Row group `g`'s accumulated count. -/
def groupCount (r : Fin 128 → Fin 1024 → BitVec 32) (g : Fin 8) : EReal :=
  ∑ k : Fin 4, ∑ l : Fin 4, tileCount r g k l

/-- The tiled total loss and count, -/
def tiledLoss (s : Fin 128 → Fin 1024 → EReal) (r : Fin 128 → Fin 1024 → BitVec 32) : EReal := ∑ g : Fin 8, groupLoss s r g
def tiledCount (r : Fin 128 → Fin 1024 → BitVec 32) : EReal := ∑ g : Fin 8, groupCount r g

/-- and the tiled result: the quotient by `max count 1` where the count is positive, else `0`. -/
def tiledResult (s : Fin 128 → Fin 1024 → EReal) (r : Fin 128 → Fin 1024 → BitVec 32) : EReal :=
  if 0 < tiledCount r then Ideal.div (tiledLoss s r) (max (tiledCount r) 1) else 0

end Cert.PairLoss

end
-- ==== Proof.KernelTail.lean ====
import proofs.«409428_j40355512713957_3_alg».proof.Proof.KernelLaunch
import proofs.«409428_j40355512713957_3_alg».proof.Proof.Spec
import Idealize.ShloMosaic.Lib.Pipeline.Value
import Idealize.ShloMosaic.Lib.IdealHost
import Idealize.ShloMosaic.PureOps.Ideal.Laws

/-!
The host lines after the region, as one function of the output array `o : [8, 1, 128]`: column 0 summed over the 8
row groups is the loss, column 1 the pair count, and the result is `loss / max count 1` where the count is positive,
else `0`.
-/

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)
open Idealize.ShloMosaic.ValueIdx
open scoped BigOperators

section AnyInstance

variable {F : FTy → Type} [FloatOps F]

/-- Column 0 of the output, summed over the row groups. -/
def lossCol (o : FVec F S8x1x128 .f32) : FVec F S_ .f32 :=
  Host.reduceAdd (shapeCast S8 (extractStridedSlice S8x1 ![0, 0] (shapeCast S8x128 o shapeCasts_S8x1x128_S8x128) slices_S8x128_S8x1_0_0) shapeCasts_S8x1_S8)
    (constant S_ .f32 0x00000000#32) reducesTo_S8_S_d0 h_S_

/-- Column 1 of the output, summed over the row groups. -/
def countCol (o : FVec F S8x1x128 .f32) : FVec F S_ .f32 :=
  Host.reduceAdd (shapeCast S8 (extractStridedSlice S8x1 ![0, 1] (shapeCast S8x128 o shapeCasts_S8x1x128_S8x128) slices_S8x128_S8x1_0_1) shapeCasts_S8x1_S8)
    (constant S_ .f32 0x00000000#32) reducesTo_S8_S_d0 h_S_

/-- The host lines' result from the output array. -/
def tailFn (o : FVec F S8x1x128 .f32) : FVec F S_ .f32 :=
  select (cmpf .ogt (countCol o) (constant S_ .f32 0x00000000#32))
    (Host.divf (lossCol o) (maximumf (countCol o) (constant S_ .f32 0x3F800000#32)))
    (constant S_ .f32 0x00000000#32)

variable (m : (ℓ : Loc nD τ sig) → Buf (Elt F) ℓ)
variable (dats : (p : Fin 1) → (c : Dev nD) → Dat τ (Elt F) Unit ℕ (UR sig nD τ) ℕ (cfgs p) c)

/-- What the result buffer holds after the host lines, from the exit contents. -/
theorem tail_after (c : Dev nD) :
    StableHlo.after ([hostOps1, hostOps1_1] : List (List (HloOp τ sig (Elt F)))).flatten (W1 m dats c) (Proc.devRef .tc main_v11)
      = tailFn (F := F) ((dats 0 c).arrAt 4 cfg0.N) := by
  simp only [hostOps1, hostOps1_1, List.flatten_cons, List.flatten_nil, List.append_nil, List.cons_append, List.nil_append]
  after_results
  rw [W1_out]
  rfl

end AnyInstance

/-! ## At the extended reals -/

/-- A sum over the one-axis index set of extent 8 is the sum over its coordinate. -/
theorem sum_idx8 {M : Type*} [AddCommMonoid M] (f : S8.Idx → M) : ∑ i, f i = ∑ g : Fin 8, f (ix1 g) := by
  refine Fintype.sum_equiv ⟨fun i => i 0, fun g => ix1 g, fun i => (eq_ix1 i).symm, fun _ => rfl⟩ _ _ fun i => ?_
  exact congrArg f (eq_ix1 i)

/-- Column `l` of the output read at row group `g`, through the reshape, the slice and the reshape. -/
theorem col0_apply (o : FVec Ideal S8x1x128 .f32) (g : Fin 8) :
    shapeCast S8 (extractStridedSlice S8x1 ![0, 0] (shapeCast S8x128 o shapeCasts_S8x1x128_S8x128) slices_S8x128_S8x1_0_0) shapeCasts_S8x1_S8 (ix1 g)
      = o (ix3 g (0 : Fin 1) (0 : Fin 128)) := by
  rw [shapeCast_apply _ shapeCasts_S8x1_S8 (ix1 g) (ix2 g (0 : Fin 1)) (by rw [Shape.rowMajor_val_two, Shape.rowMajor_val_one]; simp),
    extractStridedSlice_apply ![0, 0] _ slices_S8x128_S8x1_0_0 (ix2 g (0 : Fin 1)) (ix2 g (0 : Fin 128)) (fun a => by
      match a with
      | ⟨0, _⟩ => simp
      | ⟨1, _⟩ => simp),
    shapeCast_apply _ shapeCasts_S8x1x128_S8x128 (ix2 g (0 : Fin 128)) (ix3 g (0 : Fin 1) (0 : Fin 128)) (by rw [Shape.rowMajor_val_three, Shape.rowMajor_val_two]; simp)]

theorem col1_apply (o : FVec Ideal S8x1x128 .f32) (g : Fin 8) :
    shapeCast S8 (extractStridedSlice S8x1 ![0, 1] (shapeCast S8x128 o shapeCasts_S8x1x128_S8x128) slices_S8x128_S8x1_0_1) shapeCasts_S8x1_S8 (ix1 g)
      = o (ix3 g (0 : Fin 1) (1 : Fin 128)) := by
  rw [shapeCast_apply _ shapeCasts_S8x1_S8 (ix1 g) (ix2 g (0 : Fin 1)) (by rw [Shape.rowMajor_val_two, Shape.rowMajor_val_one]; simp),
    extractStridedSlice_apply ![0, 1] _ slices_S8x128_S8x1_0_1 (ix2 g (0 : Fin 1)) (ix2 g (1 : Fin 128)) (fun a => by
      match a with
      | ⟨0, _⟩ => simp
      | ⟨1, _⟩ => simp),
    shapeCast_apply _ shapeCasts_S8x1x128_S8x128 (ix2 g (1 : Fin 128)) (ix3 g (0 : Fin 1) (1 : Fin 128)) (by rw [Shape.rowMajor_val_three, Shape.rowMajor_val_two]; simp)]

theorem lossCol_apply (o : FVec Ideal S8x1x128 .f32) (i : S_.Idx) :
    lossCol (F := Ideal) o i = ∑ g : Fin 8, o (ix3 g (0 : Fin 1) (0 : Fin 128)) := by
  unfold lossCol
  simp only [Host.reduceAdd, Ideal.hostReduceAdd_def]
  rw [Ideal.hostReduceAdd_total reducesTo_S8_S_d0 (fun b => b.elim0), sum_idx8]
  simp only [col0_apply, constant_apply, Ideal.ofBits_zero_f32, zero_add]

theorem countCol_apply (o : FVec Ideal S8x1x128 .f32) (i : S_.Idx) :
    countCol (F := Ideal) o i = ∑ g : Fin 8, o (ix3 g (0 : Fin 1) (1 : Fin 128)) := by
  unfold countCol
  simp only [Host.reduceAdd, Ideal.hostReduceAdd_def]
  rw [Ideal.hostReduceAdd_total reducesTo_S8_S_d0 (fun b => b.elim0), sum_idx8]
  simp only [col1_apply, constant_apply, Ideal.ofBits_zero_f32, zero_add]

/-- THE HOST LINES at the extended reals, for an output whose row `g` holds `[groupLoss g, groupCount g, …]`. -/
theorem tailFn_tiled (s : Fin 128 → Fin 1024 → EReal) (r : Fin 128 → Fin 1024 → BitVec 32) (o : FVec Ideal S8x1x128 .f32)
    (h0 : ∀ g : Fin 8, o (ix3 g (0 : Fin 1) (0 : Fin 128)) = Cert.PairLoss.groupLoss s r g)
    (h1 : ∀ g : Fin 8, o (ix3 g (0 : Fin 1) (1 : Fin 128)) = Cert.PairLoss.groupCount r g) :
    tailFn (F := Ideal) o = fun _ => Cert.PairLoss.tiledResult s r := by
  funext i
  unfold tailFn
  rw [select_apply, cmpf_apply, Host.divf, maximumf_apply]
  simp only [lossCol_apply, countCol_apply, h0, h1, constant_apply, Ideal.ofBits_zero_f32, Ideal.ofBits_one_f32]
  show Scalar.select (Ideal.cmp .ogt (Cert.PairLoss.tiledCount r) 0) (Ideal.div (Cert.PairLoss.tiledLoss s r) (max (Cert.PairLoss.tiledCount r) 1)) 0 = _
  unfold Cert.PairLoss.tiledResult Ideal.cmp
  by_cases hc : 0 < Cert.PairLoss.tiledCount r
  · simp [hc, Scalar.select]
  · simp [hc, Scalar.select]

end Cert.KernelIdeal.Hand

end
-- ==== Proof.KernelValuePieces.lean ====
import proofs.«409428_j40355512713957_3_alg».proof.Proof.KernelIdealFrame.Outs
import Idealize.ShloMosaic.Lib.Pipeline.Value
import Idealize.ShloMosaic.Lib.Tactic

/-!
What each run of the body leaves, as the body's arithmetic of what it loaded.

Each accumulator ends a run with its last store, whose value is the update of what the accumulator held: the
zero of the reset at a row group's first tile pair, what the position before left otherwise. At a row group's
last tile pair the output row is stored from the two accumulators as the run has just updated them.
-/

set_option maxRecDepth 16384

noncomputable section

open scoped BigOperators

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A row group's first tile pair: reset, then update -/

theorem sout_A_0 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S16x256 .f32) (x1 : Vec F S16x256 .f32) (x2 : Vec F S16x256 .i32) (x3 : Vec F S16x256 .i32) :
    sout0_A_0 c i arg3 harg3 arg4 harg4 arg5 harg5 arg6 harg6 arg7 harg7 arg8 harg8 arg9 harg9 hc0 hc1 x0 x1 x2 x3
      = k0_pay1 (k0_pay6 x2) (k0_pay7 x3) (k0_pay9 x0 x1) (Scalar.ofBits .f32 0x00000000#32) (k0_pay10 x0 x1) (k0_pay4 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1) hz2]
  simp only [View.readAt_eq_ld, harg3.read_unread, harg4.read_unread, harg5.read_unread, harg6.read_unread, harg8.read_unread, harg9.read_unread, View.ld_unit_zero (S := S16x256) hz2, View.ld_unit_zero (S := S1x1) hz2, View.readCov_unit_zero (S := S1x1) _ hz2]

theorem sout_A_1 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S16x256 .f32) (x1 : Vec F S16x256 .f32) (x2 : Vec F S16x256 .i32) (x3 : Vec F S16x256 .i32) :
    sout0_A_1 c i arg3 harg3 arg4 harg4 arg5 harg5 arg6 harg6 arg7 harg7 arg8 harg8 arg9 harg9 hc0 hc1 x0 x1 x2 x3
      = k0_pay2 (k0_pay8 x2 x3) (k0_pay5 (F := F)) := by
  unfold sout0_A_1
  rw [View.read_writes_eq_canon _ _ _ (scover0_A_1 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1) hz2]
  simp only [View.readAt_eq_ld, harg3.read_unread, harg4.read_unread, harg5.read_unread, harg6.read_unread, harg8.read_unread, harg9.read_unread, View.ld_unit_zero (S := S16x256) hz2, View.ld_unit_zero (S := S1x1) hz2, View.readCov_unit_zero (S := S1x1) _ hz2]

/-! ## A middle tile pair: update -/

theorem sout_B_0 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S16x256 .f32) (x1 : Vec F S16x256 .f32) (x2 : Vec F S16x256 .i32) (x3 : Vec F S16x256 .i32) (xs0 : Vec F S1x1 .f32) (xs1 : Vec F S1x1 .f32) :
    sout0_B_0 c i arg3 harg3 arg4 harg4 arg5 harg5 arg6 harg6 arg7 harg7 arg8 harg8 arg9 harg9 hc0 hc1 x0 x1 x2 x3 xs0 xs1
      = k0_pay1 (k0_pay6 x2) (k0_pay7 x3) (k0_pay9 x0 x1) (Scalar.ofBits .f32 0x00000000#32) (k0_pay10 x0 x1) xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz2]
  simp only [View.readAt_eq_ld, harg3.read_unread, harg4.read_unread, harg5.read_unread, harg6.read_unread, harg8.read_unread, harg9.read_unread, View.ld_unit_zero (S := S16x256) hz2, View.ld_unit_zero (S := S1x1) hz2, View.readCov_unit_zero (S := S1x1) _ hz2]

theorem sout_B_1 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S16x256 .f32) (x1 : Vec F S16x256 .f32) (x2 : Vec F S16x256 .i32) (x3 : Vec F S16x256 .i32) (xs0 : Vec F S1x1 .f32) (xs1 : Vec F S1x1 .f32) :
    sout0_B_1 c i arg3 harg3 arg4 harg4 arg5 harg5 arg6 harg6 arg7 harg7 arg8 harg8 arg9 harg9 hc0 hc1 x0 x1 x2 x3 xs0 xs1
      = k0_pay2 (k0_pay8 x2 x3) xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz2]
  simp only [View.readAt_eq_ld, harg3.read_unread, harg4.read_unread, harg5.read_unread, harg6.read_unread, harg8.read_unread, harg9.read_unread, View.ld_unit_zero (S := S16x256) hz2, View.ld_unit_zero (S := S1x1) hz2, View.readCov_unit_zero (S := S1x1) _ hz2]

/-! ## A row group's last tile pair: update, then the output row -/

theorem sout_C_0 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S16x256 .f32) (x1 : Vec F S16x256 .f32) (x2 : Vec F S16x256 .i32) (x3 : Vec F S16x256 .i32) (xs0 : Vec F S1x1 .f32) (xs1 : Vec F S1x1 .f32) :
    sout0_C_0 c i arg3 harg3 arg4 harg4 arg5 harg5 arg6 harg6 arg7 harg7 arg8 harg8 arg9 harg9 hc0 hc1 x0 x1 x2 x3 xs0 xs1
      = k0_pay1 (k0_pay6 x2) (k0_pay7 x3) (k0_pay9 x0 x1) (Scalar.ofBits .f32 0x00000000#32) (k0_pay10 x0 x1) xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz2]
  simp only [View.readAt_eq_ld, harg3.read_unread, harg4.read_unread, harg5.read_unread, harg6.read_unread, harg8.read_unread, harg9.read_unread, View.ld_unit_zero (S := S16x256) hz2, View.ld_unit_zero (S := S1x1) hz2, View.readCov_unit_zero (S := S1x1) _ hz2]

theorem sout_C_1 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S16x256 .f32) (x1 : Vec F S16x256 .f32) (x2 : Vec F S16x256 .i32) (x3 : Vec F S16x256 .i32) (xs0 : Vec F S1x1 .f32) (xs1 : Vec F S1x1 .f32) :
    sout0_C_1 c i arg3 harg3 arg4 harg4 arg5 harg5 arg6 harg6 arg7 harg7 arg8 harg8 arg9 harg9 hc0 hc1 x0 x1 x2 x3 xs0 xs1
      = k0_pay2 (k0_pay8 x2 x3) xs1 := by
  unfold sout0_C_1
  rw [View.read_writes_eq_canon _ _ _ (scover0_C_1 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz2]
  simp only [View.readAt_eq_ld, harg3.read_unread, harg4.read_unread, harg5.read_unread, harg6.read_unread, harg8.read_unread, harg9.read_unread, View.ld_unit_zero (S := S16x256) hz2, View.ld_unit_zero (S := S1x1) hz2, View.readCov_unit_zero (S := S1x1) _ hz2]

theorem out_C_4 (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .i32) (harg5 : arg5.IsWhole) (arg6 : Memref sig .tc .vmem S16x256 .i32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S16x256 .f32) (x1 : Vec F S16x256 .f32) (x2 : Vec F S16x256 .i32) (x3 : Vec F S16x256 .i32) (xs0 : Vec F S1x1 .f32) (xs1 : Vec F S1x1 .f32) :
    out0_C_4 c i arg3 harg3 arg4 harg4 arg5 harg5 arg6 harg6 arg7 harg7 arg8 harg8 arg9 harg9 hc0 hc1 x0 x1 x2 x3 xs0 xs1
      = k0_pay3 (k0_pay1 (k0_pay6 x2) (k0_pay7 x3) (k0_pay9 x0 x1) (Scalar.ofBits .f32 0x00000000#32) (k0_pay10 x0 x1) xs0) (k0_pay2 (k0_pay8 x2 x3) xs1) := by
  unfold out0_C_4
  rw [View.read_writes_eq_canon _ _ _ (cover0_C_4 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz3]
  simp only [View.readAt_eq_ld, harg3.read_unread, harg4.read_unread, harg5.read_unread, harg6.read_unread, harg8.read_unread, harg9.read_unread, View.ld_unit_zero (S := S16x256) hz2, View.ld_unit_zero (S := S1x1) hz2, View.readCov_unit_zero (S := S1x1) _ hz2]

end Cert.KernelIdeal.Hand

end
-- ==== Proof.KernelValueBlocks.lean ====
import proofs.«409428_j40355512713957_3_alg».proof.Proof.KernelValuePieces
import proofs.«409428_j40355512713957_3_alg».proof.Proof.Spec
import Idealize.ShloMosaic.Lib.ValueIdx

/-!
The windows' blocks as tiles of the argument arrays.

The grid 8 × 4 × 4 is walked in row-major order: position `t` has row group `t / 16`, left column tile
`t / 4 % 4` and right column tile `t % 4`. The two score windows read one array, the left by (row group, left
tile) and the right by (row group, right tile); the two relevance windows likewise. A block's entry `(m, a)` is
the array's entry `(16 · group + m, 256 · tile + a)`.
-/

set_option maxRecDepth 16384

noncomputable section

open scoped BigOperators

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.PairLoss Idealize.ShloMosaic.ValueIdx

variable (m : (ℓ : Loc nD τ sig) → Buf (Elt F) ℓ)

/-- The row group, the left column tile and the right column tile of grid position `n`. -/
def grpN (n : ℕ) : Fin 8 := ⟨n / 16 % 8, Nat.mod_lt _ (by decide)⟩
def ltileN (n : ℕ) : Fin 4 := ⟨n / 4 % 4, Nat.mod_lt _ (by decide)⟩
def rtileN (n : ℕ) : Fin 4 := ⟨n % 4, Nat.mod_lt _ (by decide)⟩

/-- The four input blocks at a point and the two argument arrays, at their literal types. -/
abbrev lblk (c : Dev nD) (t : Fin cfg0.N) : Vec F S16x256 .f32 := iblk m c 0 t
abbrev rblk (c : Dev nD) (t : Fin cfg0.N) : Vec F S16x256 .f32 := iblk m c 1 t
abbrev lrel (c : Dev nD) (t : Fin cfg0.N) : Vec F S16x256 .i32 := iblk m c 2 t
abbrev rrel (c : Dev nD) (t : Fin cfg0.N) : Vec F S16x256 .i32 := iblk m c 3 t
abbrev scores (c : Dev nD) : Vec F S128x1024 .f32 := V m c main_arg0
abbrev rels (c : Dev nD) : Vec F S128x1024 .i32 := V m c main_arg1

/-- The printed index maps, decided over the grid's 128 points. -/
theorem idx_facts : ∀ t : Fin cfg0.N,
    win0_0.index t (0 : Fin 2) = t.val / 16 ∧ win0_0.index t (1 : Fin 2) = t.val / 4 % 4
    ∧ win0_1.index t (0 : Fin 2) = t.val / 16 ∧ win0_1.index t (1 : Fin 2) = t.val % 4
    ∧ win0_2.index t (0 : Fin 2) = t.val / 16 ∧ win0_2.index t (1 : Fin 2) = t.val / 4 % 4
    ∧ win0_3.index t (0 : Fin 2) = t.val / 16 ∧ win0_3.index t (1 : Fin 2) = t.val % 4
    ∧ win0_4.index t (0 : Fin 3) = t.val / 16 ∧ win0_4.index t (1 : Fin 3) = 0 ∧ win0_4.index t (2 : Fin 3) = 0 :=
  (by decide +kernel : ∀ t : Fin grid0.N, _)

/-- The left score block at a point is the tile of its row group and left column tile. -/
theorem lblk_apply (c : Dev nD) (t : Fin cfg0.N) (mm : Fin 16) (a : Fin 256) :
    lblk m c t (ix2 mm a) = tile (fun b i => scores m c (ix2 b i)) (grpN t.val) (ltileN t.val) mm a := by
  have hN : cfg0.N = 128 := N_0
  have ht := t.isLt
  obtain ⟨e00, e01, e10, e11, e20, e21, e30, e31, -⟩ := idx_facts t
  unfold lblk iblk
  rw [View.read_apply]
  show V m c main_arg0 _ = V m c main_arg0 _
  refine congrArg (V m c main_arg0) (funext fun ax => Fin.ext ?_)
  match ax with
  | ⟨0, _⟩ =>
    show win0_0.index t (0 : Fin 2) * 16 + 1 * mm.val = 16 * (t.val / 16 % 8) + mm.val
    rw [e00]; omega
  | ⟨1, _⟩ =>
    show win0_0.index t (1 : Fin 2) * 256 + 1 * a.val = 256 * (t.val / 4 % 4) + a.val
    rw [e01]; omega

/-- The right score block at a point is the tile of its row group and right column tile. -/
theorem rblk_apply (c : Dev nD) (t : Fin cfg0.N) (mm : Fin 16) (a : Fin 256) :
    rblk m c t (ix2 mm a) = tile (fun b i => scores m c (ix2 b i)) (grpN t.val) (rtileN t.val) mm a := by
  have hN : cfg0.N = 128 := N_0
  have ht := t.isLt
  obtain ⟨e00, e01, e10, e11, e20, e21, e30, e31, -⟩ := idx_facts t
  unfold rblk iblk
  rw [View.read_apply]
  show V m c main_arg0 _ = V m c main_arg0 _
  refine congrArg (V m c main_arg0) (funext fun ax => Fin.ext ?_)
  match ax with
  | ⟨0, _⟩ =>
    show win0_1.index t (0 : Fin 2) * 16 + 1 * mm.val = 16 * (t.val / 16 % 8) + mm.val
    rw [e10]; omega
  | ⟨1, _⟩ =>
    show win0_1.index t (1 : Fin 2) * 256 + 1 * a.val = 256 * (t.val % 4) + a.val
    rw [e11]; omega

/-- The left relevance block at a point is the tile of its row group and left column tile. -/
theorem lrel_apply (c : Dev nD) (t : Fin cfg0.N) (mm : Fin 16) (a : Fin 256) :
    lrel m c t (ix2 mm a) = tile (fun b i => rels m c (ix2 b i)) (grpN t.val) (ltileN t.val) mm a := by
  have hN : cfg0.N = 128 := N_0
  have ht := t.isLt
  obtain ⟨e00, e01, e10, e11, e20, e21, e30, e31, -⟩ := idx_facts t
  unfold lrel iblk
  rw [View.read_apply]
  show V m c main_arg1 _ = V m c main_arg1 _
  refine congrArg (V m c main_arg1) (funext fun ax => Fin.ext ?_)
  match ax with
  | ⟨0, _⟩ =>
    show win0_2.index t (0 : Fin 2) * 16 + 1 * mm.val = 16 * (t.val / 16 % 8) + mm.val
    rw [e20]; omega
  | ⟨1, _⟩ =>
    show win0_2.index t (1 : Fin 2) * 256 + 1 * a.val = 256 * (t.val / 4 % 4) + a.val
    rw [e21]; omega

/-- The right relevance block at a point is the tile of its row group and right column tile. -/
theorem rrel_apply (c : Dev nD) (t : Fin cfg0.N) (mm : Fin 16) (a : Fin 256) :
    rrel m c t (ix2 mm a) = tile (fun b i => rels m c (ix2 b i)) (grpN t.val) (rtileN t.val) mm a := by
  have hN : cfg0.N = 128 := N_0
  have ht := t.isLt
  obtain ⟨e00, e01, e10, e11, e20, e21, e30, e31, -⟩ := idx_facts t
  unfold rrel iblk
  rw [View.read_apply]
  show V m c main_arg1 _ = V m c main_arg1 _
  refine congrArg (V m c main_arg1) (funext fun ax => Fin.ext ?_)
  match ax with
  | ⟨0, _⟩ =>
    show win0_3.index t (0 : Fin 2) * 16 + 1 * mm.val = 16 * (t.val / 16 % 8) + mm.val
    rw [e30]; omega
  | ⟨1, _⟩ =>
    show win0_3.index t (1 : Fin 2) * 256 + 1 * a.val = 256 * (t.val % 4) + a.val
    rw [e31]; omega

end Cert.KernelIdeal.Hand

end
-- ==== Proof.PayloadMasks.lean ====
import proofs.«409428_j40355512713957_3_alg».proof.Proof.Gen.KernelIdeal.Skeleton
import proofs.«409428_j40355512713957_3_alg».proof.Proof.Spec
import Idealize.ShloMosaic.Lib.ValueIdx
import Idealize.ShloMosaic.Lib.ValueLayout
import Idealize.ShloMosaic.PureOps.Ideal.Laws

/-!
The body's masks, its two resets and its output row, read at an index on the extended reals.

A relevance word is turned into a float by comparing it with a literal, widening the one-bit answer to 32 bits
and converting that integer: the result is `1` where the comparison holds and `0` elsewhere. The output row
puts the accumulated sum in lane 0 and the accumulated count in lane 1 by multiplying each with such a lane mask
and adding: `x · 1 + y · 0 = x`, `x · 0 + y · 1 = y` and `x · 0 + y · 0 = 0` hold for every extended real.
-/

noncomputable section

open scoped BigOperators

namespace Cert.KernelIdeal.PayloadValue

open Cert.KernelIdeal Cert.KernelIdeal.Gen Cert.PairLoss Idealize.ShloMosaic Idealize.ShloMosaic.ValueIdx

/-- A one-bit comparison answer, widened and converted: `1` when the words are equal, else `0`. -/
theorem mask_word (x y : BitVec 32) :
    (FloatOps.sitofp (F := Ideal) .f32 ((IntOp.cmpi .eq x y).setWidth 32) : EReal) = if x = y then 1 else 0 := by
  show (((((BitVec.ofBool (x == y)).setWidth 32).toInt : ℤ) : ℝ) : EReal) = _
  by_cases h : x = y
  · rw [if_pos h, show (x == y) = true from by simpa using h,
      show ((BitVec.ofBool true).setWidth 32).toInt = 1 from by decide]
    simp
  · rw [if_neg h, show (x == y) = false from by simpa using h,
      show ((BitVec.ofBool false).setWidth 32).toInt = 0 from by decide]
    simp

/-- The positive mask at an index. -/
theorem pay6_apply (v10 : Vec Ideal S16x256 .i32) (m : Fin 16) (a : Fin 256) :
    k0_pay6 (F := Ideal) v10 (ix2 m a) = posf (v10 (ix2 m a)) := by
  unfold k0_pay6 posf
  exact mask_word _ _

/-- The negative mask at an index. -/
theorem pay7_apply (v11 : Vec Ideal S16x256 .i32) (m : Fin 16) (c : Fin 256) :
    k0_pay7 (F := Ideal) v11 (ix2 m c) = PairLoss.negf (v11 (ix2 m c)) := by
  unfold k0_pay7 PairLoss.negf
  exact mask_word _ _

/-- The reset of the scratch sum is the zero vector. -/
theorem pay4_eq : (k0_pay4 (F := Ideal)) = fun _ => (0 : EReal) := by
  funext y
  unfold k0_pay4
  exact Ideal.ofBits_zero_f32

/-- The reset of the scratch count is the zero vector. -/
theorem pay5_eq : (k0_pay5 (F := Ideal)) = fun _ => (0 : EReal) := by
  funext y
  unfold k0_pay5
  exact Ideal.ofBits_zero_f32

/-- A one-element vector, given a third unit axis and repeated along 128 lanes, reads its one element in every lane. -/
theorem lanes_of_one (x : Vec Ideal S1x1 .f32) (l : Fin 128) :
    broadcastTo S1x1x128 (shapeCast S1x1x1 x shapeCasts_S1x1_S1x1x1) broadcasts_S1x1x1_S1x1x128 (ix3 (0 : Fin 1) (0 : Fin 1) l)
      = x (ix2 (0 : Fin 1) (0 : Fin 1)) :=
  (broadcastTo_apply _ _ (ix3 (0 : Fin 1) (0 : Fin 1) l) (ix3 (0 : Fin 1) (0 : Fin 1) (0 : Fin 1)) fun ax => by
      match ax with
      | ⟨0, _⟩ => rfl
      | ⟨1, _⟩ => rfl
      | ⟨2, _⟩ => rfl).trans
    (shapeCast_apply x shapeCasts_S1x1_S1x1x1 (ix3 (0 : Fin 1) (0 : Fin 1) (0 : Fin 1)) (ix2 (0 : Fin 1) (0 : Fin 1)) (by
      rw [Shape.rowMajor_val_three, Shape.rowMajor_val_two]; rfl))

/-- The lane number as a 32-bit word equals a small literal exactly when the lane is that number. -/
theorem lane_word_eq (l : Fin 128) (n : Nat) (hn : n < 128) :
    BitVec.ofNat 32 (0 * 128 + l.val) = BitVec.ofNat 32 n ↔ l.val = n := by
  have hl := l.isLt
  constructor
  · intro h
    have := congrArg BitVec.toNat h
    simp only [BitVec.toNat_ofNat] at this
    omega
  · intro h; rw [h, Nat.zero_mul, Nat.zero_add]

/-- The output row: the accumulated sum in lane 0, the accumulated count in lane 1, zero in every other lane. -/
theorem pay3_apply (o1 o2 : Vec Ideal S1x1 .f32) (l : Fin 128) :
    k0_pay3 (F := Ideal) o1 o2 (ix3 (0 : Fin 1) (0 : Fin 1) l)
      = if l.val = 0 then o1 (ix2 (0 : Fin 1) (0 : Fin 1)) else if l.val = 1 then o2 (ix2 (0 : Fin 1) (0 : Fin 1)) else 0 := by
  unfold k0_pay3
  refine (congrArg₂ (· + ·)
    (congrArg₂ (· * ·) (lanes_of_one o1 l) (mask_word (BitVec.ofNat 32 (0 * 128 + l.val)) 0#32))
    (congrArg₂ (· * ·) (lanes_of_one o2 l) (mask_word (BitVec.ofNat 32 (0 * 128 + l.val)) 1#32))).trans ?_
  have h0 := lane_word_eq l 0 (by omega)
  have h1 := lane_word_eq l 1 (by omega)
  by_cases e0 : l.val = 0
  · rw [if_pos e0, if_pos (h0.mpr e0), if_neg (fun h => by have := h1.mp h; omega), mul_one, mul_zero, add_zero]
  · by_cases e1 : l.val = 1
    · rw [if_neg e0, if_pos e1, if_neg (fun h => e0 (h0.mp h)), if_pos (h1.mpr e1), mul_zero, mul_one, zero_add]
    · rw [if_neg e0, if_neg e1, if_neg (fun h => e0 (h0.mp h)), if_neg (fun h => e1 (h1.mp h)), mul_zero, mul_zero, add_zero]

end Cert.KernelIdeal.PayloadValue

end
-- ==== Proof.PayloadLayout.lean ====
import proofs.«409428_j40355512713957_3_alg».proof.Proof.Gen.KernelIdeal.Skeleton
import proofs.«409428_j40355512713957_3_alg».proof.Proof.Spec
import Idealize.ShloMosaic.Lib.ValueIdx
import Idealize.ShloMosaic.Lib.ValueLayout
import Idealize.ShloMosaic.PureOps.Ideal.Laws

/-!
The layout steps of the body's loss, read at an index.

A 16 × 256 tile is given a unit axis, last (the left scores, one per row and left column) or in the middle (the
right scores, one per row and right column), and repeated along that axis to 16 × 256 × 256: entry `(m, a, c)`
reads the left tile at `(m, a)`, or the right tile at `(m, c)`. The three sums run along the last axis, then
along the middle one, then down the rows; each is the plain sum over that axis's coordinates.
-/

noncomputable section

open scoped BigOperators

namespace Cert.KernelIdeal.PayloadValue

open Cert.KernelIdeal Cert.KernelIdeal.Gen Cert.PairLoss Idealize.ShloMosaic Idealize.ShloMosaic.ValueIdx

variable {α : Type}

/-- A 16 × 256 tile with a unit axis added last reads, at `(m, a, u)`, the tile at `(m, a)`. -/
theorem cast_unit_last (x : S16x256.Idx → α) (m : Fin 16) (a : Fin 256) (u : Fin 1) :
    shapeCast S16x256x1 x shapeCasts_S16x256_S16x256x1 (ix3 m a u) = x (ix2 m a) :=
  shapeCast_apply x shapeCasts_S16x256_S16x256x1 (ix3 m a u) (ix2 m a) (by
    have hu : u.val = 0 := by omega
    rw [Shape.rowMajor_val_two, Shape.rowMajor_val_three]
    show m.val * 256 + a.val = (m.val * 256 + a.val) * 1 + u.val
    rw [hu, Nat.mul_one, Nat.add_zero])

/-- A 16 × 256 tile with a unit axis added in the middle reads, at `(m, u, c)`, the tile at `(m, c)`. -/
theorem cast_unit_mid (x : S16x256.Idx → α) (m : Fin 16) (u : Fin 1) (c : Fin 256) :
    shapeCast S16x1x256 x shapeCasts_S16x256_S16x1x256 (ix3 m u c) = x (ix2 m c) :=
  shapeCast_apply x shapeCasts_S16x256_S16x1x256 (ix3 m u c) (ix2 m c) (by
    have hu : u.val = 0 := by omega
    rw [Shape.rowMajor_val_two, Shape.rowMajor_val_three]
    show m.val * 256 + c.val = (m.val * 1 + u.val) * 256 + c.val
    rw [hu, Nat.mul_one, Nat.add_zero])

/-- A column of 16 numbers with a further unit axis reads the same numbers. -/
theorem cast_column_unit (x : S16x1.Idx → α) (m : Fin 16) (u u' : Fin 1) :
    shapeCast S16x1x1 x shapeCasts_S16x1_S16x1x1 (ix3 m u u') = x (ix2 m u) :=
  shapeCast_apply x shapeCasts_S16x1_S16x1x1 (ix3 m u u') (ix2 m u) (by
    have hu : u'.val = 0 := by omega
    rw [Shape.rowMajor_val_two, Shape.rowMajor_val_three]
    show m.val * 1 + u.val = (m.val * 1 + u.val) * 1 + u'.val
    omega)

/-- Repeating along the last axis: entry `(m, a, c)` reads `(m, a, 0)`. -/
theorem spread_last (x : S16x256x1.Idx → α) (m : Fin 16) (a c : Fin 256) :
    broadcastTo S16x256x256 x broadcasts_S16x256x1_S16x256x256 (ix3 m a c) = x (ix3 m a (0 : Fin 1)) :=
  broadcastTo_apply x broadcasts_S16x256x1_S16x256x256 (ix3 m a c) (ix3 m a (0 : Fin 1)) fun ax => by
    match ax with
    | ⟨0, _⟩ => rfl
    | ⟨1, _⟩ => rfl
    | ⟨2, _⟩ => rfl

/-- Repeating along the middle axis: entry `(m, a, c)` reads `(m, 0, c)`. -/
theorem spread_mid (x : S16x1x256.Idx → α) (m : Fin 16) (a c : Fin 256) :
    broadcastTo S16x256x256 x broadcasts_S16x1x256_S16x256x256 (ix3 m a c) = x (ix3 m (0 : Fin 1) c) :=
  broadcastTo_apply x broadcasts_S16x1x256_S16x256x256 (ix3 m a c) (ix3 m (0 : Fin 1) c) fun ax => by
    match ax with
    | ⟨0, _⟩ => rfl
    | ⟨1, _⟩ => rfl
    | ⟨2, _⟩ => rfl

/-- The left tile spread over the right columns. -/
theorem left_spread (x : S16x256.Idx → α) (m : Fin 16) (a c : Fin 256) :
    broadcastTo S16x256x256 (shapeCast S16x256x1 x shapeCasts_S16x256_S16x256x1) broadcasts_S16x256x1_S16x256x256 (ix3 m a c)
      = x (ix2 m a) :=
  (spread_last _ m a c).trans (cast_unit_last x m a 0)

/-- The right tile spread over the left columns. -/
theorem right_spread (x : S16x256.Idx → α) (m : Fin 16) (a c : Fin 256) :
    broadcastTo S16x256x256 (shapeCast S16x1x256 x shapeCasts_S16x256_S16x1x256) broadcasts_S16x1x256_S16x256x256 (ix3 m a c)
      = x (ix2 m c) :=
  (spread_mid _ m a c).trans (cast_unit_mid x m 0 c)

/-- A sum along the last axis of a 16 × 256 × 256 vector, at `(m, a)`. -/
theorem sum_last (x : FVec Ideal S16x256x256 .f32) (hφ : FKind.Formats .f32)
    (hacc : (0x00000000#32 : BitVec 32) = FKind.add.neutral .f32 hφ) (m : Fin 16) (a : Fin 256) :
    multiReduction .add [2] S16x256 x 0x00000000#32 reduces_S16x256x256_S16x256 hφ hacc (ix2 m a)
      = ∑ c : Fin 256, x (ix3 m a c) :=
  (Ideal.multiReduction_add_single x _ reduces_S16x256x256_S16x256 hφ hacc (ix2 m a)).trans
    (Finset.sum_congr rfl fun c _ => congrArg x (funext fun d => match d with
      | ⟨0, _⟩ => Fin.ext rfl
      | ⟨1, _⟩ => Fin.ext rfl
      | ⟨2, _⟩ => Fin.ext rfl))

/-- A sum along the middle axis of a 16 × 256 × 1 vector, at `(m, u)`. -/
theorem sum_mid (x : FVec Ideal S16x256x1 .f32) (hφ : FKind.Formats .f32)
    (hacc : (0x00000000#32 : BitVec 32) = FKind.add.neutral .f32 hφ) (m : Fin 16) (u : Fin 1) :
    multiReduction .add [1] S16x1 x 0x00000000#32 reduces_S16x256x1_S16x1 hφ hacc (ix2 m u)
      = ∑ a : Fin 256, x (ix3 m a u) :=
  (Ideal.multiReduction_add_single x _ reduces_S16x256x1_S16x1 hφ hacc (ix2 m u)).trans
    (Finset.sum_congr rfl fun a _ => congrArg x (funext fun d => match d with
      | ⟨0, _⟩ => Fin.ext rfl
      | ⟨1, _⟩ => Fin.ext rfl
      | ⟨2, _⟩ => Fin.ext rfl))

/-- A sum down the rows of a 16 × 1 × 1 vector. -/
theorem sum_rows (x : FVec Ideal S16x1x1 .f32) (hφ : FKind.Formats .f32)
    (hacc : (0x00000000#32 : BitVec 32) = FKind.add.neutral .f32 hφ) (u u' : Fin 1) :
    multiReduction .add [0] S1x1 x 0x00000000#32 reduces_S16x1x1_S1x1 hφ hacc (ix2 u u')
      = ∑ m : Fin 16, x (ix3 m u u') :=
  (Ideal.multiReduction_add_single x _ reduces_S16x1x1_S1x1 hφ hacc (ix2 u u')).trans
    (Finset.sum_congr rfl fun m _ => congrArg x (funext fun d => match d with
      | ⟨0, _⟩ => Fin.ext rfl
      | ⟨1, _⟩ => Fin.ext rfl
      | ⟨2, _⟩ => Fin.ext rfl))

/-- A one-element matrix given a leading unit axis and cast back reads the same element. -/
theorem cast_there_and_back (x : S1x1.Idx → α) (p q : Fin 1) :
    shapeCast S1x1 (shapeCast S1x1x1 x shapeCasts_S1x1_S1x1x1) shapeCasts_S1x1x1_S1x1 (ix2 p q) = x (ix2 p q) :=
  (shapeCast_1ab_ab_apply _ shapeCasts_S1x1x1_S1x1 p q).trans (shapeCast_ab_1ab_apply x shapeCasts_S1x1_S1x1x1 0 p q)

end Cert.KernelIdeal.PayloadValue

end
-- ==== Proof.PayloadLoss.lean ====
import proofs.«409428_j40355512713957_3_alg».proof.Proof.PayloadMasks
import proofs.«409428_j40355512713957_3_alg».proof.Proof.PayloadLayout

/-!
The body's loss, read on the extended reals.

Entry `(m, a, c)` of the margin cube is `(-1) · (left score at (m, a) - right score at (m, c))`. The body's
softplus is guarded by a comparison of the margin with itself, which never holds on the extended reals, so the
guarded branch is never taken; what is left is `max x 0 + log (1 + exp (-|x|))` once `x - 0 = x` and
`0 - y = -y`. The cube is multiplied by the right mask, summed along the right columns, multiplied by the left
mask, summed along the left columns and then down the rows, and added to what the scratch held.
-/

noncomputable section

open scoped BigOperators

namespace Cert.KernelIdeal.PayloadValue

open Cert.KernelIdeal Cert.KernelIdeal.Gen Cert.PairLoss Idealize.ShloMosaic Idealize.ShloMosaic.ValueIdx

/-- One entry of the guarded softplus as the body spells it, from the margin `x` and its maximum with zero `mx`. -/
def guarded (x mx : EReal) : EReal :=
  Scalar.select (Ideal.cmp .one (x - Ideal.ofBits .f32 0x00000000#32) (x - Ideal.ofBits .f32 0x00000000#32))
    (x + Ideal.ofBits .f32 0x00000000#32)
    (mx + Ideal.log1p (Ideal.exp (Ideal.ofBits .f32 0x00000000#32
      - max (x - Ideal.ofBits .f32 0x00000000#32) (-(x - Ideal.ofBits .f32 0x00000000#32)))))

/-- The guard never holds, and the rest is the stable softplus. -/
theorem guarded_eq (x : EReal) : guarded x (max x 0) = softplus x := by
  unfold guarded softplus
  rw [Ideal.ofBits_zero_f32, sub_zero, add_zero, zero_sub]
  have hg : Ideal.cmp .one x x = 0#1 := by
    show BitVec.ofBool (decide (x ≠ x)) = 0#1
    rw [decide_eq_false (fun h => h rfl)]; rfl
  rw [hg, select_zero]

/-- The scratch sum after the body, for any masks, margin cube and maximum cube: what it held plus the threefold sum. -/
theorem pay1_generic (v15 v19 : FVec Ideal S16x256 .f32) (v33 v35 : FVec Ideal S16x256x256 .f32)
    (v60 : Vec Ideal S1x1 .f32) (p q : Fin 1) :
    k0_pay1 (F := Ideal) v15 v19 v33 (Scalar.ofBits .f32 0x00000000#32) v35 v60 (ix2 p q)
      = v60 (ix2 p q) + ∑ m : Fin 16, ∑ a : Fin 256,
          (∑ c : Fin 256, guarded (v33 (ix3 m a c)) (v35 (ix3 m a c)) * v19 (ix2 m c)) * v15 (ix2 m a) := by
  unfold k0_pay1
  refine (congrFun (shapeCast_self _ shapeCasts_S1x1_S1x1) (ix2 p q)).trans ?_
  refine congrArg (v60 (ix2 p q) + ·) ?_
  refine (cast_there_and_back _ p q).trans ?_
  refine (sum_rows _ _ _ p q).trans ?_
  refine Finset.sum_congr rfl fun m _ => ?_
  refine (cast_column_unit _ m p q).trans ?_
  refine (sum_mid _ _ _ m p).trans ?_
  refine Finset.sum_congr rfl fun a _ => ?_
  refine congrArg₂ (· * ·)
    ((cast_unit_last _ m a p).trans ((sum_last _ _ _ m a).trans (Finset.sum_congr rfl fun c _ => ?_)))
    (cast_unit_last v15 m a p)
  exact congrArg₂ (· * ·) rfl (right_spread v19 m a c)

/-- The margin cube at an entry. -/
theorem pay9_apply (v8 v9 : Vec Ideal S16x256 .f32) (m : Fin 16) (a c : Fin 256) :
    k0_pay9 (F := Ideal) v8 v9 (ix3 m a c) = margin (v8 (ix2 m a)) (v9 (ix2 m c)) := by
  unfold k0_pay9 margin
  exact congrArg (negOne * ·) (congrArg₂ (· - ·) (left_spread v8 m a c) (right_spread v9 m a c))

/-- The margin cube's maximum with zero at an entry. -/
theorem pay10_apply (v8 v9 : Vec Ideal S16x256 .f32) (m : Fin 16) (a c : Fin 256) :
    k0_pay10 (F := Ideal) v8 v9 (ix3 m a c) = max (margin (v8 (ix2 m a)) (v9 (ix2 m c))) 0 := by
  unfold k0_pay10
  show max (k0_pay9 (F := Ideal) v8 v9 (ix3 m a c)) (Ideal.ofBits .f32 0x00000000#32) = _
  rw [pay9_apply, Ideal.ofBits_zero_f32]

/-- The scratch sum after the body: what it held, plus the tile pair's loss. -/
theorem pay1_eq (v8 v9 : Vec Ideal S16x256 .f32) (v10 v11 : Vec Ideal S16x256 .i32) (old : Vec Ideal S1x1 .f32) :
    k0_pay1 (F := Ideal) (k0_pay6 v10) (k0_pay7 v11) (k0_pay9 v8 v9) (Scalar.ofBits .f32 0x00000000#32) (k0_pay10 v8 v9) old
      = fun y => old y + blockLoss (fun (m : Fin 16) (a : Fin 256) => v8 (ix2 m a)) (fun (m : Fin 16) (c : Fin 256) => v9 (ix2 m c))
          (fun (m : Fin 16) (a : Fin 256) => posf (v10 (ix2 m a)))
          (fun (m : Fin 16) (c : Fin 256) => PairLoss.negf (v11 (ix2 m c))) := by
  funext y
  obtain ⟨p, q, rfl⟩ : ∃ (p : Fin 1) (q : Fin 1), y = ix2 p q := ⟨y 0, y 1, eq_ix2 y⟩
  refine (pay1_generic (k0_pay6 v10) (k0_pay7 v11) (k0_pay9 v8 v9) (k0_pay10 v8 v9) old p q).trans ?_
  refine congrArg (old (ix2 p q) + ·) ?_
  unfold blockLoss
  refine Finset.sum_congr rfl fun m _ => Finset.sum_congr rfl fun a _ => ?_
  refine congrArg₂ (· * ·) (Finset.sum_congr rfl fun c _ => ?_) (pay6_apply v10 m a)
  refine congrArg₂ (· * ·) ?_ (pay7_apply v11 m c)
  rw [pay9_apply, pay10_apply]
  exact guarded_eq _

end Cert.KernelIdeal.PayloadValue

end
-- ==== Proof.PayloadCount.lean ====
import proofs.«409428_j40355512713957_3_alg».proof.Proof.PayloadMasks

/-!
The body's pair count, read on the extended reals.

Each mask is summed along its 256 lanes, giving one number per row; the two columns of row sums are multiplied
row by row and the 16 products are added. A sum along one axis of a vector is the plain sum over that axis's
coordinates; a vector of 16 numbers seen as a column of 16 rows reads the same numbers.
-/

noncomputable section

open scoped BigOperators

namespace Cert.KernelIdeal.PayloadValue

open Cert.KernelIdeal Cert.KernelIdeal.Gen Cert.PairLoss Idealize.ShloMosaic Idealize.ShloMosaic.ValueIdx

/-- A sum along the lanes of a 16 × 256 vector, at row `m`, is the sum of that row. -/
theorem rowsum256 (x : FVec Ideal S16x256 .f32) (hφ : FKind.Formats .f32)
    (hacc : (0x00000000#32 : BitVec 32) = FKind.add.neutral .f32 hφ) (m : Fin 16) :
    multiReduction .add [1] S16 x 0x00000000#32 reduces_S16x256_S16 hφ hacc (ix1 m) = ∑ a : Fin 256, x (ix2 m a) :=
  (Ideal.multiReduction_add_single x _ reduces_S16x256_S16 hφ hacc (ix1 m)).trans
    (Finset.sum_congr rfl fun a _ => congrArg x (funext fun d => match d with
      | ⟨0, _⟩ => Fin.ext rfl
      | ⟨1, _⟩ => Fin.ext rfl))

/-- A vector of 16 numbers seen as a column of 16 rows reads, at row `m`, its `m`-th number. -/
theorem column_of_vector (v : FVec Ideal S16 .f32) (m : Fin 16) (u : Fin 1) :
    shapeCast S16x1 v shapeCasts_S16_S16x1 (ix2 m u) = v (ix1 m) :=
  shapeCast_apply v shapeCasts_S16_S16x1 (ix2 m u) (ix1 m) (by
    have hu : u.val = 0 := by omega
    rw [Shape.rowMajor_val_two, Shape.rowMajor_val_one]
    show m.val = m.val * 1 + u.val
    rw [hu, Nat.mul_one, Nat.add_zero])

/-- A sum down the rows of a column of 16 numbers is the sum of the 16 numbers. -/
theorem colsum16 (x : FVec Ideal S16x1 .f32) (hφ : FKind.Formats .f32)
    (hacc : (0x00000000#32 : BitVec 32) = FKind.add.neutral .f32 hφ) (u : Fin 1) :
    multiReduction .add [0] S1 x 0x00000000#32 reduces_S16x1_S1 hφ hacc (ix1 u) = ∑ m : Fin 16, x (ix2 m u) :=
  (Ideal.multiReduction_add_single x _ reduces_S16x1_S1 hφ hacc (ix1 u)).trans
    (Finset.sum_congr rfl fun m _ => congrArg x (funext fun d => match d with
      | ⟨0, _⟩ => Fin.ext rfl
      | ⟨1, _⟩ => Fin.ext rfl))

/-- The tile pair's count: per row, the number of positives on the left times the number of negatives on the right, added over the rows. -/
theorem pay8_eq (v10 v11 : Vec Ideal S16x256 .i32) :
    k0_pay8 (F := Ideal) v10 v11
      = fun _ => blockCount (fun (m : Fin 16) (a : Fin 256) => posf (v10 (ix2 m a)))
          (fun (m : Fin 16) (c : Fin 256) => PairLoss.negf (v11 (ix2 m c))) := by
  funext y
  obtain ⟨p, q, rfl⟩ : ∃ (p : Fin 1) (q : Fin 1), y = ix2 p q := ⟨y 0, y 1, eq_ix2 y⟩
  unfold k0_pay8
  refine (shapeCast_a_1a_apply _ shapeCasts_S1_S1x1 p q).trans ?_
  refine (colsum16 _ _ _ q).trans ?_
  unfold blockCount
  refine Finset.sum_congr rfl fun m _ => ?_
  refine congrArg₂ (· * ·)
    ((column_of_vector _ m q).trans ((rowsum256 _ _ _ m).trans (Finset.sum_congr rfl fun a _ => pay6_apply v10 m a)))
    ((column_of_vector _ m q).trans ((rowsum256 _ _ _ m).trans (Finset.sum_congr rfl fun c _ => pay7_apply v11 m c)))

/-- The scratch count after the body: what it held, plus the tile pair's count. -/
theorem pay2_eq (v10 v11 : Vec Ideal S16x256 .i32) (old : Vec Ideal S1x1 .f32) :
    k0_pay2 (F := Ideal) (k0_pay8 v10 v11) old
      = fun y => old y + blockCount (fun (m : Fin 16) (a : Fin 256) => posf (v10 (ix2 m a)))
          (fun (m : Fin 16) (c : Fin 256) => PairLoss.negf (v11 (ix2 m c))) := by
  funext y
  unfold k0_pay2
  refine (congrFun (shapeCast_self _ shapeCasts_S1x1_S1x1) y).trans ?_
  exact congrArg (old y + ·) (congrFun (pay8_eq v10 v11) y)

end Cert.KernelIdeal.PayloadValue

end
-- ==== Proof.KernelValueAcc.lean ====
import proofs.«409428_j40355512713957_3_alg».proof.Proof.KernelValueBlocks
import proofs.«409428_j40355512713957_3_alg».proof.Proof.PayloadLoss
import proofs.«409428_j40355512713957_3_alg».proof.Proof.PayloadCount

/-!
The two accumulators along the grid, on the extended reals.

Within a row group the 16 tile pairs are visited in order. The loss accumulator is reset at the first and
then, after the tile pair at position `n`, holds the sum of the tile pairs' losses from the group's first position
up to `n`; the count accumulator likewise. After the group's last tile pair these are the group's loss and
count, and the output row stored there carries them in lanes 0 and 1 and zero elsewhere.
-/

set_option maxRecDepth 16384

noncomputable section

open scoped BigOperators

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.PairLoss Cert.KernelIdeal.PayloadValue Idealize.ShloMosaic.ValueIdx

variable (m : (ℓ : Loc nD τ sig) → Buf (Elt Ideal) ℓ)

/-- The scores and the relevances by (row, column). -/
abbrev sArr (c : Dev nD) : Fin 128 → Fin 1024 → EReal := fun b i => scores m c (ix2 b i)
abbrev rArr (c : Dev nD) : Fin 128 → Fin 1024 → BitVec 32 := fun b i => rels m c (ix2 b i)

/-- The loss and the count of the tile pair at grid position `n`. -/
def lossAt (c : Dev nD) (n : ℕ) : EReal := tileLoss (sArr m c) (rArr m c) (grpN n) (ltileN n) (rtileN n)
def countAt (c : Dev nD) (n : ℕ) : EReal := tileCount (rArr m c) (grpN n) (ltileN n) (rtileN n)

/-- The sums over a row group's tile pairs from its first position up to position `n`. -/
def lossSum (c : Dev nD) (n : ℕ) : EReal := ∑ j ∈ Finset.range (n % 16 + 1), lossAt m c (16 * (n / 16) + j)
def countSum (c : Dev nD) (n : ℕ) : EReal := ∑ j ∈ Finset.range (n % 16 + 1), countAt m c (16 * (n / 16) + j)

theorem lossSum_first (c : Dev nD) (n : ℕ) (h : n % 16 = 0) : lossSum m c n = lossAt m c n := by
  unfold lossSum
  rw [h, Finset.sum_range_one]
  exact congrArg (lossAt m c) (by omega)

theorem lossSum_next (c : Dev nD) (n : ℕ) (h : ¬n % 16 = 0) : lossSum m c n = lossSum m c (n - 1) + lossAt m c n := by
  obtain ⟨k, rfl⟩ : ∃ k, n = k + 1 := ⟨n - 1, by omega⟩
  unfold lossSum
  have e1 : (k + 1) % 16 = k % 16 + 1 := by omega
  have e2 : (k + 1) / 16 = k / 16 := by omega
  rw [Nat.add_sub_cancel, e1, e2, Finset.sum_range_succ]
  exact congrArg (_ + lossAt m c ·) (by omega)

theorem countSum_first (c : Dev nD) (n : ℕ) (h : n % 16 = 0) : countSum m c n = countAt m c n := by
  unfold countSum
  rw [h, Finset.sum_range_one]
  exact congrArg (countAt m c) (by omega)

theorem countSum_next (c : Dev nD) (n : ℕ) (h : ¬n % 16 = 0) : countSum m c n = countSum m c (n - 1) + countAt m c n := by
  obtain ⟨k, rfl⟩ : ∃ k, n = k + 1 := ⟨n - 1, by omega⟩
  unfold countSum
  have e1 : (k + 1) % 16 = k % 16 + 1 := by omega
  have e2 : (k + 1) / 16 = k / 16 := by omega
  rw [Nat.add_sub_cancel, e1, e2, Finset.sum_range_succ]
  exact congrArg (_ + countAt m c ·) (by omega)

/-! ## One point's update -/

/-- The tile pair's loss from the four blocks of point `t`. -/
theorem blockLoss_at (c : Dev nD) (t : Fin cfg0.N) :
    blockLoss (fun (mm : Fin 16) (a : Fin 256) => lblk m c t (ix2 mm a)) (fun (mm : Fin 16) (a : Fin 256) => rblk m c t (ix2 mm a))
        (fun (mm : Fin 16) (a : Fin 256) => posf (lrel m c t (ix2 mm a))) (fun (mm : Fin 16) (a : Fin 256) => PairLoss.negf (rrel m c t (ix2 mm a)))
      = lossAt m c t.val := by
  have h1 : (fun (mm : Fin 16) (a : Fin 256) => lblk m c t (ix2 mm a)) = tile (sArr m c) (grpN t.val) (ltileN t.val) :=
    funext fun mm => funext fun a => lblk_apply m c t mm a
  have h2 : (fun (mm : Fin 16) (a : Fin 256) => rblk m c t (ix2 mm a)) = tile (sArr m c) (grpN t.val) (rtileN t.val) :=
    funext fun mm => funext fun a => rblk_apply m c t mm a
  have h3 : (fun (mm : Fin 16) (a : Fin 256) => posf (lrel m c t (ix2 mm a)))
      = fun mm a => posf (tile (rArr m c) (grpN t.val) (ltileN t.val) mm a) :=
    funext fun mm => funext fun a => congrArg posf (lrel_apply m c t mm a)
  have h4 : (fun (mm : Fin 16) (a : Fin 256) => PairLoss.negf (rrel m c t (ix2 mm a)))
      = fun mm a => PairLoss.negf (tile (rArr m c) (grpN t.val) (rtileN t.val) mm a) :=
    funext fun mm => funext fun a => congrArg PairLoss.negf (rrel_apply m c t mm a)
  rw [h1, h2, h3, h4]
  rfl

/-- The tile pair's count from the two relevance blocks of point `t`. -/
theorem blockCount_at (c : Dev nD) (t : Fin cfg0.N) :
    blockCount (fun (mm : Fin 16) (a : Fin 256) => posf (lrel m c t (ix2 mm a))) (fun (mm : Fin 16) (a : Fin 256) => PairLoss.negf (rrel m c t (ix2 mm a)))
      = countAt m c t.val := by
  have h3 : (fun (mm : Fin 16) (a : Fin 256) => posf (lrel m c t (ix2 mm a)))
      = fun mm a => posf (tile (rArr m c) (grpN t.val) (ltileN t.val) mm a) :=
    funext fun mm => funext fun a => congrArg posf (lrel_apply m c t mm a)
  have h4 : (fun (mm : Fin 16) (a : Fin 256) => PairLoss.negf (rrel m c t (ix2 mm a)))
      = fun mm a => PairLoss.negf (tile (rArr m c) (grpN t.val) (rtileN t.val) mm a) :=
    funext fun mm => funext fun a => congrArg PairLoss.negf (rrel_apply m c t mm a)
  rw [h3, h4]
  rfl

/-- The loss accumulator after point `t`, from what it held. -/
theorem upd_loss (c : Dev nD) (t : Fin cfg0.N) (old : Vec Ideal S1x1 .f32) :
    k0_pay1 (F := Ideal) (k0_pay6 (lrel m c t)) (k0_pay7 (rrel m c t)) (k0_pay9 (lblk m c t) (rblk m c t)) (Scalar.ofBits .f32 0x00000000#32) (k0_pay10 (lblk m c t) (rblk m c t)) old = fun y => old y + lossAt m c t.val := by
  refine (pay1_eq (lblk m c t) (rblk m c t) (lrel m c t) (rrel m c t) old).trans ?_
  funext y
  exact congrArg (old y + ·) (blockLoss_at m c t)

/-- The count accumulator after point `t`, from what it held. -/
theorem upd_count (c : Dev nD) (t : Fin cfg0.N) (old : Vec Ideal S1x1 .f32) :
    k0_pay2 (F := Ideal) (k0_pay8 (lrel m c t) (rrel m c t)) old = fun y => old y + countAt m c t.val := by
  refine (pay2_eq (lrel m c t) (rrel m c t) old).trans ?_
  funext y
  exact congrArg (old y + ·) (blockCount_at m c t)

/-- At a row group's first position, over the reset. -/
theorem upd_loss_first (c : Dev nD) (t : Fin cfg0.N) (h0 : t.val % 16 = 0) :
    k0_pay1 (F := Ideal) (k0_pay6 (lrel m c t)) (k0_pay7 (rrel m c t)) (k0_pay9 (lblk m c t) (rblk m c t)) (Scalar.ofBits .f32 0x00000000#32) (k0_pay10 (lblk m c t) (rblk m c t)) (k0_pay4 (F := Ideal)) = fun _ => lossSum m c t.val := by
  refine (upd_loss m c t _).trans ?_
  funext y
  rw [pay4_eq, zero_add, lossSum_first m c t.val h0]

theorem upd_count_first (c : Dev nD) (t : Fin cfg0.N) (h0 : t.val % 16 = 0) :
    k0_pay2 (F := Ideal) (k0_pay8 (lrel m c t) (rrel m c t)) (k0_pay5 (F := Ideal)) = fun _ => countSum m c t.val := by
  refine (upd_count m c t _).trans ?_
  funext y
  rw [pay5_eq, zero_add, countSum_first m c t.val h0]

/-- At a later position of the group, over the sums up to the position before. -/
theorem upd_loss_next (c : Dev nD) (t : Fin cfg0.N) (h0 : ¬t.val % 16 = 0) (old : Vec Ideal S1x1 .f32)
    (hold : old = fun _ => lossSum m c (t.val - 1)) :
    k0_pay1 (F := Ideal) (k0_pay6 (lrel m c t)) (k0_pay7 (rrel m c t)) (k0_pay9 (lblk m c t) (rblk m c t)) (Scalar.ofBits .f32 0x00000000#32) (k0_pay10 (lblk m c t) (rblk m c t)) old = fun _ => lossSum m c t.val := by
  refine (upd_loss m c t old).trans ?_
  funext y
  rw [hold, lossSum_next m c t.val h0]

theorem upd_count_next (c : Dev nD) (t : Fin cfg0.N) (h0 : ¬t.val % 16 = 0) (old : Vec Ideal S1x1 .f32)
    (hold : old = fun _ => countSum m c (t.val - 1)) :
    k0_pay2 (F := Ideal) (k0_pay8 (lrel m c t) (rrel m c t)) old = fun _ => countSum m c t.val := by
  refine (upd_count m c t old).trans ?_
  funext y
  rw [hold, countSum_next m c t.val h0]

/-! ## The accumulators after every point -/

/-- After the body at position `t` the loss accumulator holds the group's partial loss and the count accumulator the
    group's partial count: by induction on the position. -/
theorem acc_eq (c : Dev nD) : ∀ (k : ℕ) (t : Fin cfg0.N), t.val = k →
    (outsAt0 m c t.val t.isLt).2.1 = (fun _ => lossSum m c t.val) ∧ (outsAt0 m c t.val t.isLt).2.2 = (fun _ => countSum m c t.val) := by
  intro k
  induction k using Nat.strong_induction_on with
  | _ k ih =>
    intro t htk
    by_cases h0 : t.val % 16 = 0
    · have h1 : ¬t.val % 16 = 15 := by omega
      rw [outsAt0_A m c t h0 h1]
      dsimp only
      exact ⟨(sout_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (lblk m c t) (rblk m c t) (lrel m c t) (rrel m c t)).trans (upd_loss_first m c t h0),
        (sout_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (lblk m c t) (rblk m c t) (lrel m c t) (rrel m c t)).trans (upd_count_first m c t h0)⟩
    · have hlt : t.val - 1 < cfg0.N := Nat.lt_of_le_of_lt (Nat.sub_le _ _) t.isLt
      have hp := ih (t.val - 1) (by omega) ⟨t.val - 1, hlt⟩ rfl
      have hp1 : (outsAt0 m c (t.val - 1) hlt).2.1 = fun _ => lossSum m c (t.val - 1) := hp.1
      have hp2 : (outsAt0 m c (t.val - 1) hlt).2.2 = fun _ => countSum m c (t.val - 1) := hp.2
      by_cases h1 : t.val % 16 = 15
      · rw [outsAt0_C m c t h0 h1]
        dsimp only
        exact ⟨(sout_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (lblk m c t) (rblk m c t) (lrel m c t) (rrel m c t) (outsAt0 m c (t.val - 1) hlt).2.1 (outsAt0 m c (t.val - 1) hlt).2.2).trans
            (upd_loss_next m c t h0 _ hp1),
          (sout_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (lblk m c t) (rblk m c t) (lrel m c t) (rrel m c t) (outsAt0 m c (t.val - 1) hlt).2.1 (outsAt0 m c (t.val - 1) hlt).2.2).trans
            (upd_count_next m c t h0 _ hp2)⟩
      · rw [outsAt0_B m c t h0 h1]
        dsimp only
        exact ⟨(sout_B_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (lblk m c t) (rblk m c t) (lrel m c t) (rrel m c t) (outsAt0 m c (t.val - 1) hlt).2.1 (outsAt0 m c (t.val - 1) hlt).2.2).trans
            (upd_loss_next m c t h0 _ hp1),
          (sout_B_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (lblk m c t) (rblk m c t) (lrel m c t) (rrel m c t) (outsAt0 m c (t.val - 1) hlt).2.1 (outsAt0 m c (t.val - 1) hlt).2.2).trans
            (upd_count_next m c t h0 _ hp2)⟩

/-- The output row stored at a row group's last position. -/
theorem row_eq (c : Dev nD) (t : Fin cfg0.N) (h15 : t.val % 16 = 15) (l : Fin 128) :
    (outsAt0 m c t.val t.isLt).1 (ix3 (0 : Fin 1) (0 : Fin 1) l)
      = if l.val = 0 then lossSum m c t.val else if l.val = 1 then countSum m c t.val else 0 := by
  have h0 : ¬t.val % 16 = 0 := by omega
  have hlt : t.val - 1 < cfg0.N := Nat.lt_of_le_of_lt (Nat.sub_le _ _) t.isLt
  have hp := acc_eq m c (t.val - 1) ⟨t.val - 1, hlt⟩ rfl
  have hp1 : (outsAt0 m c (t.val - 1) hlt).2.1 = fun _ => lossSum m c (t.val - 1) := hp.1
  have hp2 : (outsAt0 m c (t.val - 1) hlt).2.2 = fun _ => countSum m c (t.val - 1) := hp.2
  rw [outsAt0_C m c t h0 h15]
  dsimp only
  refine (congrFun (out_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (lblk m c t) (rblk m c t) (lrel m c t) (rrel m c t) (outsAt0 m c (t.val - 1) hlt).2.1 (outsAt0 m c (t.val - 1) hlt).2.2)
    (ix3 (0 : Fin 1) (0 : Fin 1) l)).trans ?_
  refine (pay3_apply _ _ l).trans ?_
  exact if_congr Iff.rfl (congrFun (upd_loss_next m c t h0 _ hp1) _)
    (if_congr Iff.rfl (congrFun (upd_count_next m c t h0 _ hp2) _) rfl)

end Cert.KernelIdeal.Hand

end
-- ==== Proof.KernelValueArray.lean ====
import proofs.«409428_j40355512713957_3_alg».proof.Proof.KernelValueAcc
import Idealize.ShloMosaic.Lib.Pipeline.Value

/-!
The output array after the run, on the extended reals.

A row group's 16 positions are its tile pairs `(k, l)` in row-major order, so the sums over the group's positions
are the group's loss and count. Row `g` of the output array is written back once, after the group's last tile
pair, from the output row stored there: the group's loss in lane 0, its count in lane 1, zero elsewhere. The
eight rows written back tile the array.
-/

set_option maxRecDepth 16384

noncomputable section

open scoped BigOperators

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.PairLoss Cert.KernelIdeal.PayloadValue Idealize.ShloMosaic.ValueIdx

variable (m : (ℓ : Loc nD τ sig) → Buf (Elt Ideal) ℓ)

/-! ## A row group's positions are its tile pairs -/

/-- A sum over 16 consecutive positions is the double sum over (left tile, right tile), position `4 k + l`. -/
theorem range16_sum (f : ℕ → EReal) :
    ∑ j ∈ Finset.range 16, f j = ∑ k : Fin 4, ∑ l : Fin 4, f (4 * k.val + l.val) := by
  calc ∑ j ∈ Finset.range 16, f j = ∑ j : Fin (4 * 4), f j.val := Finset.sum_range f
    _ = ∑ p : Fin 4 × Fin 4, f (finProdFinEquiv p).val :=
        (Equiv.sum_comp finProdFinEquiv (fun j : Fin (4 * 4) => f j.val)).symm
    _ = ∑ k : Fin 4, ∑ l : Fin 4, f (4 * k.val + l.val) := by
        rw [Fintype.sum_prod_type]
        refine Finset.sum_congr rfl fun k _ => Finset.sum_congr rfl fun l _ => congrArg f ?_
        show l.val + 4 * k.val = 4 * k.val + l.val
        omega

theorem pos_grp (g : Fin 8) (k l : Fin 4) : grpN (16 * g.val + (4 * k.val + l.val)) = g :=
  Fin.ext (by show (16 * g.val + (4 * k.val + l.val)) / 16 % 8 = g.val; have := g.isLt; have := k.isLt; have := l.isLt; omega)
theorem pos_ltile (g : Fin 8) (k l : Fin 4) : ltileN (16 * g.val + (4 * k.val + l.val)) = k :=
  Fin.ext (by show (16 * g.val + (4 * k.val + l.val)) / 4 % 4 = k.val; have := g.isLt; have := k.isLt; have := l.isLt; omega)
theorem pos_rtile (g : Fin 8) (k l : Fin 4) : rtileN (16 * g.val + (4 * k.val + l.val)) = l :=
  Fin.ext (by show (16 * g.val + (4 * k.val + l.val)) % 4 = l.val; have := g.isLt; have := k.isLt; have := l.isLt; omega)

/-- After a row group's last position the partial loss is the group's loss, -/
theorem lossSum_last (c : Dev nD) (n : ℕ) (hn : n < 128) (h : n % 16 = 15) :
    lossSum m c n = groupLoss (sArr m c) (rArr m c) (grpN n) := by
  have hg : n / 16 = (grpN n).val := by
    show n / 16 = n / 16 % 8
    omega
  unfold lossSum groupLoss
  rw [h, show 15 + 1 = 16 from rfl, range16_sum]
  refine Finset.sum_congr rfl fun k _ => Finset.sum_congr rfl fun l _ => ?_
  unfold lossAt
  rw [hg, pos_grp, pos_ltile, pos_rtile]

/-- and the partial count the group's count. -/
theorem countSum_last (c : Dev nD) (n : ℕ) (hn : n < 128) (h : n % 16 = 15) :
    countSum m c n = groupCount (rArr m c) (grpN n) := by
  have hg : n / 16 = (grpN n).val := by
    show n / 16 = n / 16 % 8
    omega
  unfold countSum groupCount
  rw [h, show 15 + 1 = 16 from rfl, range16_sum]
  refine Finset.sum_congr rfl fun k _ => Finset.sum_congr rfl fun l _ => ?_
  unfold countAt
  rw [hg, pos_grp, pos_ltile, pos_rtile]

/-! ## The output array -/

/-- Row `g` of the output: the group's loss in lane 0, its count in lane 1, zero elsewhere. -/
def outRow (c : Dev nD) (g : Fin 8) (lane : ℕ) : EReal :=
  if lane = 0 then groupLoss (sArr m c) (rArr m c) g else if lane = 1 then groupCount (rArr m c) g else 0

/-- The whole output array. -/
def outArr (c : Dev nD) : Vec Ideal S8x1x128 .f32 := fun i => outRow m c ⟨(i 0).val, (i 0).isLt⟩ (i 2).val

/-- The output row stored at a row group's last position, as a function of the lane. -/
theorem row_fun (c : Dev nD) (t : Fin cfg0.N) (h15 : t.val % 16 = 15) :
    (outsAt0 m c t.val t.isLt).1 = fun (j : S1x1x128.Idx) => outRow m c (grpN t.val) (j 2).val := by
  have hN : cfg0.N = 128 := N_0
  have ht := t.isLt
  funext j
  obtain ⟨p, q, l, rfl⟩ : ∃ (p : Fin 1) (q : Fin 1) (l : Fin 128), j = ix3 p q l := ⟨j 0, j 1, j 2, eq_ix3 j⟩
  obtain rfl : p = 0 := Subsingleton.elim _ _
  obtain rfl : q = 0 := Subsingleton.elim _ _
  rw [row_eq m c t h15 l, lossSum_last m c t.val (by omega) h15, countSum_last m c t.val (by omega) h15]
  rfl

/-- An index of the output array is in point `t`'s block iff each coordinate is in the block's range on its axis. -/
theorem mem_blk4 (t : Fin cfg0.N) (i : S8x1x128.Idx) :
    i ∈ ((cfg0.win 4).blk t).view.set ↔ ∀ a : Fin 3, win0_4.index t a * S1x1x128.size a ≤ (i a).val
      ∧ (i a).val < win0_4.index t a * S1x1x128.size a + S1x1x128.size a := by
  show i ∈ ((View.whole main_v0).slice (win0_4.rect t)).set ↔ _
  rw [View.set_slice_whole, Rect.mem_set_unit]
  exact Iff.rfl

/-- What a row group's last point writes back is that group's row of the output array. -/
theorem flushed_eq (c : Dev nD) (t : Fin cfg0.N) (hf : (cfg0.win 4).flush t = true) :
    (dats m 0 c).flushed 4 t = ((cfg0.win 4).blk t).view.read (Elt Ideal) (outArr m c) := by
  have h15 : t.val % 16 = 15 := (flush0_4 t).mp hf
  have hN : cfg0.N = 128 := N_0
  have ht := t.isLt
  obtain ⟨-, -, -, -, -, -, -, -, e40, e41, e42⟩ := idx_facts t
  show (cfg0.win 4).cut (grid0.coords t) ((dats m 0 c).after 4 t) = _
  rw [after0_4, row_fun m c t h15]
  funext j
  show outRow m c (grpN t.val) ((j : S1x1x128.Idx) 2).val = outArr m c (((cfg0.win 4).blk t).view.emb j)
  unfold outArr
  have hj0 : ((j : S1x1x128.Idx) 0).val < 1 := (j 0).isLt
  have hg : (⟨((((cfg0.win 4).blk t).view.emb j) 0).val, ((((cfg0.win 4).blk t).view.emb j) 0).isLt⟩ : Fin 8) = grpN t.val :=
    Fin.ext (by
      show win0_4.index t (0 : Fin 3) * 1 + 1 * ((j : S1x1x128.Idx) 0).val = t.val / 16 % 8
      rw [e40]; omega)
  have hl : ((((cfg0.win 4).blk t).view.emb j) 2).val = ((j : S1x1x128.Idx) 2).val := by
    show win0_4.index t (2 : Fin 3) * 128 + 1 * ((j : S1x1x128.Idx) 2).val = _
    rw [e42]; omega
  rw [hg, hl]

/-- Every index of the output array is in the block its row group's last point writes back. -/
theorem cover (c : Dev nD) (i : S8x1x128.Idx) :
    ∃ t : Fin cfg0.N, (cfg0.win 4).flush t = true ∧ i ∈ ((cfg0.win 4).blk t).view.set := by
  have hN : cfg0.N = 128 := N_0
  have hi0 : (i 0).val < 8 := (i 0).isLt
  have hi1 : (i 1).val < 1 := (i 1).isLt
  have hi2 : (i 2).val < 128 := (i 2).isLt
  obtain ⟨t, ht⟩ : ∃ t : Fin cfg0.N, t.val = 16 * (i 0).val + 15 := ⟨⟨16 * (i 0).val + 15, by omega⟩, rfl⟩
  obtain ⟨-, -, -, -, -, -, -, -, e40, e41, e42⟩ := idx_facts t
  refine ⟨t, (flush0_4 t).mpr (by omega), ?_⟩
  rw [mem_blk4]
  intro a
  match a with
  | ⟨0, _⟩ =>
    show win0_4.index t (0 : Fin 3) * 1 ≤ (i 0).val ∧ (i 0).val < win0_4.index t (0 : Fin 3) * 1 + 1
    rw [e40]; omega
  | ⟨1, _⟩ =>
    show win0_4.index t (1 : Fin 3) * 1 ≤ (i 1).val ∧ (i 1).val < win0_4.index t (1 : Fin 3) * 1 + 1
    rw [e41]; omega
  | ⟨2, _⟩ =>
    show win0_4.index t (2 : Fin 3) * 128 ≤ (i 2).val ∧ (i 2).val < win0_4.index t (2 : Fin 3) * 128 + 128
    rw [e42]; omega

/-- The output array after the last point. -/
theorem out_array (c : Dev nD) : (dats m 0 c).arrAt 4 cfg0.N = outArr m c :=
  (dats m 0 c).arrAt_eq_of_cover 4 (outArr m c) (fun t hf => flushed_eq m c t hf) (cover c)

/-- THE KERNEL'S VALUE: entry `(g, 0, lane)` of the output array after the run is the row group's loss in lane 0,
    its count in lane 1, and zero in every other lane. -/
theorem out_array_apply (c : Dev nD) (g : Fin 8) (lane : Fin 128) :
    (dats m 0 c).arrAt 4 cfg0.N (ix3 g (0 : Fin 1) lane)
      = if lane.val = 0 then groupLoss (sArr m c) (rArr m c) g
        else if lane.val = 1 then groupCount (rArr m c) g else 0 := by
  rw [out_array m c]
  rfl

end Cert.KernelIdeal.Hand

end
-- ==== Proof.Bridge.lean ====
import proofs.«409428_j40355512713957_3_alg».proof.Proof.Spec
import Mathlib.Data.EReal.Basic
import Mathlib.Algebra.BigOperators.Group.Finset.Basic
import Mathlib.Algebra.BigOperators.Group.Finset.Sigma
import Mathlib.Algebra.BigOperators.Ring.Finset
import Mathlib.Data.Nat.Cast.Order.Ring

/-!
The two arrangements of the pairwise ranking loss agree.

A row `b < 128` is written `16·g + m` and a column `i < 1024` is written `256·k + a`; a sum over rows is a
double sum over `(g, m)`, a sum over columns a double sum over `(k, a)`. The masks are `0` or `1`, so a product
with a mask is a choice between the term and `0`; only `x · 1 = x`, `x · 0 = 0` and the commutativity and
associativity of finite sums are used, which hold for every extended real.
-/

noncomputable section

open scoped BigOperators

namespace Cert.PairLoss

/-! ## Rows and columns as pairs -/

/-- Row `16·g + m`. -/
def rowIdx (g : Fin 8) (m : Fin 16) : Fin 128 := ⟨16 * g.val + m.val, by omega⟩

/-- Column `256·k + a`. -/
def colIdx (k : Fin 4) (a : Fin 256) : Fin 1024 := ⟨256 * k.val + a.val, by omega⟩

theorem tile_apply {α : Type} (x : Fin 128 → Fin 1024 → α) (g : Fin 8) (k : Fin 4) (m : Fin 16) (a : Fin 256) :
    tile x g k m a = x (rowIdx g m) (colIdx k a) := rfl

/-- Quotient and remainder by `16` identify the rows with the pairs `(g, m)`. -/
def rowEquiv : Fin 8 × Fin 16 ≃ Fin 128 where
  toFun p := rowIdx p.1 p.2
  invFun b := (⟨b.val / 16, by omega⟩, ⟨b.val % 16, by omega⟩)
  left_inv p := by
    rcases p with ⟨g, m⟩
    apply Prod.ext <;> apply Fin.ext <;> simp only [rowIdx] <;> omega
  right_inv b := by
    apply Fin.ext
    simp only [rowIdx]
    omega

/-- Quotient and remainder by `256` identify the columns with the pairs `(k, a)`. -/
def colEquiv : Fin 4 × Fin 256 ≃ Fin 1024 where
  toFun p := colIdx p.1 p.2
  invFun i := (⟨i.val / 256, by omega⟩, ⟨i.val % 256, by omega⟩)
  left_inv p := by
    rcases p with ⟨k, a⟩
    apply Prod.ext <;> apply Fin.ext <;> simp only [colIdx] <;> omega
  right_inv i := by
    apply Fin.ext
    simp only [colIdx]
    omega

theorem sum_rows {M : Type*} [AddCommMonoid M] (f : Fin 128 → M) :
    ∑ b, f b = ∑ g : Fin 8, ∑ m : Fin 16, f (rowIdx g m) := by
  rw [← Fintype.sum_prod_type']
  exact (Fintype.sum_equiv rowEquiv _ _ fun _ => rfl).symm

theorem sum_cols {M : Type*} [AddCommMonoid M] (f : Fin 1024 → M) :
    ∑ i, f i = ∑ k : Fin 4, ∑ a : Fin 256, f (colIdx k a) := by
  rw [← Fintype.sum_prod_type']
  exact (Fintype.sum_equiv colEquiv _ _ fun _ => rfl).symm

/-- A triple sum over rows, left columns and right columns, taken tile pair by tile pair. -/
theorem sum_tiled {M : Type*} [AddCommMonoid M] (F : Fin 128 → Fin 1024 → Fin 1024 → M) :
    ∑ g : Fin 8, ∑ k : Fin 4, ∑ l : Fin 4, ∑ m : Fin 16, ∑ a : Fin 256, ∑ c : Fin 256,
        F (rowIdx g m) (colIdx k a) (colIdx l c)
      = ∑ b, ∑ i, ∑ j, F b i j := by
  rw [sum_rows]
  refine Finset.sum_congr rfl fun g _ => ?_
  -- one row: split both column sums, then move the right tile index in front of the left offset
  have hrow : ∀ m : Fin 16, ∑ i, ∑ j, F (rowIdx g m) i j
      = ∑ k : Fin 4, ∑ l : Fin 4, ∑ a : Fin 256, ∑ c : Fin 256,
          F (rowIdx g m) (colIdx k a) (colIdx l c) := by
    intro m
    rw [sum_cols]
    refine Finset.sum_congr rfl fun k _ => ?_
    calc ∑ a : Fin 256, ∑ j, F (rowIdx g m) (colIdx k a) j
        = ∑ a : Fin 256, ∑ l : Fin 4, ∑ c : Fin 256, F (rowIdx g m) (colIdx k a) (colIdx l c) :=
          Finset.sum_congr rfl fun a _ => sum_cols _
      _ = ∑ l : Fin 4, ∑ a : Fin 256, ∑ c : Fin 256, F (rowIdx g m) (colIdx k a) (colIdx l c) :=
          Finset.sum_comm
  -- the row offset moves inside the two tile indices
  calc ∑ k : Fin 4, ∑ l : Fin 4, ∑ m : Fin 16, ∑ a : Fin 256, ∑ c : Fin 256,
          F (rowIdx g m) (colIdx k a) (colIdx l c)
      = ∑ k : Fin 4, ∑ m : Fin 16, ∑ l : Fin 4, ∑ a : Fin 256, ∑ c : Fin 256,
          F (rowIdx g m) (colIdx k a) (colIdx l c) :=
        Finset.sum_congr rfl fun k _ => Finset.sum_comm
    _ = ∑ m : Fin 16, ∑ k : Fin 4, ∑ l : Fin 4, ∑ a : Fin 256, ∑ c : Fin 256,
          F (rowIdx g m) (colIdx k a) (colIdx l c) := Finset.sum_comm
    _ = ∑ m : Fin 16, ∑ i, ∑ j, F (rowIdx g m) i j :=
        Finset.sum_congr rfl fun m _ => (hrow m).symm

/-! ## The loss -/

/-- A masked inner sum times the outer mask is the sum of the terms both masks keep. -/
theorem masked_sum {ι : Type*} [Fintype ι] (p : BitVec 32) (q : ι → BitVec 32) (x : ι → EReal) :
    (∑ c, x c * negf (q c)) * posf p = ∑ c, if p = 1#32 ∧ q c = 0#32 then x c else 0 := by
  by_cases hp : p = 1#32
  · rw [posf, if_pos hp, mul_one]
    refine Finset.sum_congr rfl fun c _ => ?_
    by_cases hq : q c = 0#32
    · rw [negf, if_pos hq, mul_one, if_pos ⟨hp, hq⟩]
    · rw [negf, if_neg hq, mul_zero, if_neg fun h => hq h.2]
  · rw [posf, if_neg hp, mul_zero]
    exact (Finset.sum_eq_zero fun c _ => if_neg fun h => hp h.1).symm

theorem tiledLoss_eq (s : Fin 128 → Fin 1024 → EReal) (r : Fin 128 → Fin 1024 → BitVec 32) :
    tiledLoss s r = lossTotal s r := by
  unfold tiledLoss groupLoss tileLoss blockLoss lossTotal
  simp only [tile_apply, masked_sum]
  exact sum_tiled fun b i j => if r b i = 1#32 ∧ r b j = 0#32 then pairLoss (s b i) (s b j) else 0

/-! ## The count -/

/-- The coercion of the reals into the extended reals commutes with finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- So does the cast of the naturals. -/
theorem natCast_sum {ι : Type*} (t : Finset ι) (f : ι → ℕ) :
    (((∑ i ∈ t, f i : ℕ) : ℝ) : EReal) = ∑ i ∈ t, (((f i : ℕ) : ℝ) : EReal) := by
  rw [Nat.cast_sum, coe_sum]

theorem posf_eq_cast (p : BitVec 32) : posf p = (((if p = 1#32 then 1 else 0 : ℕ) : ℝ) : EReal) := by
  unfold posf
  split_ifs <;> simp

theorem negf_eq_cast (q : BitVec 32) : negf q = (((if q = 0#32 then 1 else 0 : ℕ) : ℝ) : EReal) := by
  unfold negf
  split_ifs <;> simp

/-- The product of the two indicators is the indicator of the pair. -/
theorem mask_mul (p q : BitVec 32) :
    (if p = 1#32 then 1 else 0 : ℕ) * (if q = 0#32 then 1 else 0)
      = if p = 1#32 ∧ q = 0#32 then 1 else 0 := by
  by_cases hp : p = 1#32 <;> by_cases hq : q = 0#32 <;> simp [hp, hq]

/-- One tile pair's count is the number of its counted pairs. -/
theorem tileCount_eq (r : Fin 128 → Fin 1024 → BitVec 32) (g : Fin 8) (k l : Fin 4) :
    tileCount r g k l
      = (((∑ m : Fin 16, ∑ a : Fin 256, ∑ c : Fin 256,
            (if r (rowIdx g m) (colIdx k a) = 1#32 ∧ r (rowIdx g m) (colIdx l c) = 0#32 then 1 else 0) : ℕ) : ℝ) : EReal) := by
  unfold tileCount blockCount
  rw [natCast_sum]
  refine Finset.sum_congr rfl fun m _ => ?_
  simp only [tile_apply, posf_eq_cast, negf_eq_cast]
  rw [← natCast_sum, ← natCast_sum, ← EReal.coe_mul, ← Nat.cast_mul, Finset.sum_mul_sum]
  simp only [mask_mul]

theorem tiledCount_eq (r : Fin 128 → Fin 1024 → BitVec 32) :
    tiledCount r = (((pairCount r : ℕ) : ℝ) : EReal) := by
  unfold tiledCount groupCount pairCount
  simp only [tileCount_eq, ← natCast_sum]
  rw [sum_tiled fun b i j => if r b i = 1#32 ∧ r b j = 0#32 then 1 else 0]

/-! ## The result -/

theorem coe_natCast_pos (n : ℕ) : (0 : EReal) < (((n : ℕ) : ℝ) : EReal) ↔ 0 < n := by
  rw [EReal.coe_pos, Nat.cast_pos]

theorem max_coe_natCast_one (n : ℕ) :
    max (((n : ℕ) : ℝ) : EReal) 1 = (((max n 1 : ℕ) : ℝ) : EReal) := by
  rw [Nat.cast_max, Nat.cast_one, ← EReal.coe_one]
  exact (EReal.coe_strictMono.monotone.map_max).symm

theorem tiledResult_eq (s : Fin 128 → Fin 1024 → EReal) (r : Fin 128 → Fin 1024 → BitVec 32) :
    tiledResult s r = result s r := by
  unfold tiledResult result
  rw [tiledLoss_eq, tiledCount_eq, max_coe_natCast_one]
  by_cases h : 0 < pairCount r
  · rw [if_pos h, if_pos ((coe_natCast_pos _).2 h)]
  · rw [if_neg h, if_neg fun h' => h ((coe_natCast_pos _).1 h')]

end Cert.PairLoss

end
-- ==== Proof.KernelValue.lean ====
import proofs.«409428_j40355512713957_3_alg».proof.Proof.KernelIdealFrame.Frame
import proofs.«409428_j40355512713957_3_alg».proof.Proof.KernelTail
import proofs.«409428_j40355512713957_3_alg».proof.Proof.KernelValueArray
import proofs.«409428_j40355512713957_3_alg».proof.Proof.Bridge

/-!
The idealized kernel's run with its result named: the result buffer ends at the mean pair loss of the launch
contents (the tiled arrangement the kernel computes, joined to the plain one), the two arguments unchanged.
-/

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)
open Idealize.ShloMosaic.ValueIdx

/-- The scores a device's memory holds at launch. -/
def scoresOf (m : (ℓ : Loc nD τ sig) → Buf (Elt Ideal) ℓ) (c : Dev nD) : Fin 128 → Fin 1024 → EReal :=
  fun b i => m ((c.tc : Thread nD τ).loc main_arg0) (ix2 b i)

/-- The relevance words a device's memory holds at launch. -/
def relOf (m : (ℓ : Loc nD τ sig) → Buf (Elt Ideal) ℓ) (c : Dev nD) : Fin 128 → Fin 1024 → BitVec 32 :=
  fun b i => m ((c.tc : Thread nD τ).loc main_arg1) (ix2 b i)

/-- Every weakly fair execution of the idealized kernel's @main terminates with the result buffer at the mean pair
    loss of the launch contents, the two arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11) = (fun _ => Cert.PairLoss.result (scoresOf m c) (relOf m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun r h c =>
    ⟨((h c).2 main_v11 (Pipeline.mem_restRefs_of main_v11 rfl (by decide))).trans
        ((tail_after m (dats m) c).trans
          ((tailFn_tiled (scoresOf m c) (relOf m c) _
              (fun g => (out_array_apply m c g (0 : Fin 128)).trans rfl) (fun g => (out_array_apply m c g (1 : Fin 128)).trans rfl)).trans
            (funext fun _ => Cert.PairLoss.tiledResult_eq _ _))),
      ((h c).1 0).trans (((dats m 0 c).arrAt_in 0 rfl _).trans (A_eq m c 0)),
      ((h c).1 2).trans (((dats m 0 c).arrAt_in 2 rfl _).trans (A_eq m c 2))⟩)
    (run_main m ρ)

end Cert.KernelIdeal.Hand

end
-- ==== Proof.RefCount.lean ====
import Idealize.ShloMosaic.Lib.StableHlo.Predicate
import Idealize.ShloMosaic.Lib.ValueIdx
import Idealize.ShloMosaic.PureOps.Ideal

/-!
Sums over a rank-3 index set, and counting with 32-bit words.

* A sum over the indices of a rank-3 array is the triple sum over its coordinates.
* The integer sum-reduction of a widened one-bit mask over EVERY axis, from the word `0`, is the word of the number of
  set bits, as long as that number is below `2 ^ 32`.
* A word `BitVec.ofNat 32 n` with `n < 2 ^ 31` compares, maximises and converts as the natural number `n`.
-/

open scoped BigOperators

namespace Cert.RefValue

open Idealize.ShloMosaic Idealize.ShloMosaic.ValueIdx Idealize.ShloMosaic.StableHlo.Predicate

/-! ## A rank-3 index set is the product of its coordinate ranges -/

/-- A rank-3 index is the triple of its coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## One-bit words -/

/-- The conjunction of two bits is set exactly when both are. -/
theorem andi_eq_one_iff (a b : BitVec 1) : IntOp.andi a b = 1#1 ↔ a = 1#1 ∧ b = 1#1 := by
  rcases BitVec.eq_zero_or_eq_one a with rfl | rfl <;> rcases BitVec.eq_zero_or_eq_one b with rfl | rfl <;> decide

/-! ## The total count of a mask -/

/-- Summing the widened bits of a mask over ALL its axes (the result has one index) gives the word whose value is the
    number of set bits, when that number does not wrap. -/
theorem toNat_reduce_count_total {s t u : Shape} {axes : List (Fin s.rank)} (ht : ∀ j j' : t.Idx, j = j')
    (mask : IVec s 1) (hw : 1 < 32) (h : s.ReducesTo axes t) (hu : 0 < u.numel) (j : t.Idx)
    (hS : (∑ i : s.Idx, if mask i = 1#1 then 1 else 0) < 2 ^ 32) :
    (Host.reduce IntOp.addi (extui 32 mask hw) (constantI u 32 0#32) h hu j).toNat
      = ∑ i : s.Idx, if mask i = 1#1 then 1 else 0 := by
  classical
  rw [Host.reduce_eq_fold]
  have hval : ∀ i, (extui 32 mask hw i).toNat = if mask i = 1#1 then 1 else 0 := fun i => toNat_setWidth_bit (mask i)
  have hsum : ∑ i : s.Idx, (extui 32 mask hw i).toNat = ∑ i : s.Idx, if mask i = 1#1 then 1 else 0 :=
    Finset.sum_congr rfl fun i _ => hval i
  rw [Finset.filter_true_of_mem fun i _ => ht _ _]
  show (Finset.fold IntOp.addi 0#32 (extui 32 mask hw) Finset.univ).toNat = _
  rw [toNat_fold_addi _ _ (by rw [hsum]; exact hS), hsum]

/-- The same as an equation of words. -/
theorem reduce_count_total {s t u : Shape} {axes : List (Fin s.rank)} (ht : ∀ j j' : t.Idx, j = j')
    (mask : IVec s 1) (hw : 1 < 32) (h : s.ReducesTo axes t) (hu : 0 < u.numel) (j : t.Idx)
    (hS : (∑ i : s.Idx, if mask i = 1#1 then 1 else 0) < 2 ^ 32) :
    Host.reduce IntOp.addi (extui 32 mask hw) (constantI u 32 0#32) h hu j
      = BitVec.ofNat 32 (∑ i : s.Idx, if mask i = 1#1 then 1 else 0) := by
  rw [← toNat_reduce_count_total ht mask hw h hu j hS, BitVec.ofNat_toNat, BitVec.setWidth_eq]

/-! ## Small words as natural numbers -/

/-- A small word is greater than `0`, signed, exactly when its value is positive. -/
theorem sgt_ofNat_zero (n : ℕ) (hn : n < 2 ^ 31) :
    IntOp.cmpi .sgt (BitVec.ofNat 32 n) 0#32 = if 0 < n then 1#1 else 0#1 := by
  have h0 : (0#32 : BitVec 32).toInt = 0 := by decide
  simp only [IntOp.cmpi, BitVec.slt, toInt_ofNat_small n hn, h0]
  by_cases h : 0 < n
  · rw [if_pos h, decide_eq_true (by exact_mod_cast h)]; rfl
  · rw [if_neg h, decide_eq_false (by omega)]; rfl

/-- The signed maximum of a small word and `1` is the word of the maximum. -/
theorem maxsi_ofNat_one (n : ℕ) (hn : n < 2 ^ 31) :
    IntOp.maxsi (BitVec.ofNat 32 n) 1#32 = BitVec.ofNat 32 (max n 1) := by
  have h1 : (1#32 : BitVec 32).toInt = 1 := by decide
  unfold IntOp.maxsi
  simp only [BitVec.slt, toInt_ofNat_small n hn, h1]
  by_cases h : 1 < n
  · rw [if_pos (decide_eq_true (by exact_mod_cast h)), max_eq_left (by omega)]
  · rw [if_neg (by simpa using (by omega : n ≤ 1)), max_eq_right (by omega)]

/-- A small word converts, signed, to its value. -/
theorem sitofp_ofNat (n : ℕ) (hn : n < 2 ^ 31) :
    FloatOps.sitofp (F := Ideal) .f32 (BitVec.ofNat 32 n) = (((n : ℕ) : ℝ) : EReal) := by
  show (((BitVec.ofNat 32 n).toInt : ℝ) : EReal) = _
  rw [toInt_ofNat_small n hn]; norm_cast

end Cert.RefValue
-- ==== Proof.RefMask.lean ====
import proofs.«409428_j40355512713957_3_alg».proof.Proof.RefRead
import proofs.«409428_j40355512713957_3_alg».proof.Proof.RefCount
import proofs.«409428_j40355512713957_3_alg».proof.Proof.Spec

/-!
The reference's pair mask and its integer pair count.

The mask at `(b, i, j)` is the conjunction of "relevance `(b, i)` is the word 1" and "relevance `(b, j)` is the word 0"; the
count stage sums the mask, widened to 32 bits, over every axis, so it is the word of the number of counted pairs, a number
that is at most `128 · 1024 · 1024 = 2 ^ 27`.
-/

open scoped BigOperators

noncomputable section

namespace Cert.RefValue

open Cert.ReferenceIdeal Cert.ReferenceIdeal.ReadP Idealize.ShloMosaic Idealize.ShloMosaic.ValueIdx
open Idealize.ShloMosaic.StableHlo.Predicate

/-- The relevance words of an argument array, by row and column. -/
abbrev relAt (x1 : (⟨S128x1024, .i32⟩ : BufTy).Contents (Elt Ideal)) : Fin 128 → Fin 1024 → BitVec 32 :=
  fun b i => x1 (ix2 b i)

/-! ## The broadcasts' index maps at a pair index -/

theorem idx_left (b : Fin 128) (i j : Fin 1024) : idx_main_v4 (idx_main_v6 (ix3 b i j)) = ix2 b i := by
  funext a; match a with | ⟨0, _⟩ => rfl | ⟨1, _⟩ => rfl

theorem idx_right (b : Fin 128) (i j : Fin 1024) : idx_main_v5 (idx_main_v7 (ix3 b i j)) = ix2 b j := by
  funext a; match a with | ⟨0, _⟩ => rfl | ⟨1, _⟩ => rfl

/-! ## The mask -/

/-- The pair mask is set at `(b, i, j)` exactly when `(b, i)` is a positive and `(b, j)` a negative. -/
theorem mask_iff (x1 : (⟨S128x1024, .i32⟩ : BufTy).Contents (Elt Ideal)) (b : Fin 128) (i j : Fin 1024) :
    val_main_v8 (F := Ideal) x1 (ix3 b i j) = 1#1 ↔ (relAt x1 b i = 1#32 ∧ relAt x1 b j = 0#32) := by
  rw [val_main_v8_apply, andi_eq_one_iff, val_main_v6_apply, val_main_v4_apply, val_main_v1_apply, val_main_v0_apply,
    val_main_c_apply, val_main_v7_apply, val_main_v5_apply, val_main_v3_apply, val_main_v2_apply, val_main_c_0_apply,
    idx_left, idx_right, cmpi_eq_iff, cmpi_eq_iff]

/-- The number of set bits of the mask is the number of counted pairs. -/
theorem mask_sum (x1 : (⟨S128x1024, .i32⟩ : BufTy).Contents (Elt Ideal)) :
    (∑ k : S128x1024x1024.Idx, if val_main_v8 (F := Ideal) x1 k = 1#1 then 1 else 0) = Cert.PairLoss.pairCount (relAt x1) := by
  rw [sum_idx3]
  unfold Cert.PairLoss.pairCount
  refine Finset.sum_congr rfl fun b _ => Finset.sum_congr rfl fun i _ => Finset.sum_congr rfl fun j _ => ?_
  exact if_congr (mask_iff x1 b i j) rfl rfl

/-- There are at most `2 ^ 27` pairs. -/
theorem pairCount_le (r : Fin 128 → Fin 1024 → BitVec 32) : Cert.PairLoss.pairCount r ≤ 2 ^ 27 := by
  unfold Cert.PairLoss.pairCount
  calc (∑ b : Fin 128, ∑ i : Fin 1024, ∑ j : Fin 1024, if r b i = 1#32 ∧ r b j = 0#32 then 1 else 0)
      ≤ ∑ _b : Fin 128, ∑ _i : Fin 1024, ∑ _j : Fin 1024, 1 :=
        Finset.sum_le_sum fun b _ => Finset.sum_le_sum fun i _ => Finset.sum_le_sum fun j _ => by split <;> omega
    _ = 2 ^ 27 := by simp

theorem pairCount_lt (r : Fin 128 → Fin 1024 → BitVec 32) : Cert.PairLoss.pairCount r < 2 ^ 31 :=
  lt_of_le_of_lt (pairCount_le r) (by norm_num)

/-! ## The count stage -/

/-- The integer count is the word of the number of counted pairs. -/
theorem count_eq (x1 : (⟨S128x1024, .i32⟩ : BufTy).Contents (Elt Ideal)) (k : S_.Idx) :
    val_main_v20 (F := Ideal) x1 k = BitVec.ofNat 32 (Cert.PairLoss.pairCount (relAt x1)) := by
  unfold val_main_v20 val_main_v19 val_main_c_3
  rw [reduce_count_total (fun j j' => funext fun a => a.elim0) _ _ _ _ _
    (by rw [mask_sum]; exact lt_of_le_of_lt (pairCount_le _) (by norm_num)), mask_sum]

end Cert.RefValue

end
-- ==== Proof.RefLoss.lean ====
import proofs.«409428_j40355512713957_3_alg».proof.Proof.RefMask

/-!
The reference's float side: the margin, the softplus, the masked loss at a pair index, and the total over the pair cube.

The softplus is printed in its guarded form `select (y ≠ y) (x + 0) (max x 0 + log1p (exp (-|y|)))` with `y = x - 0`; on the
extended reals the guard `y ≠ y` is never set and `x - 0 = x`, so the stage is `max x 0 + log1p (exp (-(max x (-x))))`.
-/

open scoped BigOperators

noncomputable section

namespace Cert.RefValue

open Cert.ReferenceIdeal Cert.ReferenceIdeal.ReadP Idealize.ShloMosaic Idealize.ShloMosaic.ValueIdx

/-- The scores of an argument array, by row and column. -/
abbrev scoreAt (x0 : (⟨S128x1024, .f32⟩ : BufTy).Contents (Elt Ideal)) : Fin 128 → Fin 1024 → EReal :=
  fun b i => x0 (ix2 b i)

theorem idx_left_f (b : Fin 128) (i j : Fin 1024) : idx_main_v9 (idx_main_v11 (ix3 b i j)) = ix2 b i := by
  funext a; match a with | ⟨0, _⟩ => rfl | ⟨1, _⟩ => rfl

theorem idx_right_f (b : Fin 128) (i j : Fin 1024) : idx_main_v10 (idx_main_v12 (ix3 b i j)) = ix2 b j := by
  funext a; match a with | ⟨0, _⟩ => rfl | ⟨1, _⟩ => rfl

/-- No extended real differs from itself. -/
theorem une_self (y : EReal) : Ideal.cmp .une y y = 0#1 := by
  simp [Ideal.cmp]

/-- The margin stage at a pair index. -/
theorem margin_at (x0 : (⟨S128x1024, .f32⟩ : BufTy).Contents (Elt Ideal)) (b : Fin 128) (i j : Fin 1024) :
    val_main_v15 (F := Ideal) x0 (ix3 b i j) = Cert.PairLoss.margin (scoreAt x0 b i) (scoreAt x0 b j) := by
  rw [val_main_v15_apply, val_main_v14_apply, val_main_cst_apply, val_main_v13_apply, val_main_v11_apply, val_main_v9_apply,
    val_main_v12_apply, val_main_v10_apply, idx_left_f, idx_right_f]
  rfl

/-- The softplus stage at any index, over the margin stage. -/
theorem softplus_at (x0 : (⟨S128x1024, .f32⟩ : BufTy).Contents (Elt Ideal)) (k : S128x1024x1024.Idx) :
    val_main_v16 (F := Ideal) x0 k = Cert.PairLoss.softplus (val_main_v15 (F := Ideal) x0 k) := by
  rw [val_main_v16_apply, val_main_call0_v4_apply, Ideal.cmpf_def, une_self, select_zero, val_main_call0_v11_apply,
    val_main_call0_v1_apply, val_main_call0_v0_apply, val_main_call0_cst_apply, val_main_call0_v10_apply,
    val_main_call0_v9_apply, val_main_call0_v8_apply, val_main_call0_v7_apply, val_main_call0_v3_apply,
    val_main_call0_v2_apply, val_main_call0_cst_apply]
  simp only [Ideal.addf_def, Ideal.subf_def, Ideal.maximumf_def, Ideal.hostUnary_log1p_def, Ideal.hostUnary_exp_def,
    Ideal.hostNegf_def, Ideal.hostAbsf_def, Ideal.negf_def, Ideal.absf_def, Ideal.ofBits_def, Ideal.ofBits_zero_f32, sub_zero]
  rfl

/-- The masked loss at a pair index. -/
theorem loss_at (x0 : (⟨S128x1024, .f32⟩ : BufTy).Contents (Elt Ideal)) (x1 : (⟨S128x1024, .i32⟩ : BufTy).Contents (Elt Ideal))
    (b : Fin 128) (i j : Fin 1024) :
    val_main_v17 (F := Ideal) x0 x1 (ix3 b i j)
      = if relAt x1 b i = 1#32 ∧ relAt x1 b j = 0#32 then Cert.PairLoss.pairLoss (scoreAt x0 b i) (scoreAt x0 b j) else 0 := by
  rw [val_main_v17_apply]
  by_cases h : relAt x1 b i = 1#32 ∧ relAt x1 b j = 0#32
  · rw [if_pos h, (mask_iff x1 b i j).2 h, select_one, softplus_at, margin_at]
    rfl
  · rw [if_neg h, eq_zero_of_ne_one (fun e => h ((mask_iff x1 b i j).1 e)), select_zero, val_main_call1_v1_apply,
      val_main_call1_v0_apply, val_main_cst_1_apply]
    exact Ideal.ofBits_zero_f32

/-- The float total is the summed loss over every counted pair. -/
theorem total_eq (x0 : (⟨S128x1024, .f32⟩ : BufTy).Contents (Elt Ideal)) (x1 : (⟨S128x1024, .i32⟩ : BufTy).Contents (Elt Ideal))
    (k : S_.Idx) :
    val_main_v18 (F := Ideal) x0 x1 k = Cert.PairLoss.lossTotal (scoreAt x0) (relAt x1) := by
  rw [val_main_v18_apply, val_main_cst_2_apply, sum_idx3]
  unfold Cert.PairLoss.lossTotal
  rw [show FloatOps.ofBits (F := Ideal) .f32 0x00000000#32 = (0 : EReal) from Ideal.ofBits_zero_f32, zero_add]
  exact Finset.sum_congr rfl fun b _ => Finset.sum_congr rfl fun i _ => Finset.sum_congr rfl fun j _ => loss_at x0 x1 b i j

end Cert.RefValue

end
-- ==== Proof.RefValue.lean ====
import proofs.«409428_j40355512713957_3_alg».proof.Proof.RefLoss

/-!
The reference computes the mean pair loss: its result buffer after the run is `Cert.PairLoss.result` of the two argument
arrays, and the arguments are unchanged.
-/

open scoped BigOperators

noncomputable section

namespace Cert.RefValue

open Cert.ReferenceIdeal Cert.ReferenceIdeal.ReadP Idealize.ShloMosaic Idealize.ShloMosaic.ValueIdx Idealize.ShloMosaic.TcCoe
open Idealize.SL.Sem Idealize.ShloMosaic.StableHlo

/-- The scores a device's memory holds at launch. -/
def scoresOf (m : (ℓ : Loc nD τ sig) → Buf (Elt Ideal) ℓ) (c : Dev nD) : Fin 128 → Fin 1024 → EReal :=
  fun b i => m ((c.tc : Thread nD τ).loc main_arg0) (ValueIdx.ix2 b i)

/-- The relevance words a device's memory holds at launch. -/
def relOf (m : (ℓ : Loc nD τ sig) → Buf (Elt Ideal) ℓ) (c : Dev nD) : Fin 128 → Fin 1024 → BitVec 32 :=
  fun b i => m ((c.tc : Thread nD τ).loc main_arg1) (ValueIdx.ix2 b i)

/-- The last stage, at its one index, is the mean pair loss. -/
theorem val_result (x0 : (⟨S128x1024, .f32⟩ : BufTy).Contents (Elt Ideal)) (x1 : (⟨S128x1024, .i32⟩ : BufTy).Contents (Elt Ideal))
    (k : S_.Idx) :
    val_main_v25 (F := Ideal) x0 x1 k = Cert.PairLoss.result (scoreAt x0) (relAt x1) := by
  have hlt := pairCount_lt (relAt x1)
  have hmax : max (Cert.PairLoss.pairCount (relAt x1)) 1 < 2 ^ 31 := max_lt hlt (by norm_num)
  rw [val_main_v25_apply, val_main_v21_apply, count_eq, val_main_c_4_apply, sgt_ofNat_zero _ hlt, val_main_v24_apply, total_eq,
    val_main_v23_apply, val_main_v22_apply, count_eq, val_main_c_5_apply, maxsi_ofNat_one _ hlt, sitofp_ofNat _ hmax,
    val_main_cst_6_apply]
  unfold Cert.PairLoss.result
  by_cases h : 0 < Cert.PairLoss.pairCount (relAt x1)
  · rw [if_pos h, if_pos h, select_one]
    rfl
  · rw [if_neg h, if_neg h, select_zero]
    exact Ideal.ofBits_zero_f32

/-- The reference's result term is the mean pair loss of the launch contents. -/
theorem ref_result (m : (ℓ : Loc nD τ sig) → Buf (Elt Ideal) ℓ) (c : Dev nD) :
    Cert.ReferenceIdeal.ValueP.res_main_v25 (F := Ideal) m c = fun _ => Cert.PairLoss.result (scoresOf m c) (relOf m c) := by
  rw [val_main_v25_eq]
  funext k
  exact val_result _ _ k

/-- Every weakly fair execution of the reference terminates with the result buffer at the mean pair loss of the launch
    contents, the two arguments unchanged. -/
theorem ref_run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      fun r => ∀ c : Dev nD,
        r.2.mem ((c.tc : Thread nD τ).loc main_v25) = (fun _ => Cert.PairLoss.result (scoresOf m c) (relOf m c))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run (Cert.ReferenceIdeal.defs (F := Ideal)) _ _).mono
    (fun _ h c => ⟨(h c).1.trans (ref_result m c), (h c).2.1, (h c).2.2⟩)
    (Cert.ReferenceIdeal.ValueP.run (F := Ideal) m ρ)

end Cert.RefValue

end
-- ==== Proof.lean ====
/- The certificate of the pairwise ranking loss kernel against its reference.

   The kernel tiles the pair cube: per group of 16 rows and per pair of column tiles it adds the masked softplus sum
   and the pair count (positives on the left times negatives on the right) into two running totals, writes them out
   at the group's last tile pair, and the host sums the groups and divides. The reference sums the masked cube and
   counts the mask in integers. At the extended reals both are the mean loss over the counted pairs
   (`Cert.PairLoss.result`): multiplying by a 0/1 mask is selecting, and the sums differ only in their grouping.
   Two input windows read each argument array, so each array's share is dealt in halves to its two windows for the
   launch and joined again for the host lines after it. -/
import proofs.«409428_j40355512713957_3_alg».proof.Defs
import proofs.«409428_j40355512713957_3_alg».proof.Proof.Gen.Kernel
import proofs.«409428_j40355512713957_3_alg».proof.Proof.Gen.KernelIdeal
import proofs.«409428_j40355512713957_3_alg».proof.Proof.Gen.ReferenceIdeal
import proofs.«409428_j40355512713957_3_alg».proof.Proof.Gen.Pre_finite_inputs
import proofs.«409428_j40355512713957_3_alg».proof.Proof.KernelFrame.Frame
import proofs.«409428_j40355512713957_3_alg».proof.Proof.KernelValue
import proofs.«409428_j40355512713957_3_alg».proof.Proof.RefValue
import Idealize.ShloMosaic.Adequacy
import Idealize.ShloMosaic.Init

noncomputable section

namespace Cert.Proof

open Idealize.ShloMosaic Idealize.SL.Sem

/-- Memories that agree on the two arguments hold the same scores and relevances. -/
theorem agree_scores (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.PairLoss.result (Cert.RefValue.scoresOf m' c) (Cert.RefValue.relOf m' c)
      = Cert.PairLoss.result (Cert.KernelIdeal.Hand.scoresOf m c) (Cert.KernelIdeal.Hand.relOf m c) := by
  unfold Cert.RefValue.scoresOf Cert.RefValue.relOf Cert.KernelIdeal.Hand.scoresOf Cert.KernelIdeal.Hand.relOf
  rw [h0, h1]

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  fun m ρ _ => (θ_run (Cert.ReferenceIdeal.defs (F := Ideal)) _ _).mono (fun _ h c => (h c).2) (Cert.RefValue.ref_run m ρ),
  trivial,
  fun m g m' g' _ hagree =>
    ⟨fun c => fun _ => Cert.PairLoss.result (Cert.KernelIdeal.Hand.scoresOf m c) (Cert.KernelIdeal.Hand.relOf m c),
      Cert.KernelIdeal.Hand.kernel_run m g,
      (θ_run (Cert.ReferenceIdeal.defs (F := Ideal)) _ _).mono
        (fun _ h c => ⟨(h c).1.trans (funext fun _ => agree_scores m m' c (hagree c).1 (hagree c).2), (h c).2⟩)
        (Cert.RefValue.ref_run m' g')⟩⟩

end Cert.Proof

end
